-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S10x1024 : Shape := ⟨2, ![10, 1024]⟩
abbrev S50257x1024 : Shape := ⟨2, ![50257, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S10x1024 : S_.BroadcastsInDim S10x1024 (![] : Fin 0 → Fin S10x1024.rank)
  reducesTo_S10x1024_S_d0_1 : S10x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S10 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S10x1024 .f32) (main_arg3 : FVec F S50257x1024 .f32) (main_arg4 : FVec F S10x2048 .f32) (main_arg5 : FVec F S10 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S10x1024 .f32 := Host.absf main_arg2
  let main_cst_0 : FVec F S_ .f32 := constant S_ .f32 0x7F800000#32
  let main_v5 : FVec F S10x1024 .f32 := broadcastInDim S10x1024 ![] bcast_S_S10x1024 main_cst_0
  let main_v6 : IVec S10x1024 1 := cmpf .olt main_v4 main_v5
  let main_c_1 : IVec S_ 1 := constantI S_ 1 1#1
  let main_v7 : IVec S_ 1 := (fun x v => Host.reduce IntOp.andi x v reducesTo_S10x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S10x2048 .f32 := Host.absf main_arg4
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S10x1024 : Shape := ⟨2, ![10, 1024]⟩
abbrev S50257x1024 : Shape := ⟨2, ![50257, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x10 : Shape := ⟨2, ![1, 10]⟩
abbrev S1x2048 : Shape := ⟨2, ![1, 2048]⟩
abbrev S3x1024x1024 : Shape := ⟨3, ![3, 1024, 1024]⟩
abbrev S3x1024 : Shape := ⟨2, ![3, 1024]⟩
abbrev S1x512 : Shape := ⟨2, ![1, 512]⟩
abbrev S3x512x1024 : Shape := ⟨3, ![3, 512, 1024]⟩
abbrev S3x512 : Shape := ⟨2, ![3, 512]⟩
abbrev S1x512x1024 : Shape := ⟨3, ![1, 512, 1024]⟩
abbrev S512x1024 : Shape := ⟨2, ![512, 1024]⟩
abbrev S512 : Shape := ⟨1, ![512]⟩
abbrev S1x50257 : Shape := ⟨2, ![1, 50257]⟩
abbrev S3200x1024 : Shape := ⟨2, ![3200, 1024]⟩
abbrev S1x3200 : Shape := ⟨2, ![1, 3200]⟩

abbrev nBuf : Space → Nat
  | .hbm => 49
  | .vmem => 30
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S10x1024, .f32⟩
  | .hbm, ⟨3, _⟩ => ⟨S50257x1024, .f32⟩
  | .hbm, ⟨4, _⟩ => ⟨S10x2048, .f32⟩
  | .hbm, ⟨5, _⟩ => ⟨S10, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x10, .f32⟩
  | .hbm, ⟨25, _⟩ => ⟨S1x1024, .f32⟩
  | .hbm, ⟨26, _⟩ => ⟨S3x1024x1024, .f32⟩
  | .hbm, ⟨27, _⟩ => ⟨S3x1024x1024, .f32⟩
  | .hbm, ⟨28, _⟩ => ⟨S3x1024, .f32⟩
  | .hbm, ⟨29, _⟩ => ⟨S3x1024, .f32⟩
  | .hbm, ⟨30, _⟩ => ⟨S1x1024, .f32⟩
  | .hbm, ⟨31, _⟩ => ⟨S1x50257, .f32⟩
  | .hbm, ⟨32, _⟩ => ⟨S1x50257, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x50257, .f32⟩
  | .hbm, ⟨40, _⟩ => ⟨S1x50257, .f32⟩
  | .hbm, ⟨41, _⟩ => ⟨S1x50257, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S10x1024, .f32⟩
  | .local _ .vmem, ⟨3, _⟩ => ⟨S10x2048, .f32⟩
  | .local _ .vmem, ⟨4, _⟩ => ⟨S10, .f32⟩
  | .local _ .vmem, ⟨5, _⟩ => ⟨S1024x2048, .f32⟩
  | .local _ .vmem, ⟨6, _⟩ => ⟨S1024, .f32⟩
  | .local _ .vmem, ⟨7, _⟩ => ⟨S1x10, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S3x512x1024, .f32⟩
  | .local _ .vmem, ⟨14, _⟩ => ⟨S3x512x1024, .f32⟩
  | .local _ .vmem, ⟨15, _⟩ => ⟨S3x512x1024, .f32⟩
  | .local _ .vmem, ⟨16, _⟩ => ⟨S3x512x1024, .f32⟩
  | .local _ .vmem, ⟨17, _⟩ => ⟨S3x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S3200x1024, .f32⟩
  | .local _ .vmem, ⟨25, _⟩ => ⟨S3200x1024, .f32⟩
  | .local _ .vmem, ⟨26, _⟩ => ⟨S1x3200, .f32⟩
  | .local _ .vmem, ⟨27, _⟩ => ⟨S1x3200, .f32⟩
  | .local _ .vmem, ⟨28, _⟩ => ⟨S1x3200, .f32⟩
  | .local _ .vmem, ⟨29, _⟩ => ⟨S1x3200, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3200x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S10x2048_S10x2048_0_0 : ∀ a, (![0, 0] : Fin 2 → Nat) a + S10x2048.size a ≤ S10x2048.size a
  h_S10x2048 : 0 < S10x2048.numel
  bitsLt_bf16_f32 : FTy.bits .bf16 < FTy.bits .f32
  inb_S10_S10_0 : ∀ a, (![0] : Fin 1 → Nat) a + S10.size a ≤ S10.size a
  h_S10 : 0 < S10.numel
  shapeCasts_S10_S1x10 : S10.ShapeCasts S1x10
  reduces_S1x10_S1 : S1x10.Reduces [1] S1
  shapeCasts_S1_S1x1 : S1.ShapeCasts S1x1
  broadcasts_S1x1_S1x10 : S1x1.Broadcasts S1x10
  inb_S10x1024_S10x1024_0_0 : ∀ a, (![0, 0] : Fin 2 → Nat) a + S10x1024.size a ≤ S10x1024.size a
  h_S10x1024 : 0 < S10x1024.numel
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  inb_S1x10_S1x10_0_0 : ∀ a, (![0, 0] : Fin 2 → Nat) a + S1x10.size a ≤ S1x10.size a
  h_S1x10 : 0 < S1x10.numel
  shapeCasts_S3072x1024_S3x1024x1024 : S3072x1024.ShapeCasts S3x1024x1024
  shapeCasts_S3072_S3x1024 : S3072.ShapeCasts S3x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  inb_S3x512x1024_S1x512x1024_1_0_0 : ∀ a, (![1, 0, 0] : Fin 3 → Nat) a + S1x512x1024.size a ≤ S3x512x1024.size a
  inb_S3x512x1024_S1x512x1024_2_0_0 : ∀ a, (![2, 0, 0] : Fin 3 → Nat) a + S1x512x1024.size a ≤ S3x512x1024.size a
  inb_S3x512_S1x512_0_0 : ∀ a, (![0, 0] : Fin 2 → Nat) a + S1x512.size a ≤ S3x512.size a
  shapeCasts_S1x512_S512 : S1x512.ShapeCasts S512
  shapeCasts_S512_S1x512 : S512.ShapeCasts S1x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  shapeCasts_S50257_S1x50257 : S50257.ShapeCasts S1x50257
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S10x2048_S1x10_1_1_0_0_n_n_wf : DotDims.WF S1x2048 S10x2048 S1x10 [1] [1] [0] [0] [] []
  dot_S1x10_S10x1024_S1x1024_1_0_0_1_n_n_wf : DotDims.WF S1x10 S10x1024 S1x1024 [1] [0] [0] [1] [] []
  dot_S1x2048_S1024x2048_S1x1024_1_1_0_0_n_n_wf : DotDims.WF S1x2048 S1024x2048 S1x1024 [1] [1] [0] [0] [] []
  dot_S1x1024_S512x1024_S1x512_1_1_0_0_n_n_wf : DotDims.WF S1x1024 S512x1024 S1x512 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x1024.size a
  hwx0_2 : ∀ i : grid0.Coords, EltTy.bits .f32 = 32 ∨ (Rect.block (s := S10x1024) S10x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x2048.size a ≤ S10x2048.size a
  hwx0_3 : ∀ i : grid0.Coords, EltTy.bits .f32 = 32 ∨ (Rect.block (s := S10x2048) S10x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x512x1024.size a ≤ S3x1024x1024.size a
  hwx1_3 : ∀ i : grid1.Coords, EltTy.bits .f32 = 32 ∨ (Rect.block (s := S3x1024x1024) S3x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x512x1024.size a ≤ S3x1024x1024.size a
  hwx1_4 : ∀ i : grid1.Coords, EltTy.bits .f32 = 32 ∨ (Rect.block (s := S3x1024x1024) S3x512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x512.size a ≤ S3x1024.size a
  hwx1_5 : ∀ i : grid1.Coords, EltTy.bits .f32 = 32 ∨ (Rect.block (s := S3x1024) S3x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3x512.size a ≤ S3x1024.size a
  hwx1_6 : ∀ i : grid1.Coords, EltTy.bits .f32 = 32 ∨ (Rect.block (s := S3x1024) S3x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x1024.size a
  hwx1_7 : ∀ i : grid1.Coords, EltTy.bits .f32 = 32 ∨ (Rect.block (s := S1x1024) S1x512.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3200x1024.size a < S50257x1024.size a
  hwx2_1 : ∀ i : grid2.Coords, EltTy.bits .f32 = 32 ∨ (Rect.unit (s := S50257x1024) (fun a => cc2_transform_1 i a * S3200x1024.size a) (fun a => (Pipeline.Clip.of (cc2_transform_1 i a) (S3200x1024.size a) (S50257x1024.size a)).extent (S3200x1024.size a)) fun a => Pipeline.Clip.inb (Pipeline.Clip.ok_of (hstart2_1 i a))).WholeWords (EltTy.packing .f32)
  hwxs2_1 : ∀ i : grid2.Coords, EltTy.bits .f32 = 32 ∨ (Rect.unit (s := S3200x1024) (fun _ => 0) (fun a => (Pipeline.Clip.of (cc2_transform_1 i a) (S3200x1024.size a) (S50257x1024.size a)).extent (S3200x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3200.size a < S1x50257.size a
  hwx2_2 : ∀ i : grid2.Coords, EltTy.bits .f32 = 32 ∨ (Rect.unit (s := S1x50257) (fun a => cc2_transform_2 i a * S1x3200.size a) (fun a => (Pipeline.Clip.of (cc2_transform_2 i a) (S1x3200.size a) (S1x50257.size a)).extent (S1x3200.size a)) fun a => Pipeline.Clip.inb (Pipeline.Clip.ok_of (hstart2_2 i a))).WholeWords (EltTy.packing .f32)
  hwxs2_2 : ∀ i : grid2.Coords, EltTy.bits .f32 = 32 ∨ (Rect.unit (s := S1x3200) (fun _ => 0) (fun a => (Pipeline.Clip.of (cc2_transform_2 i a) (S1x3200.size a) (S1x50257.size a)).extent (S1x3200.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3200.size a < S1x50257.size a
  hwx2_3 : ∀ i : grid2.Coords, EltTy.bits .f32 = 32 ∨ (Rect.unit (s := S1x50257) (fun a => cc2_transform_3 i a * S1x3200.size a) (fun a => (Pipeline.Clip.of (cc2_transform_3 i a) (S1x3200.size a) (S1x50257.size a)).extent (S1x3200.size a)) fun a => Pipeline.Clip.inb (Pipeline.Clip.ok_of (hstart2_3 i a))).WholeWords (EltTy.packing .f32)
  hwxs2_3 : ∀ i : grid2.Coords, EltTy.bits .f32 = 32 ∨ (Rect.unit (s := S1x3200) (fun _ => 0) (fun a => (Pipeline.Clip.of (cc2_transform_3 i a) (S1x3200.size a) (S1x50257.size a)).extent (S1x3200.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S10x2048_S1x10_1_1_0_0_n_n : DotDims S1x2048 S10x2048 S1x10 where
  lhsContracting := [1]
  rhsContracting := [1]
  lhsNonContracting := [0]
  rhsNonContracting := [0]
  lhsBatch := []
  rhsBatch := []
  wf := dot_S1x2048_S10x2048_S1x10_1_1_0_0_n_n_wf
def dot_S1x10_S10x1024_S1x1024_1_0_0_1_n_n : DotDims S1x10 S10x1024 S1x1024 where
  lhsContracting := [1]
  rhsContracting := [0]
  lhsNonContracting := [0]
  rhsNonContracting := [1]
  lhsBatch := []
  rhsBatch := []
  wf := dot_S1x10_S10x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1x10.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S3x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S3x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S3x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12) S3x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v13) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S3200x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v14) S1x3200.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v15) S1x3200.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S10x1024 : Shape := ⟨2, ![10, 1024]⟩
abbrev S50257x1024 : Shape := ⟨2, ![50257, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x10 : Shape := ⟨2, ![2048, 10]⟩
abbrev S1x10 : Shape := ⟨2, ![1, 10]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S10x1024, .f32⟩
  | .hbm, ⟨3, _⟩ => ⟨S50257x1024, .f32⟩
  | .hbm, ⟨4, _⟩ => ⟨S10x2048, .f32⟩
  | .hbm, ⟨5, _⟩ => ⟨S10, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x10, .f32⟩
  | .hbm, ⟨26, _⟩ => ⟨S1x10, .f32⟩
  | .hbm, ⟨27, _⟩ => ⟨S1x10, .f32⟩
  | .hbm, ⟨28, _⟩ => ⟨S1x10, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x10, .f32⟩
  | .hbm, ⟨36, _⟩ => ⟨S1x10, .f32⟩
  | .hbm, ⟨37, _⟩ => ⟨S1x10, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x10, .f32⟩
  | .hbm, ⟨42, _⟩ => ⟨S1x10, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S10x2048_S2048x10_1_0 : S10x2048.Transposes [1, 0] S2048x10
  bcast_S10_S1x10_1 : S10.BroadcastsInDim S1x10 (![1] : Fin 1 → Fin S1x10.rank)
  reducesTo_S1x10_S1_d1 : S1x10.ReducesTo [1] S1
  h_S_ : 0 < S_.numel
  bcast_S1x1_S1x10_0_1 : S1x1.BroadcastsInDim S1x10 (![0, 1] : Fin 2 → Fin S1x10.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x10_S1x10_1_0_0_1_n_n_wf : DotDims.WF S1x2048 S2048x10 S1x10 [1] [0] [0] [1] [] []
  dot_S1x10_S10x1024_S1x1024_1_0_0_1_n_n_wf : DotDims.WF S1x10 S10x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x10_S1x10_1_0_0_1_n_n : DotDims S1x2048 S2048x10 S1x10 where
  lhsContracting := [1]
  rhsContracting := [0]
  lhsNonContracting := [0]
  rhsNonContracting := [1]
  lhsBatch := []
  rhsBatch := []
  wf := dot_S1x2048_S2048x10_S1x10_1_0_0_1_n_n_wf
def dot_S1x10_S10x1024_S1x1024_1_0_0_1_n_n : DotDims S1x10 S10x1024 S1x1024 where
  lhsContracting := [1]
  rhsContracting := [0]
  lhsNonContracting := [0]
  rhsNonContracting := [1]
  lhsBatch := []
  rhsBatch := []
  wf := dot_S1x10_S10x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.Kernel.D0.lean ====
/- Region 0 (attention weights and the combined, rectified input): what each staging buffer holds after the body,
   as a function of the region's entry contents `V`. Window numbering: 0 the embedded row, 1 the hidden row,
   2 the encoder outputs, 3 and 4 the attention weights and bias, 5 and 6 the combine weights and bias;
   7 the softmax weights (1 x 10), 8 the rectified combination (1 x 1024). One grid point; every block is its array. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1x1024 := Rect.unit (s := S1x1024) ![0, 0] S1x1024.size inb_S1x1024_S1x1024_0_0
abbrev rE0 : Rect S10x1024 := Rect.unit (s := S10x1024) ![0, 0] S10x1024.size inb_S10x1024_S10x1024_0_0
abbrev rW0 : Rect S10x2048 := Rect.unit (s := S10x2048) ![0, 0] S10x2048.size inb_S10x2048_S10x2048_0_0
abbrev rB0 : Rect S10 := Rect.unit (s := S10) ![0] S10.size inb_S10_S10_0
abbrev rC0 : Rect S1024x2048 := Rect.unit (s := S1024x2048) ![0, 0] S1024x2048.size inb_S1024x2048_S1024x2048_0_0
abbrev rD0 : Rect S1024 := Rect.unit (s := S1024) ![0] S1024.size inb_S1024_S1024_0
abbrev rO0 : Rect S1x10 := Rect.unit (s := S1x10) ![0, 0] S1x10.size inb_S1x10_S1x10_0_0

/-- The softmax weights' buffer after the body: one whole store of the weights computed from the embedded row,
    the hidden row, the attention matrix and its bias. -/
def out0_7 (x0 x1 : Vec F S1x1024 .f32) (x3 : Vec F S10x2048 .f32) (x4 : Vec F S10 .f32) : Vec F S1x10 .f32 :=
  View.canon [⟨rO0, k0_pay2 (View.ld x0 rA0) (View.ld x1 rA0) (View.ld x3 rW0) (View.ld x4 rB0)⟩]

/-- The combined input's buffer after the body: one whole store. -/
def out0_8 (x0 x1 : Vec F S1x1024 .f32) (x2 : Vec F S10x1024 .f32) (x3 : Vec F S10x2048 .f32) (x4 : Vec F S10 .f32)
    (x5 : Vec F S1024x2048 .f32) (x6 : Vec F S1024 .f32) : Vec F S1x1024 .f32 :=
  View.canon [⟨rA0, k0_pay3 (View.ld x0 rA0) (View.ld x1 rA0) (View.ld x3 rW0) (View.ld x4 rB0) (View.ld x2 rE0) (View.ld x5 rC0) (View.ld x6 rD0)⟩]

/-- The proof data of pipeline 0 on core `c`: the arrays as the region finds them; after the body each input's
    buffer at its block and each output's at the stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 3 t) (iblk0 V c 4 t) := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) := by
  dsimp only [dat0]

end Cert.Kernel.Hand

end
-- ==== Proof.Kernel.D1.lean ====
/- Region 1 (the recurrent step, two grid points of 512 hidden units each): what each staging buffer holds after
   the body, as a function of the region's entry contents `V`. Windows: 0 the combined input row, 1 the whole hidden row,
   2 the hidden row's block of 512, 3 and 4 the input and hidden gate weights (three gates by 512 units by 1024),
   5 and 6 their biases (three gates by 512), 7 the new hidden block (1 x 512). Windows 1 and 2 read ONE array
   (the hidden row): each holds half of the share of it. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1x1024 := Rect.unit (s := S1x1024) ![0, 0] S1x1024.size inb_S1x1024_S1x1024_0_0
abbrev rH1 : Rect S1x512 := Rect.unit (s := S1x512) ![0, 0] S1x512.size inb_S1x512_S1x512_0_0
abbrev rG1_0 : Rect S3x512x1024 := Rect.unit (s := S3x512x1024) ![0, 0, 0] S1x512x1024.size inb_S3x512x1024_S1x512x1024_0_0_0
abbrev rG1_1 : Rect S3x512x1024 := Rect.unit (s := S3x512x1024) ![1, 0, 0] S1x512x1024.size inb_S3x512x1024_S1x512x1024_1_0_0
abbrev rG1_2 : Rect S3x512x1024 := Rect.unit (s := S3x512x1024) ![2, 0, 0] S1x512x1024.size inb_S3x512x1024_S1x512x1024_2_0_0
abbrev rB1_0 : Rect S3x512 := Rect.unit (s := S3x512) ![0, 0] S1x512.size inb_S3x512_S1x512_0_0
abbrev rB1_1 : Rect S3x512 := Rect.unit (s := S3x512) ![1, 0] S1x512.size inb_S3x512_S1x512_1_0
abbrev rB1_2 : Rect S3x512 := Rect.unit (s := S3x512) ![2, 0] S1x512.size inb_S3x512_S1x512_2_0

/-- The new hidden block's buffer after the body: one whole store of the gated update computed from the input row,
    the hidden row, the hidden block, and the three gates' slices of the two weight blocks and the two bias blocks. -/
def out1_7 (x0 x1 : Vec F S1x1024 .f32) (x2 : Vec F S1x512 .f32) (x3 x4 : Vec F S3x512x1024 .f32) (x5 x6 : Vec F S3x512 .f32) :
    Vec F S1x512 .f32 :=
  View.canon [⟨rH1, k1_pay10 (k1_pay1 (View.ld x0 rA1)) (k1_pay2 (View.ld x1 rA1)) (k1_pay3 (View.ld x2 rH1))
    (k1_pay4 (View.ld x3 rG1_2)) (k1_pay5 (View.ld x4 rG1_0)) (k1_pay6 (View.ld x4 rG1_1)) (k1_pay7 (View.ld x4 rG1_2))
    (k1_pay8 (View.ld x0 rA1) (View.ld x3 rG1_0) (View.ld x5 rB1_0)) (k1_pay9 (View.ld x0 rA1) (View.ld x3 rG1_1))
    (View.ld x5 rB1_1) (View.ld x5 rB1_2) (View.ld x6 rB1_0) (View.ld x6 rB1_1) (View.ld x6 rB1_2)⟩]

/-- The proof data of pipeline 1 on core `c`. The two windows on the hidden row's array hold the two halves of
    its share; every other input its array's whole share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.Kernel.D2.lean ====
/- Region 2 (the output projection, sixteen grid points of 3200 vocabulary entries, the last cut at the array's end):
   what each staging buffer holds after the body, as a function of the region's entry contents `V`. Windows: 0 the
   new hidden row (whole), 1 the projection matrix's block of 3200 rows, 2 the bias's block of 3200 entries, 3 the
   logits' block of 3200 entries. Blocks 1, 2, 3 overhang the arrays at the last point: their buffers are described on
   the part inside the array only, and filled out with the zero word elsewhere. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1x1024 := Rect.unit (s := S1x1024) ![0, 0] S1x1024.size inb_S1x1024_S1x1024_0_0
abbrev rW2 : Rect S3200x1024 := Rect.unit (s := S3200x1024) ![0, 0] S3200x1024.size inb_S3200x1024_S3200x1024_0_0
abbrev rB2 : Rect S1x3200 := Rect.unit (s := S1x3200) ![0, 0] S1x3200.size inb_S1x3200_S1x3200_0_0

/-- The logits block's buffer after the body: one whole store of the row times the matrix block plus the bias block. -/
def out2_3 (x0 : Vec F S1x1024 .f32) (x1 : Vec F S3200x1024 .f32) (x2 : Vec F S1x3200 .f32) : Vec F S1x3200 .f32 :=
  View.canon [⟨rB2, k2_pay1 (View.ld x0 rA2) (View.ld x1 rW2) (View.ld x2 rB2)⟩]

/-- The matrix block at point `t`, filled out past the array's end with the zero word. -/
def wblk2 (c : Dev nD) (t : Fin cfg2.N) : S3200x1024.Idx → Elt F .f32 :=
  win2_1.fill (grid2.coords t) (fun _ => Scalar.ofBits .f32 0#32) (iblk2 V c 1 t)
/-- The bias block at point `t`, filled out past the array's end with the zero word. -/
def bblk2 (c : Dev nD) (t : Fin cfg2.N) : S1x3200.Idx → Elt F .f32 :=
  win2_2.fill (grid2.coords t) (fun _ => Scalar.ofBits .f32 0#32) (iblk2 V c 2 t)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t
    = out2_3 (iblk2 V c 0 t) (wblk2 V c t) (bblk2 V c t) := by dsimp only [dat2]

end Cert.Kernel.Hand

end
-- ==== Proof.Kernel.Fold.lean ====
/- The TensorCore's unscoped buffers at each boundary of @main, folded from the launch memory: a host stretch applies its
   operations; a region replaces its output arrays by what its write-backs leave. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import proofs.«411821_j20263655702618_3_alg».proof.Proof.Kernel.D0
import proofs.«411821_j20263655702618_3_alg».proof.Proof.Kernel.D1
import proofs.«411821_j20263655702618_3_alg».proof.Proof.Kernel.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the first host stretch (the embedding row gathered, the hidden state reshaped): region 0's entry. -/
abbrev W1 (c : Dev nD) : Valuation τ sig (Elt F) := StableHlo.after hostOps0 (W0 m c)
/-- The same read at the TensorCore's references. -/
abbrev E1 (c : Dev nD) (b : Ref sig .tc) : Buf (Elt F) ((c : Thread nD τ).loc b) := W1 m c b
/-- After region 0: the attention weights and the combined input at what the pipeline leaves. -/
def W2 (c : Dev nD) : Valuation τ sig (Elt F) :=
  Function.update (Function.update (W1 m c) main_v8_0 ((dat0 (E1 m) c).arrAt 7 cfg0.N)) main_v8_1 ((dat0 (E1 m) c).arrAt 8 cfg0.N)
/-- After the second host stretch (the gate weights and biases reshaped gate-major): region 1's entry. -/
abbrev W3 (c : Dev nD) : Valuation τ sig (Elt F) := StableHlo.after hostOps1 (W2 m c)
abbrev E3 (c : Dev nD) (b : Ref sig .tc) : Buf (Elt F) ((c : Thread nD τ).loc b) := W3 m c b
/-- After region 1: the new hidden row at what the pipeline leaves. -/
def W4 (c : Dev nD) : Valuation τ sig (Elt F) :=
  Function.update (W3 m c) main_v13 ((dat1 (E3 m) c).arrAt 7 cfg1.N)
/-- After the third host stretch (the output bias reshaped to a row): region 2's entry. -/
abbrev W5 (c : Dev nD) : Valuation τ sig (Elt F) := StableHlo.after hostOps2 (W4 m c)
abbrev E5 (c : Dev nD) (b : Ref sig .tc) : Buf (Elt F) ((c : Thread nD τ).loc b) := W5 m c b
/-- After region 2: the logits at what the pipeline leaves. -/
def W6 (c : Dev nD) : Valuation τ sig (Elt F) :=
  Function.update (W5 m c) main_v15 ((dat2 (E5 m) c).arrAt 3 cfg2.N)
/-- After the log-softmax's operations, -/
abbrev W7 (c : Dev nD) : Valuation τ sig (Elt F) := StableHlo.after hostOps3 (W6 m c)
/-- and after the hidden state's return form: the end of @main. -/
abbrev W8 (c : Dev nD) : Valuation τ sig (Elt F) := StableHlo.after hostOps3_1 (W7 m c)

end Cert.Kernel.Hand

end
-- ==== Proof.Kernel.B0.lean ====
/- Region 0's body obligation: the kernel body run on the staging buffers at their blocks leaves each output's buffer at its stored value. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import proofs.«411821_j20263655702618_3_alg».proof.Proof.Kernel.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' buffers hold their blocks -/

/-- The region has one point and fetches every input there: the buffer holds what the fetch put in it, the whole array. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)
theorem before0_2 (c : Dev nD) (t : Fin cfg0.N) (d) : (dat0 V c).before 2 t d = iblk0 V c 2 t :=
  ((dat0 V c).before_fetched 2 t (fetch0_2 t) d).trans (by unfold Dat.fetched Dat.blockOf iblk0; rw [A_eq0]; try rfl)
theorem before0_3 (c : Dev nD) (t : Fin cfg0.N) (d) : (dat0 V c).before 3 t d = iblk0 V c 3 t :=
  ((dat0 V c).before_fetched 3 t (fetch0_3 t) d).trans (by unfold Dat.fetched Dat.blockOf iblk0; rw [A_eq0]; try rfl)
theorem before0_4 (c : Dev nD) (t : Fin cfg0.N) (d) : (dat0 V c).before 4 t d = iblk0 V c 4 t :=
  ((dat0 V c).before_fetched 4 t (fetch0_4 t) d).trans (by unfold Dat.fetched Dat.blockOf iblk0; rw [A_eq0]; try rfl)
theorem before0_5 (c : Dev nD) (t : Fin cfg0.N) (d) : (dat0 V c).before 5 t d = iblk0 V c 5 t :=
  ((dat0 V c).before_fetched 5 t (fetch0_5 t) d).trans (by unfold Dat.fetched Dat.blockOf iblk0; rw [A_eq0]; try rfl)
theorem before0_6 (c : Dev nD) (t : Fin cfg0.N) (d) : (dat0 V c).before 6 t d = iblk0 V c 6 t :=
  ((dat0 V c).before_fetched 6 t (fetch0_6 t) d).trans (by unfold Dat.fetched Dat.blockOf iblk0; rw [A_eq0]; try rfl)

/-! ## Each output's one store covers its buffer -/

theorem cover0_7 (p : Vec F S1x10 .f32) (y : S1x10.Idx) :
    ∃ pc ∈ ([⟨rO0, p⟩] : List (View.Piece (Elt F) S1x10 .f32)), y ∈ pc.1.set :=
  View.cover_of_tiled [⟨rO0, p⟩] S1x10.size (by rfl) y

theorem cover0_8 (p : Vec F S1x1024 .f32) (y : S1x1024.Idx) :
    ∃ pc ∈ ([⟨rA0, p⟩] : List (View.Piece (Elt F) S1x1024 .f32)), y ∈ pc.1.set :=
  View.cover_of_tiled [⟨rA0, p⟩] S1x1024.size (by rfl) y

/-! ## The body's triple -/

set_option maxHeartbeats 1000000 in
/-- The body on whole buffers, the seven inputs' at contents `x0 … x6` and the two outputs' at anything: it reads the
    inputs, reads each output's buffer once without using what it read, and stores each output whole; the inputs are
    left as they were, the softmax weights' buffer at `out0_7` and the combined input's at `out0_8`. -/
theorem sound_kernel0 (c : Dev nD) (E : Set ℕ) (i : grid0.Coords)
    (a0 : Memref sig .tc .vmem S1x1024 .f32) (h0 : a0.IsWhole)
    (a1 : Memref sig .tc .vmem S1x1024 .f32) (h1 : a1.IsWhole)
    (a2 : Memref sig .tc .vmem S10x1024 .f32) (h2 : a2.IsWhole)
    (a3 : Memref sig .tc .vmem S10x2048 .f32) (h3 : a3.IsWhole)
    (a4 : Memref sig .tc .vmem S10 .f32) (h4 : a4.IsWhole)
    (a5 : Memref sig .tc .vmem S1024x2048 .f32) (h5 : a5.IsWhole)
    (a6 : Memref sig .tc .vmem S1024 .f32) (h6 : a6.IsWhole)
    (a7 : Memref sig .tc .vmem S1x10 .f32) (h7 : a7.IsWhole)
    (a8 : Memref sig .tc .vmem S1x1024 .f32) (h8 : a8.IsWhole)
    (x0 x1 : Vec F S1x1024 .f32) (x2 : Vec F S10x1024 .f32) (x3 : Vec F S10x2048 .f32) (x4 : Vec F S10 .f32)
    (x5 : Vec F S1024x2048 .f32) (x6 : Vec F S1024 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out0_7 x0 x1 x3 x4) ∗ owns (c : Thread nD τ) a8 fullShare (out0_8 x0 x1 x2 x3 x4 x5 x6)) -∗ K ⟨⟩))
      ⊢ wp frame (wpE (defs₀ (F := F)) Variants.none c none) E
          (cc0__attn_comb_kernel i a0 h0 a1 h1 a2 h2 a3 h3 a4 h4 a5 h5 a6 h6 a7 h7 a8 h8) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The body obligation at a point -/

/-- What the body is called with at point `t`, the nine windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at a point: each input's buffer holds its whole array, the outputs' hold anything, so the triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.B1.lean ====
/- Region 1's body obligation. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import proofs.«411821_j20263655702618_3_alg».proof.Proof.Kernel.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers hold their blocks

Windows 0 and 1 (the combined input row and the whole hidden row) are fetched at the first point only: at the second
point the block index has not moved, and the buffer still holds the block. The other inputs are fetched at both points. -/

/-- Input window 0's current staging buffer holds its block at every point, fetched there or not, for any proof data
    whose array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents' and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents' and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the entry contents' and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The one store covers the new hidden block's buffer -/

/-- The body's single store is of the whole 1 x 512 buffer, so every index lies in it. -/
theorem cover1_7 (p0 : Vec F S1x512 .f32) (y : S1x512.Idx) :
    ∃ pc ∈ ([⟨rH1, p0⟩] : List (View.Piece (Elt F) S1x512 .f32)), y ∈ pc.1.set :=
  View.cover_of_tiled [⟨rH1, p0⟩] S1x512.size (by rfl) y

/-! ## The body's triple -/

set_option maxHeartbeats 1000000 in
/-- The recurrent step's body on whole staging memrefs: the seven inputs at contents `x0 … x6`, the output at anything.
    It reads the input row, the hidden row and the hidden block whole, the three gates' slices of the two weight blocks
    and of the two bias blocks, reads the output buffer (a value it never uses), and stores the gated update over the
    whole output buffer; the inputs are left as they were. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1x512 .f32) (harg3 : arg3.IsWhole) (arg4 : Memref sig .tc .vmem S3x512x1024 .f32) (harg4 : arg4.IsWhole)
    (arg5 : Memref sig .tc .vmem S3x512x1024 .f32) (harg5 : arg5.IsWhole) (arg6 : Memref sig .tc .vmem S3x512 .f32) (harg6 : arg6.IsWhole)
    (arg7 : Memref sig .tc .vmem S3x512 .f32) (harg7 : arg7.IsWhole) (arg8 : Memref sig .tc .vmem S1x512 .f32) (harg8 : arg8.IsWhole)
    (x0 x1 : Vec F S1x1024 .f32) (x2 : Vec F S1x512 .f32) (x3 x4 : Vec F S3x512x1024 .f32) (x5 x6 : Vec F S3x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The body obligation, at a generic point -/

/-- What the body is called with at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.B2.lean ====
/- Region 2's body: the kernel's triple on whole staging buffers, and the body obligation with the logits window forgotten
   (what holds at every float instance: past the array's end the matrix block's rows are not named, and a matrix product's
   entries are not known to be independent of them except over the extended reals). -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import proofs.«411821_j20263655702618_3_alg».proof.Proof.Kernel.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The one store of the logits block is of the whole block, so it covers the buffer. -/
theorem cover2_3 (p0 : Vec F S1x3200 .f32) (y : S1x3200.Idx) :
    ∃ pc ∈ ([⟨rB2, p0⟩] : List (View.Piece (Elt F) S1x3200 .f32)), y ∈ pc.1.set :=
  View.cover_of_tiled [⟨rB2, p0⟩] S1x3200.size (by rfl) y

set_option maxHeartbeats 1000000 in
/-- The kernel body on whole staging memrefs, the inputs' at contents `x0 x1 x2` and the output's at anything, runs to the
    continuation holding the inputs' as they were and the output's at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The windows region 2's frame forgets: the logits block (window 3). -/
abbrev fgt2 : Fin cfg2.W → Bool := fun | ⟨0, _⟩ => false | ⟨1, _⟩ => false | ⟨2, _⟩ => false | ⟨3, _⟩ => true

/-- The hidden row's buffer (window 0: whole, uncut, fetched at the first point only) holds the row at every point:
    where it is not fetched its block index has not moved, and the body left it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The matrix block's buffer is fetched at every point: it holds the block's rows inside the matrix, and past the
    matrix's last row whatever `d` the fetch left there. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]; try rfl

/-- The bias block's likewise: the entries inside the bias row, and `d` past its end. -/
theorem before2_2 (c : Dev nD) (t : Fin cfg2.N) (d) :
    (dat2 V c).before 2 t d = win2_2.fill (grid2.coords t) d (iblk2 V c 2 t) := by
  unfold Dat.before; rw [if_pos (fetch2_2 t)]
  unfold Dat.fetched Dat.blockOf iblk2; rw [A_eq2]; try rfl

/-- The body obligation with the logits window forgotten, at any float instance. -/
theorem body_obligation2_fgt (c : Dev nD) :
    BodyObligationLoose (dat2 (F := F) V c) (defs₀ (F := F)) Variants.none () Set.univ fgt2 := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the matrix and bias buffers hold their blocks filled out with what the fetches left; on the part inside the
  -- arrays that is what the zero-filled blocks hold, which is all the obligation states of a cut window
  have h1 : win2_1.cut (grid2.coords t) (wblk2 V c t) = iblk2 V c 1 t := win2_1.cut_fill _ _ _
  have h2 : win2_2.cut (grid2.coords t) (bblk2 V c t) = iblk2 V c 2 t := win2_2.cut_fill _ _ _
  rw [after2_0, after2_1, after2_2]
  isplitl [H0]; · iexact H0
  isplitl [H1]
  · iexists d1
    change _ ⊢ owns (c : Thread nD τ) (win2_1.stage (cfg2.slots t 1)) fullShare
      (win2_1.fill (grid2.coords t) d1 (win2_1.cut (grid2.coords t) (wblk2 V c t)))
    rw [h1]
  isplitl [H2]
  · iexists d2
    change _ ⊢ owns (c : Thread nD τ) (win2_2.stage (cfg2.slots t 2)) fullShare
      (win2_2.fill (grid2.coords t) d2 (win2_2.cut (grid2.coords t) (bblk2 V c t)))
    rw [h2]
  iexists _; iexact H3

end Cert.Kernel.Hand

end
-- ==== Proof.Kernel.RunB.lean ====
/- The kernel's frame at any float instance: @main runs to the end, nothing faulting, and its argument arrays end as launched.
   The logits array is carried at contents not named (past the array's end the last matrix block's rows are not named,
   and only over the extended reals is a product's entry known to ignore them); nothing after it writes an argument. -/
import proofs.«411821_j20263655702618_3_alg».proof.Proof.Gen.Kernel.Launch
import proofs.«411821_j20263655702618_3_alg».proof.Proof.Gen.Kernel.Skeleton
import proofs.«411821_j20263655702618_3_alg».proof.Proof.Gen.Kernel.Points
import proofs.«411821_j20263655702618_3_alg».proof.Proof.Gen.Kernel.Regions
import proofs.«411821_j20263655702618_3_alg».proof.Proof.Kernel.Fold
import proofs.«411821_j20263655702618_3_alg».proof.Proof.Kernel.B0
import proofs.«411821_j20263655702618_3_alg».proof.Proof.Kernel.B1
import proofs.«411821_j20263655702618_3_alg».proof.Proof.Kernel.B2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines, and the thread state -/

/-- The three pipelines' proof data read as relations. The attention region and the gated-update region leave their
    outputs at the contents their data name; the projection region's last output window, the logits block, is handed
    back at contents nobody names. -/
def rdats : (p : Fin 3) → (c : Dev nD) → RDat τ (Elt F) Unit ℕ (UR sig nD τ) ℕ (Pipeline.pin (pcfgs (F := F)) adm p) c
  | ⟨0, _⟩ => fun c => (dat0 (E1 m) c).toR
  | ⟨1, _⟩ => fun c => (dat1 (E3 m) c).toR
  | ⟨2, _⟩ => fun c => (dat2 (E5 m) c).toRForget fgt2

/-- The same data as named contents (the entry and exit entailments of the first two regions go through these). -/
def pdatsE : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## After the projection region: the logits at contents not named -/

/-- The buffers when the projection region returns, the logits array at `f`. -/
abbrev X6 (c : Dev nD) (f : (Proc.devRef .tc main_v15 : DevRef τ sig).ty.Contents (Elt F)) : Valuation τ sig (Elt F) :=
  Function.update (W5 m c) main_v15 f
/-- After the log-softmax's operations on them, -/
abbrev X7 (c : Dev nD) (f : (Proc.devRef .tc main_v15 : DevRef τ sig).ty.Contents (Elt F)) : Valuation τ sig (Elt F) :=
  StableHlo.after hostOps3 (X6 m c f)
/-- and after the hidden state's return form: the end of @main. -/
abbrev X8 (c : Dev nD) (f : (Proc.devRef .tc main_v15 : DevRef τ sig).ty.Contents (Elt F)) : Valuation τ sig (Elt F) :=
  StableHlo.after hostOps3_1 (X7 m c f)

/-! ## The attention region -/

/-- The attention region's array behind each window, read off the fold: an input as entered, the two outputs at what
    the pipeline leaves. -/
theorem hF0 (c : Dev nD) (w : Fin cfg0.W) : (dat0 (E1 m) c).arrAt w cfg0.N = W2 m c (Proc.devRef .tc (Pipeline.arrRef spec0 w)) := by
  have hin : ∀ w : Fin cfg0.W, (cfg0.win w).isOut = false → (Pipeline.arrRef spec0 w) ≠ main_v8_0 → (Pipeline.arrRef spec0 w) ≠ main_v8_1 →
      (dat0 (E1 m) c).arrAt w cfg0.N = W2 m c (Proc.devRef .tc (Pipeline.arrRef spec0 w)) := fun w hin h0 h1 => by
    rw [(dat0 (E1 m) c).arrAt_in w hin, A_eq0]
    unfold W2
    rw [Function.update_of_ne (StableHlo.devRef_ne_of_ne h1), Function.update_of_ne (StableHlo.devRef_ne_of_ne h0)]
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ => exact hin 5 rfl (by decide) (by decide)
  | ⟨6, _⟩ => exact hin 6 rfl (by decide) (by decide)
  | ⟨7, _⟩ =>
    show (dat0 (E1 m) c).arrAt 7 cfg0.N = W2 m c (Proc.devRef .tc main_v8_0)
    unfold W2
    rw [Function.update_of_ne (StableHlo.devRef_ne_of_ne (by decide : main_v8_0 ≠ main_v8_1)), Function.update_self]
  | ⟨8, _⟩ =>
    show (dat0 (E1 m) c).arrAt 8 cfg0.N = W2 m c (Proc.devRef .tc main_v8_1)
    unfold W2
    rw [Function.update_self]

/-- Every other buffer is as the region found it. -/
theorem hrest0 (c : Dev nD) : ∀ b, b ∉ Finset.univ.image (Pipeline.arrRef spec0) → W2 m c (Proc.devRef .tc b) = W1 m c (Proc.devRef .tc b) := fun b hb => by
  have h0 : b ≠ main_v8_0 := fun e => hb (Finset.mem_image.mpr ⟨7, Finset.mem_univ _, e ▸ rfl⟩)
  have h1 : b ≠ main_v8_1 := fun e => hb (Finset.mem_image.mpr ⟨8, Finset.mem_univ _, e ▸ rfl⟩)
  unfold W2
  rw [Function.update_of_ne (StableHlo.devRef_ne_of_ne h1), Function.update_of_ne (StableHlo.devRef_ne_of_ne h0)]

set_option backward.isDefEq.respectTransparency.types false in
/-- The attention region over the thread state: entered from every unscoped buffer at `W1`, left at `W2`. Its
    arrays are split out of the unscoped buffers and put back at the contents the data name (the relation allows no
    others); the generator register goes into the invariant and comes back; nothing is owed. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).toR
  hwaits := RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := RDat.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsE m) ((pdatsE m 0 c).share_full fun _ => rfl)
      (E1 m c) (fun b => W2 m c b) ((pdatsE m 0 c).arrAt · cfg0.N) (hF0 m c) (hrest0 m c)
    rw [Pipeline.unscopedBufs_held] at hjoin
    have hpost : (rdats m 0 c).arraysAt cfg0.N ⊢ ((pdatsE m 0 c).arrays ((pdatsE m 0 c).arrAt · cfg0.N) : sProp 𝕄) :=
      (dat0 (E1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-! ## The gated-update region

Its windows 1 and 2 (the whole hidden row, and the hidden row's block) read ONE array: seven buffers stand behind the
eight windows. At entry the hidden row's buffer is cut along its share, a half to each window; both are inputs, so
at exit the halves hold what they held and join back. -/

/-- The seven buffers behind the windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v8_1) ↦{fullShare} V main_v8_1)
      ∗ (((c : Thread nD τ).loc main_v7) ↦{fullShare} V main_v7)
      ∗ (((c : Thread nD τ).loc main_v9) ↦{fullShare} V main_v9)
      ∗ (((c : Thread nD τ).loc main_v10) ↦{fullShare} V main_v10)
      ∗ (((c : Thread nD τ).loc main_v11) ↦{fullShare} V main_v11)
      ∗ (((c : Thread nD τ).loc main_v12) ↦{fullShare} V main_v12)
      ∗ (((c : Thread nD τ).loc main_v13) ↦{fullShare} V main_v13)) := by
  unfold Pipeline.arrBufs
  exact bigSep_eq_bigSepL_of_eq [main_v8_1, main_v7, main_v9, main_v10, main_v11, main_v12, main_v13] (by decide) (by decide) _

/-- The eight windows' arrays, one by one: each a whole buffer at the share its window holds. -/
theorem arrays1_eq (V : (c : Dev nD) → (b : Ref sig .tc) → Buf (Elt F) ((c : Thread nD τ).loc b)) (c : Dev nD)
    (Fs : (w : Fin cfg1.W) → Buf (Elt F) ((cfg1.win w).arr.view.loc (c : Thread nD τ))) :
    ((dat1 V c).arrays Fs : sProp 𝕄) = iprop(
        (((c : Thread nD τ).loc main_v8_1) ↦{fullShare} Fs 0)
      ∗ (((c : Thread nD τ).loc main_v7) ↦{fullShare.left} Fs 1)
      ∗ (((c : Thread nD τ).loc main_v7) ↦{fullShare.right} Fs 2)
      ∗ (((c : Thread nD τ).loc main_v9) ↦{fullShare} Fs 3)
      ∗ (((c : Thread nD τ).loc main_v10) ↦{fullShare} Fs 4)
      ∗ (((c : Thread nD τ).loc main_v11) ↦{fullShare} Fs 5)
      ∗ (((c : Thread nD τ).loc main_v12) ↦{fullShare} Fs 6)
      ∗ (((c : Thread nD τ).loc main_v13) ↦{fullShare} Fs 7)) := by
  have h : ((dat1 V c).arrays Fs : sProp 𝕄) = bigSep Finset.univ fun w : Fin cfg1.W =>
      ((((c : Thread nD τ).loc (Pipeline.arrRef spec1 w)) ↦{(dat1 V c).share w} Fs w : sProp 𝕄)) := by
    unfold Pipeline.Dat.arrays
    exact bigSep_congr fun w _ => by rw [(arr_whole1 w).set_eq_univ]
  rw [h, bigSep_W1]
  rfl

/-- The gated-update region's array behind each window, read off the fold. -/
theorem hF1 (c : Dev nD) (w : Fin cfg1.W) : (dat1 (E3 m) c).arrAt w cfg1.N = W4 m c (Proc.devRef .tc (Pipeline.arrRef spec1 w)) := by
  have hin : ∀ w : Fin cfg1.W, (cfg1.win w).isOut = false → (Pipeline.arrRef spec1 w) ≠ main_v13 →
      (dat1 (E3 m) c).arrAt w cfg1.N = W4 m c (Proc.devRef .tc (Pipeline.arrRef spec1 w)) := fun w hin h => by
    rw [(dat1 (E3 m) c).arrAt_in w hin, A_eq1]
    unfold W4
    rw [Function.update_of_ne (StableHlo.devRef_ne_of_ne h)]
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (dat1 (E3 m) c).arrAt 7 cfg1.N = W4 m c (Proc.devRef .tc main_v13)
    unfold W4
    rw [Function.update_self]

/-- Every other buffer is as the region found it. -/
theorem W4_of_ne (c : Dev nD) (b : Ref sig .tc) (h : b ≠ main_v13) : W4 m c (Proc.devRef .tc b) = W3 m c (Proc.devRef .tc b) := by
  unfold W4
  rw [Function.update_of_ne (StableHlo.devRef_ne_of_ne h)]

/-- ENTRY, the arrays' part: the core's unscoped buffers at the entry contents are the eight windows' arrays at those
    contents, the hidden row's buffer cut in its two half shares, and the unscoped rest. -/
theorem arrays1_of_held (c : Dev nD) :
    (StableHlo.held (c : Thread nD τ) (Pipeline.ucRefs τ sig) (W3 m c) : sProp 𝕄)
      ⊢ iprop((rdats m 1 c).arrays (rdats m 1 c).A
          ∗ Pipeline.unscopedRest (Ix := Unit) (Name := ℕ) (U := UR sig nD τ) (Lvl := ℕ) spec1 c (E3 m c)) := by
  rw [← Pipeline.unscopedBufs_held (Ix := Unit) (Name := ℕ) (U := UR sig nD τ) (Lvl := ℕ) c (W3 m c)]
  show (unscopedBufs (Ix := Unit) (Name := ℕ) (U := UR sig nD τ) (Lvl := ℕ) c (E3 m c) : sProp 𝕄)
    ⊢ iprop((dat1 (E3 m) c).arrays (fun w => E3 m c (Pipeline.arrRef spec1 w))
          ∗ Pipeline.unscopedRest (Ix := Unit) (Name := ℕ) (U := UR sig nD τ) (Lvl := ℕ) spec1 c (E3 m c))
  have hub : (unscopedBufs (Ix := Unit) (Name := ℕ) (U := UR sig nD τ) (Lvl := ℕ) c (E3 m c) : sProp 𝕄)
      = iprop(Pipeline.arrBufs (Ix := Unit) (Name := ℕ) (U := UR sig nD τ) (Lvl := ℕ) spec1 c (E3 m c)
          ∗ Pipeline.unscopedRest (Ix := Unit) (Name := ℕ) (U := UR sig nD τ) (Lvl := ℕ) spec1 c (E3 m c)) :=
    Pipeline.unscopedBufs_split₀ (Pipeline.pin (pcfgs (F := F)) adm) 1 winFacts₀1.arr_unscoped c (E3 m c)
  rw [hub, arrBufs1_eq, arrays1_eq]
  iintro ⟨⟨H0, H7, H9, H10, H11, H12, H13⟩, Hrest⟩
  ihave H7 := (pointsTo_share (PosShare.mem_left_op_right fullShare)).1 $$ H7
  icases H7 with ⟨H7l, H7r⟩
  isplitr [Hrest]
  · isplitl [H0]; · iexact H0
    isplitl [H7l]; · iexact H7l
    isplitl [H7r]; · iexact H7r
    isplitl [H9]; · iexact H9
    isplitl [H10]; · iexact H10
    isplitl [H11]; · iexact H11
    isplitl [H12]; · iexact H12
    iexact H13
  iexact Hrest

/-- EXIT, the arrays' part: the eight windows' arrays at contents the relation allows (for this region, exactly what
    the data name), the two halves of the hidden row's buffer joined back, and the unscoped rest are the core's
    unscoped buffers at the exit contents. -/
theorem held_of_arrays1 (c : Dev nD) :
    iprop((rdats m 1 c).arraysAt cfg1.N
        ∗ Pipeline.unscopedRest (Ix := Unit) (Name := ℕ) (U := UR sig nD τ) (Lvl := ℕ) spec1 c (E3 m c))
      ⊢ (StableHlo.held (c : Thread nD τ) (Pipeline.ucRefs τ sig) (W4 m c) : sProp 𝕄) := by
  refine (sep_mono ((dat1 (E3 m) c).toR_arraysAt_post cfg1.N) .rfl).trans ?_
  rw [← Pipeline.unscopedBufs_held (Ix := Unit) (Name := ℕ) (U := UR sig nD τ) (Lvl := ℕ) c (W4 m c)]
  have hub : (unscopedBufs (Ix := Unit) (Name := ℕ) (U := UR sig nD τ) (Lvl := ℕ) c (fun b => W4 m c b) : sProp 𝕄)
      = iprop(Pipeline.arrBufs (Ix := Unit) (Name := ℕ) (U := UR sig nD τ) (Lvl := ℕ) spec1 c (fun b => W4 m c b)
          ∗ Pipeline.unscopedRest (Ix := Unit) (Name := ℕ) (U := UR sig nD τ) (Lvl := ℕ) spec1 c (fun b => W4 m c b)) :=
    Pipeline.unscopedBufs_split₀ (Pipeline.pin (pcfgs (F := F)) adm) 1 winFacts₀1.arr_unscoped c (fun b => W4 m c b)
  have hrest : (Pipeline.unscopedRest (Ix := Unit) (Name := ℕ) (U := UR sig nD τ) (Lvl := ℕ) spec1 c (fun b => W4 m c b) : sProp 𝕄)
      = Pipeline.unscopedRest (Ix := Unit) (Name := ℕ) (U := UR sig nD τ) (Lvl := ℕ) spec1 c (E3 m c) := by
    unfold Pipeline.unscopedRest
    exact bigSep_congr fun b hb => congrArg (fun x => (((c : Thread nD τ).loc b) ↦{fullShare} x : sProp 𝕄))
      (W4_of_ne m c b fun e => (Finset.mem_sdiff.mp hb).2 (Finset.mem_image.mpr ⟨7, Finset.mem_univ _, e.symm⟩))
  rw [hub, hrest, arrBufs1_eq, arrays1_eq]
  simp only [hF1 m c]
  iintro ⟨⟨H0, H7l, H7r, H9, H10, H11, H12, H13⟩, Hrest⟩
  ihave H7 := (pointsTo_share (PosShare.mem_left_op_right fullShare)).2 $$ [H7l H7r]
  · isplitl [H7l] <;> iassumption
  isplitr [Hrest]
  · isplitl [H0]; · iexact H0
    isplitl [H7]; · iexact H7
    isplitl [H9]; · iexact H9
    isplitl [H10]; · iexact H10
    isplitl [H11]; · iexact H11
    isplitl [H12]; · iexact H12
    iexact H13
  iexact Hrest

set_option backward.isDefEq.respectTransparency.types false in
/-- The gated-update region over the thread state: entered from every unscoped buffer at `W3`, left at `W4`. -/
def reg1 : RDat.RegionSeg (pcfgs (F := F)) adm (rdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).toR
  hwaits := RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := held_of_arrays1 m c
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The projection region -/

/-- What the relation lets the projection region leave in its arrays: an input as entered, the logits array at anything. -/
theorem hF2 (c : Dev nD) (Fs : (w : Fin cfg2.W) → Buf (Elt F) ((cfg2.win w).arr.view.loc (c.tc : Thread nD τ)))
    (hFs : ∀ w, (rdats m 2 c).ArrAt w cfg2.N (Fs w)) (w : Fin cfg2.W) :
    Fs w = X6 m c (Fs 3) (Proc.devRef .tc (Pipeline.arrRef spec2 w)) := by
  have hin : ∀ w : Fin cfg2.W, fgt2 w = false → (cfg2.win w).isOut = false → (Pipeline.arrRef spec2 w) ≠ main_v15 →
      Fs w = X6 m c (Fs 3) (Proc.devRef .tc (Pipeline.arrRef spec2 w)) := fun w hf hin hne => by
    rw [((dat2 (E5 m) c).toRForget_arrAt_iff hf cfg2.N (Fs w)).mp (hFs w), (dat2 (E5 m) c).arrAt_in w hin, A_eq2]
    exact (Function.update_of_ne (StableHlo.devRef_ne_of_ne hne) _ _).symm
  match w with
  | ⟨0, _⟩ => exact hin 0 rfl rfl (by decide)
  | ⟨1, _⟩ => exact hin 1 rfl rfl (by decide)
  | ⟨2, _⟩ => exact hin 2 rfl rfl (by decide)
  | ⟨3, _⟩ =>
    exact (Function.update_self (β := fun b : DevRef τ sig => b.ty.Contents (Elt F)) (Proc.devRef .tc main_v15) (Fs 3) (W5 m c)).symm

theorem hrest2 (c : Dev nD) (f : (Proc.devRef .tc main_v15 : DevRef τ sig).ty.Contents (Elt F)) :
    ∀ b, b ∉ Finset.univ.image (Pipeline.arrRef spec2) → X6 m c f (Proc.devRef .tc b) = W5 m c (Proc.devRef .tc b) := fun b hb => by
  have h : b ≠ main_v15 := fun e => hb (Finset.mem_image.mpr ⟨3, Finset.mem_univ _, e ▸ rfl⟩)
  exact Function.update_of_ne (StableHlo.devRef_ne_of_ne h) _ _

set_option backward.isDefEq.respectTransparency.types false in
/-- The projection region over the thread state: entered from every unscoped buffer at `W5`; left with the logits
    array at SOME contents (whatever its last window was handed back at, write-back by write-back) and every other
    buffer as entered. -/
def reg2 : RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_fgt (E5 m) c).toRForget
  hwaits := RDat.hwaits_of_owed_zero _ _ _ _ L lv 2 fun _ _ => rfl
  pre c := iprop(StableHlo.held (c : Thread nD τ) (Pipeline.ucRefs τ sig) (W5 m c) ∗ R c)
  post c := iprop(∃ f, StableHlo.held (c : Thread nD τ) (Pipeline.ucRefs τ sig) (X6 m c f) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := RDat.arrays_of_unscopedBufs (p := 2) (pcfgs (F := F)) adm (rdats m) launch2.win launch2.arr_whole c
      ((rdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, Hrest⟩
    ihave Ha' := (BI.bigSep_exists_pi Finset.univ (fun (w : Fin cfg2.W) F => iprop(⌜(rdats m 2 c).ArrAt w cfg2.N F⌝
        ∗ (cfg2.win w).arr.view.loc (c.tc : Thread nD τ) ↦[(cfg2.win w).arr.view.set]{(rdats m 2 c).share w} F))) $$ Ha
    icases Ha' with ⟨%Fs, Ha⟩
    ihave Ha2 := (BI.bigSep_pure_sep Finset.univ (fun (w : Fin cfg2.W) => (rdats m 2 c).ArrAt w cfg2.N (Fs w))
        (fun w => (cfg2.win w).arr.view.loc (c.tc : Thread nD τ) ↦[(cfg2.win w).arr.view.set]{(rdats m 2 c).share w} Fs w)) $$ Ha
    icases Ha2 with ⟨%hFs, Ha⟩
    have hjoin := Pipeline.unscopedBufs_of_arrays (p := 2) (pcfgs (F := F)) adm (Ix := Unit) (Name := ℕ) (U := UR sig nD τ) (Lvl := ℕ)
      launch2.win launch2.arr_whole c (pdatsE m) ((pdatsE m 2 c).share_full fun _ => rfl)
      (E5 m c) (fun b => X6 m c (Fs 3) b) Fs (hF2 m c Fs fun w => hFs w (Finset.mem_univ w)) (hrest2 m c (Fs 3))
    rw [Pipeline.unscopedBufs_held] at hjoin
    ihave Ha3 := (show (bigSep Finset.univ fun w : Fin cfg2.W => ((cfg2.win w).arr.view.loc (c.tc : Thread nD τ) ↦[(cfg2.win w).arr.view.set]{(rdats m 2 c).share w} Fs w : sProp 𝕄))
        ⊢ ((pdatsE m 2 c).arrays Fs : sProp 𝕄) from .rfl) $$ Ha
    imodintro
    iexists (Fs 3)
    isplitl [Ha3 Hrest]
    · iapply hjoin; isplitl [Ha3] <;> iassumption
    isplitl [HY]; · iexact HY
    unfold Pipeline.RDat.owesAt Pipeline.owesWithin
    icases HO with ⟨%W, -, HO⟩; iexists W; iexact HO

/-! ## The two host stretches after the projection region, over contents not named -/

/-- A host stretch from contents that depend on something not named: it runs from SOME such contents to the same
    operations applied to them. -/
def hsegX {T : Type} (ops : List (HloOp τ sig (Elt F))) (hsub : ops.Forall fun op => op.bufs ⊆ StableHlo.tcRefs τ sig)
    (hfresh : ops.Forall fun op => op.fresh = ∅) (V : Dev nD → T → Valuation τ sig (Elt F)) :
    Pipeline.HostSeg (Name := ℕ) (U := UR sig nD τ) (pcfgs (F := F)) defs₀ 𝒱₀ L lv where
  prog := StableHlo.seq ops
  pre c := iprop(∃ f, StableHlo.held (c : Thread nD τ) (Pipeline.ucRefs τ sig) (V c f) ∗ R c)
  post c := iprop(∃ f, StableHlo.held (c : Thread nD τ) (Pipeline.ucRefs τ sig) (StableHlo.after ops (V c f)) ∗ R c)
  run c {β} k K := by
    iintro ⟨Hk, Hbd, ⟨%f, Hpre⟩, Hla⟩
    iapply ((hseg ops hsub hfresh (fun c => V c f)).run c k K)
    isplitl [Hk]
    · iintro ⟨Hbd, Hpost⟩
      iapply Hk
      isplitl [Hbd]; · iexact Hbd
      iexists f
      iapply (show (hseg ops hsub hfresh (fun c => V c f)).post c
        ⊢ (iprop(StableHlo.held (c : Thread nD τ) (Pipeline.ucRefs τ sig) (StableHlo.after ops (V c f)) ∗ R c) : sProp 𝕄) from .rfl)
      iexact Hpost
    isplitl [Hbd]; · iexact Hbd
    isplitl [Hpre]
    · iapply (show (iprop(StableHlo.held (c : Thread nD τ) (Pipeline.ucRefs τ sig) (V c f) ∗ R c) : sProp 𝕄)
        ⊢ (hseg ops hsub hfresh (fun c => V c f)).pre c from .rfl)
      iexact Hpre
    iexact Hla

/-! ## The arguments end as launched

No host operation and no region writes an argument: at an argument's buffer the fold walks back to the launch memory,
whatever the logits array holds. -/

theorem X8_of (c : Dev nD) (f : (Proc.devRef .tc main_v15 : DevRef τ sig).ty.Contents (Elt F)) (r : Ref sig .tc)
    (h31 : r ∉ hostOps3_1_W) (h3 : r ∉ hostOps3_W) (h15 : r ≠ main_v15) (h2 : r ∉ hostOps2_W) (h13 : r ≠ main_v13)
    (h1 : r ∉ hostOps1_W) (h81 : r ≠ main_v8_1) (h80 : r ≠ main_v8_0) (h0 : r ∉ hostOps0_W) :
    X8 m c f (Proc.devRef .tc r) = m ((c : Thread nD τ).loc r) :=
  calc X8 m c f (Proc.devRef .tc r)
    _ = X7 m c f (Proc.devRef .tc r) := StableHlo.after_of_writes_sub hostOps3_1 _ hostOps3_1_writes h31
    _ = X6 m c f (Proc.devRef .tc r) := StableHlo.after_of_writes_sub hostOps3 _ hostOps3_writes h3
    _ = W5 m c (Proc.devRef .tc r) := Function.update_of_ne (StableHlo.devRef_ne_of_ne h15) _ _
    _ = W4 m c (Proc.devRef .tc r) := StableHlo.after_of_writes_sub hostOps2 _ hostOps2_writes h2
    _ = W3 m c (Proc.devRef .tc r) := by unfold W4; exact Function.update_of_ne (StableHlo.devRef_ne_of_ne h13) _ _
    _ = W2 m c (Proc.devRef .tc r) := StableHlo.after_of_writes_sub hostOps1 _ hostOps1_writes h1
    _ = W1 m c (Proc.devRef .tc r) := by
        unfold W2; rw [Function.update_of_ne (StableHlo.devRef_ne_of_ne h81), Function.update_of_ne (StableHlo.devRef_ne_of_ne h80)]
    _ = W0 m c (Proc.devRef .tc r) := StableHlo.after_of_writes_sub hostOps0 _ hostOps0_writes h0
    _ = m ((c : Thread nD τ).loc r) := rfl

/-! ## @main as segments, and the launch -/

/-- The last thread state without the `owes`: every unscoped buffer at the end's contents, the logits array's
    not named; the generator register at some state. -/
abbrev Tₙ (c : Dev nD) : sProp 𝕄 :=
  iprop(∃ f, StableHlo.held (c : Thread nD τ) (Pipeline.ucRefs τ sig) (X8 m c f) ∗ ∃ r, prngReg c r)

/-- @main's eight segments in order. -/
abbrev segs : List (RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hsegX hostOps3 hostOps3_sub hostOps3_fresh (X6 m)),
    .host (hsegX hostOps3_1 hostOps3_1_sub hostOps3_1_fresh (X7 m)) ]

/-- @main is the run of the segments. -/
theorem main_run (c : Dev nD) : main (F := F) c = RDat.Seg.run (segs m) := (main_chain c).trans (by chain_rfl)

/-- The last segment's exit is the last thread state beside the core owing nothing. -/
theorem hlast (c : Dev nD) :
    (iprop(∃ f, StableHlo.held (c : Thread nD τ) (Pipeline.ucRefs τ sig) (X8 m c f) ∗ R c) : sProp 𝕄)
      ⊢ iprop(Tₙ m c ∗ ∃ W, owes (c : Thread nD τ) (0 : CellTallies nD τ sig Unit) W) := by
  iintro ⟨%f, Hh, Hp, HO⟩
  isplitr [HO]
  · iexists f; isplitl [Hh] <;> iassumption
  iexact HO

set_option backward.isDefEq.respectTransparency.types false in
/-- The frame claim of the kernel, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  RDat.θ_run_regions_kit (pcfgs (F := F)) adm (rdats m) () cellOf_inj emb₁ defs₀ 𝒱₀ L lv m ρ main (segs m)
    (fun c Q => by rw [main_run m c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ f, ∀ b ∈ Pipeline.ucRefs τ sig, s.mem (((c : Thread nD τ)).1, b) = X8 m c f b)
    (hfin := fun c s' => by
      iintro ⟨⟨%f, Hh, -⟩, HSI⟩
      unfold StableHlo.held
      imodintro
      ihave Hr := (pointsTo_read_all (Pipeline.ucRefs τ sig) (fun b => (((c : Thread nD τ)).1, b)) (X8 m c f) s') $$ [Hh HSI]
      · isplitl [Hh] <;> iassumption
      icases Hr with ⟨%h, HSI⟩
      isplitr
      · ipureintro; exact ⟨f, h⟩
      iexact HSI)
    (hQ := fun s h c => by
      obtain ⟨f, hf⟩ := h c
      exact ⟨(hf _ (mem_uc main_arg0 (by decide))).trans (X8_of m c f main_arg0 (by decide) (by decide) (by decide) (by decide) (by decide) (by decide) (by decide) (by decide) (by decide)),
        (hf _ (mem_uc main_arg1 (by decide))).trans (X8_of m c f main_arg1 (by decide) (by decide) (by decide) (by decide) (by decide) (by decide) (by decide) (by decide) (by decide)),
        (hf _ (mem_uc main_arg2 (by decide))).trans (X8_of m c f main_arg2 (by decide) (by decide) (by decide) (by decide) (by decide) (by decide) (by decide) (by decide) (by decide)),
        (hf _ (mem_uc main_arg3 (by decide))).trans (X8_of m c f main_arg3 (by decide) (by decide) (by decide) (by decide) (by decide) (by decide) (by decide) (by decide) (by decide)),
        (hf _ (mem_uc main_arg4 (by decide))).trans (X8_of m c f main_arg4 (by decide) (by decide) (by decide) (by decide) (by decide) (by decide) (by decide) (by decide) (by decide)),
        (hf _ (mem_uc main_arg5 (by decide))).trans (X8_of m c f main_arg5 (by decide) (by decide) (by decide) (by decide) (by decide) (by decide) (by decide) (by decide) (by decide)),
        (hf _ (mem_uc main_arg6 (by decide))).trans (X8_of m c f main_arg6 (by decide) (by decide) (by decide) (by decide) (by decide) (by decide) (by decide) (by decide) (by decide)),
        (hf _ (mem_uc main_arg7 (by decide))).trans (X8_of m c f main_arg7 (by decide) (by decide) (by decide) (by decide) (by decide) (by decide) (by decide) (by decide) (by decide)),
        (hf _ (mem_uc main_arg8 (by decide))).trans (X8_of m c f main_arg8 (by decide) (by decide) (by decide) (by decide) (by decide) (by decide) (by decide) (by decide) (by decide)),
        (hf _ (mem_uc main_arg9 (by decide))).trans (X8_of m c f main_arg9 (by decide) (by decide) (by decide) (by decide) (by decide) (by decide) (by decide) (by decide) (by decide)),
        (hf _ (mem_uc main_arg10 (by decide))).trans (X8_of m c f main_arg10 (by decide) (by decide) (by decide) (by decide) (by decide) (by decide) (by decide) (by decide) (by decide)),
        (hf _ (mem_uc main_arg11 (by decide))).trans (X8_of m c f main_arg11 (by decide) (by decide) (by decide) (by decide) (by decide) (by decide) (by decide) (by decide) (by decide)),
        (hf _ (mem_uc main_arg12 (by decide))).trans (X8_of m c f main_arg12 (by decide) (by decide) (by decide) (by decide) (by decide) (by decide) (by decide) (by decide) (by decide)),
        (hf _ (mem_uc main_arg13 (by decide))).trans (X8_of m c f main_arg13 (by decide) (by decide) (by decide) (by decide) (by decide) (by decide) (by decide) (by decide) (by decide))⟩)

end Cert.Kernel.Hand

end
-- ==== Proof.KernelIdeal.D0.lean ====
/- Region 0 (attention weights and the combined, rectified input): what each staging buffer holds after the body,
   as a function of the region's entry contents `V`. Window numbering: 0 the embedded row, 1 the hidden row,
   2 the encoder outputs, 3 and 4 the attention weights and bias, 5 and 6 the combine weights and bias;
   7 the softmax weights (1 x 10), 8 the rectified combination (1 x 1024). One grid point; every block is its array. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1x1024 := Rect.unit (s := S1x1024) ![0, 0] S1x1024.size inb_S1x1024_S1x1024_0_0
abbrev rE0 : Rect S10x1024 := Rect.unit (s := S10x1024) ![0, 0] S10x1024.size inb_S10x1024_S10x1024_0_0
abbrev rW0 : Rect S10x2048 := Rect.unit (s := S10x2048) ![0, 0] S10x2048.size inb_S10x2048_S10x2048_0_0
abbrev rB0 : Rect S10 := Rect.unit (s := S10) ![0] S10.size inb_S10_S10_0
abbrev rC0 : Rect S1024x2048 := Rect.unit (s := S1024x2048) ![0, 0] S1024x2048.size inb_S1024x2048_S1024x2048_0_0
abbrev rD0 : Rect S1024 := Rect.unit (s := S1024) ![0] S1024.size inb_S1024_S1024_0
abbrev rO0 : Rect S1x10 := Rect.unit (s := S1x10) ![0, 0] S1x10.size inb_S1x10_S1x10_0_0

/-- The softmax weights' buffer after the body: one whole store of the weights computed from the embedded row,
    the hidden row, the attention matrix and its bias. -/
def out0_7 (x0 x1 : Vec F S1x1024 .f32) (x3 : Vec F S10x2048 .f32) (x4 : Vec F S10 .f32) : Vec F S1x10 .f32 :=
  View.canon [⟨rO0, k0_pay2 (View.ld x0 rA0) (View.ld x1 rA0) (View.ld x3 rW0) (View.ld x4 rB0)⟩]

/-- The combined input's buffer after the body: one whole store. -/
def out0_8 (x0 x1 : Vec F S1x1024 .f32) (x2 : Vec F S10x1024 .f32) (x3 : Vec F S10x2048 .f32) (x4 : Vec F S10 .f32)
    (x5 : Vec F S1024x2048 .f32) (x6 : Vec F S1024 .f32) : Vec F S1x1024 .f32 :=
  View.canon [⟨rA0, k0_pay3 (View.ld x0 rA0) (View.ld x1 rA0) (View.ld x3 rW0) (View.ld x4 rB0) (View.ld x2 rE0) (View.ld x5 rC0) (View.ld x6 rD0)⟩]

/-- The proof data of pipeline 0 on core `c`: the arrays as the region finds them; after the body each input's
    buffer at its block and each output's at the stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 3 t) (iblk0 V c 4 t) := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) := by
  dsimp only [dat0]

end Cert.KernelIdeal.Hand

end
-- ==== Proof.KernelIdeal.D1.lean ====
/- Region 1 (the recurrent step, two grid points of 512 hidden units each): what each staging buffer holds after
   the body, as a function of the region's entry contents `V`. Windows: 0 the combined input row, 1 the whole hidden row,
   2 the hidden row's block of 512, 3 and 4 the input and hidden gate weights (three gates by 512 units by 1024),
   5 and 6 their biases (three gates by 512), 7 the new hidden block (1 x 512). Windows 1 and 2 read ONE array
   (the hidden row): each holds half of the share of it. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1x1024 := Rect.unit (s := S1x1024) ![0, 0] S1x1024.size inb_S1x1024_S1x1024_0_0
abbrev rH1 : Rect S1x512 := Rect.unit (s := S1x512) ![0, 0] S1x512.size inb_S1x512_S1x512_0_0
abbrev rG1_0 : Rect S3x512x1024 := Rect.unit (s := S3x512x1024) ![0, 0, 0] S1x512x1024.size inb_S3x512x1024_S1x512x1024_0_0_0
abbrev rG1_1 : Rect S3x512x1024 := Rect.unit (s := S3x512x1024) ![1, 0, 0] S1x512x1024.size inb_S3x512x1024_S1x512x1024_1_0_0
abbrev rG1_2 : Rect S3x512x1024 := Rect.unit (s := S3x512x1024) ![2, 0, 0] S1x512x1024.size inb_S3x512x1024_S1x512x1024_2_0_0
abbrev rB1_0 : Rect S3x512 := Rect.unit (s := S3x512) ![0, 0] S1x512.size inb_S3x512_S1x512_0_0
abbrev rB1_1 : Rect S3x512 := Rect.unit (s := S3x512) ![1, 0] S1x512.size inb_S3x512_S1x512_1_0
abbrev rB1_2 : Rect S3x512 := Rect.unit (s := S3x512) ![2, 0] S1x512.size inb_S3x512_S1x512_2_0

/-- The new hidden block's buffer after the body: one whole store of the gated update computed from the input row,
    the hidden row, the hidden block, and the three gates' slices of the two weight blocks and the two bias blocks. -/
def out1_7 (x0 x1 : Vec F S1x1024 .f32) (x2 : Vec F S1x512 .f32) (x3 x4 : Vec F S3x512x1024 .f32) (x5 x6 : Vec F S3x512 .f32) :
    Vec F S1x512 .f32 :=
  View.canon [⟨rH1, k1_pay10 (k1_pay1 (View.ld x0 rA1)) (k1_pay2 (View.ld x1 rA1)) (k1_pay3 (View.ld x2 rH1))
    (k1_pay4 (View.ld x3 rG1_2)) (k1_pay5 (View.ld x4 rG1_0)) (k1_pay6 (View.ld x4 rG1_1)) (k1_pay7 (View.ld x4 rG1_2))
    (k1_pay8 (View.ld x0 rA1) (View.ld x3 rG1_0) (View.ld x5 rB1_0)) (k1_pay9 (View.ld x0 rA1) (View.ld x3 rG1_1))
    (View.ld x5 rB1_1) (View.ld x5 rB1_2) (View.ld x6 rB1_0) (View.ld x6 rB1_1) (View.ld x6 rB1_2)⟩]

/-- The proof data of pipeline 1 on core `c`. The two windows on the hidden row's array hold the two halves of
    its share; every other input its array's whole share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KernelIdeal.D2.lean ====
/- Region 2 (the output projection, sixteen grid points of 3200 vocabulary entries, the last cut at the array's end):
   what each staging buffer holds after the body, as a function of the region's entry contents `V`. Windows: 0 the
   new hidden row (whole), 1 the projection matrix's block of 3200 rows, 2 the bias's block of 3200 entries, 3 the
   logits' block of 3200 entries. Blocks 1, 2, 3 overhang the arrays at the last point: their buffers are described on
   the part inside the array only, and filled out with the zero word elsewhere. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1x1024 := Rect.unit (s := S1x1024) ![0, 0] S1x1024.size inb_S1x1024_S1x1024_0_0
abbrev rW2 : Rect S3200x1024 := Rect.unit (s := S3200x1024) ![0, 0] S3200x1024.size inb_S3200x1024_S3200x1024_0_0
abbrev rB2 : Rect S1x3200 := Rect.unit (s := S1x3200) ![0, 0] S1x3200.size inb_S1x3200_S1x3200_0_0

/-- The logits block's buffer after the body: one whole store of the row times the matrix block plus the bias block. -/
def out2_3 (x0 : Vec F S1x1024 .f32) (x1 : Vec F S3200x1024 .f32) (x2 : Vec F S1x3200 .f32) : Vec F S1x3200 .f32 :=
  View.canon [⟨rB2, k2_pay1 (View.ld x0 rA2) (View.ld x1 rW2) (View.ld x2 rB2)⟩]

/-- The matrix block at point `t`, filled out past the array's end with the zero word. -/
def wblk2 (c : Dev nD) (t : Fin cfg2.N) : S3200x1024.Idx → Elt F .f32 :=
  win2_1.fill (grid2.coords t) (fun _ => Scalar.ofBits .f32 0#32) (iblk2 V c 1 t)
/-- The bias block at point `t`, filled out past the array's end with the zero word. -/
def bblk2 (c : Dev nD) (t : Fin cfg2.N) : S1x3200.Idx → Elt F .f32 :=
  win2_2.fill (grid2.coords t) (fun _ => Scalar.ofBits .f32 0#32) (iblk2 V c 2 t)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t
    = out2_3 (iblk2 V c 0 t) (wblk2 V c t) (bblk2 V c t) := by dsimp only [dat2]

end Cert.KernelIdeal.Hand

end
-- ==== Proof.KernelIdeal.Fold.lean ====
/- The TensorCore's unscoped buffers at each boundary of @main, folded from the launch memory: a host stretch applies its
   operations; a region replaces its output arrays by what its write-backs leave. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.KernelIdeal.D0
import proofs.«411821_j20263655702618_3_alg».proof.Proof.KernelIdeal.D1
import proofs.«411821_j20263655702618_3_alg».proof.Proof.KernelIdeal.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the first host stretch (the embedding row gathered, the hidden state reshaped): region 0's entry. -/
abbrev W1 (c : Dev nD) : Valuation τ sig (Elt F) := StableHlo.after hostOps0 (W0 m c)
/-- The same read at the TensorCore's references. -/
abbrev E1 (c : Dev nD) (b : Ref sig .tc) : Buf (Elt F) ((c : Thread nD τ).loc b) := W1 m c b
/-- After region 0: the attention weights and the combined input at what the pipeline leaves. -/
def W2 (c : Dev nD) : Valuation τ sig (Elt F) :=
  Function.update (Function.update (W1 m c) main_v8_0 ((dat0 (E1 m) c).arrAt 7 cfg0.N)) main_v8_1 ((dat0 (E1 m) c).arrAt 8 cfg0.N)
/-- After the second host stretch (the gate weights and biases reshaped gate-major): region 1's entry. -/
abbrev W3 (c : Dev nD) : Valuation τ sig (Elt F) := StableHlo.after hostOps1 (W2 m c)
abbrev E3 (c : Dev nD) (b : Ref sig .tc) : Buf (Elt F) ((c : Thread nD τ).loc b) := W3 m c b
/-- After region 1: the new hidden row at what the pipeline leaves. -/
def W4 (c : Dev nD) : Valuation τ sig (Elt F) :=
  Function.update (W3 m c) main_v13 ((dat1 (E3 m) c).arrAt 7 cfg1.N)
/-- After the third host stretch (the output bias reshaped to a row): region 2's entry. -/
abbrev W5 (c : Dev nD) : Valuation τ sig (Elt F) := StableHlo.after hostOps2 (W4 m c)
abbrev E5 (c : Dev nD) (b : Ref sig .tc) : Buf (Elt F) ((c : Thread nD τ).loc b) := W5 m c b
/-- After region 2: the logits at what the pipeline leaves. -/
def W6 (c : Dev nD) : Valuation τ sig (Elt F) :=
  Function.update (W5 m c) main_v15 ((dat2 (E5 m) c).arrAt 3 cfg2.N)
/-- After the log-softmax's operations, -/
abbrev W7 (c : Dev nD) : Valuation τ sig (Elt F) := StableHlo.after hostOps3 (W6 m c)
/-- and after the hidden state's return form: the end of @main. -/
abbrev W8 (c : Dev nD) : Valuation τ sig (Elt F) := StableHlo.after hostOps3_1 (W7 m c)

end Cert.KernelIdeal.Hand

end
-- ==== Proof.KernelIdeal.B0.lean ====
/- Region 0's body obligation: the kernel body run on the staging buffers at their blocks leaves each output's buffer at its stored value. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.KernelIdeal.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' buffers hold their blocks -/

/-- The region has one point and fetches every input there: the buffer holds what the fetch put in it, the whole array. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)
theorem before0_2 (c : Dev nD) (t : Fin cfg0.N) (d) : (dat0 V c).before 2 t d = iblk0 V c 2 t :=
  ((dat0 V c).before_fetched 2 t (fetch0_2 t) d).trans (by unfold Dat.fetched Dat.blockOf iblk0; rw [A_eq0]; try rfl)
theorem before0_3 (c : Dev nD) (t : Fin cfg0.N) (d) : (dat0 V c).before 3 t d = iblk0 V c 3 t :=
  ((dat0 V c).before_fetched 3 t (fetch0_3 t) d).trans (by unfold Dat.fetched Dat.blockOf iblk0; rw [A_eq0]; try rfl)
theorem before0_4 (c : Dev nD) (t : Fin cfg0.N) (d) : (dat0 V c).before 4 t d = iblk0 V c 4 t :=
  ((dat0 V c).before_fetched 4 t (fetch0_4 t) d).trans (by unfold Dat.fetched Dat.blockOf iblk0; rw [A_eq0]; try rfl)
theorem before0_5 (c : Dev nD) (t : Fin cfg0.N) (d) : (dat0 V c).before 5 t d = iblk0 V c 5 t :=
  ((dat0 V c).before_fetched 5 t (fetch0_5 t) d).trans (by unfold Dat.fetched Dat.blockOf iblk0; rw [A_eq0]; try rfl)
theorem before0_6 (c : Dev nD) (t : Fin cfg0.N) (d) : (dat0 V c).before 6 t d = iblk0 V c 6 t :=
  ((dat0 V c).before_fetched 6 t (fetch0_6 t) d).trans (by unfold Dat.fetched Dat.blockOf iblk0; rw [A_eq0]; try rfl)

/-! ## Each output's one store covers its buffer -/

theorem cover0_7 (p : Vec F S1x10 .f32) (y : S1x10.Idx) :
    ∃ pc ∈ ([⟨rO0, p⟩] : List (View.Piece (Elt F) S1x10 .f32)), y ∈ pc.1.set :=
  View.cover_of_tiled [⟨rO0, p⟩] S1x10.size (by rfl) y

theorem cover0_8 (p : Vec F S1x1024 .f32) (y : S1x1024.Idx) :
    ∃ pc ∈ ([⟨rA0, p⟩] : List (View.Piece (Elt F) S1x1024 .f32)), y ∈ pc.1.set :=
  View.cover_of_tiled [⟨rA0, p⟩] S1x1024.size (by rfl) y

/-! ## The body's triple -/

set_option maxHeartbeats 1000000 in
/-- The body on whole buffers, the seven inputs' at contents `x0 … x6` and the two outputs' at anything: it reads the
    inputs, reads each output's buffer once without using what it read, and stores each output whole; the inputs are
    left as they were, the softmax weights' buffer at `out0_7` and the combined input's at `out0_8`. -/
theorem sound_kernel0 (c : Dev nD) (E : Set ℕ) (i : grid0.Coords)
    (a0 : Memref sig .tc .vmem S1x1024 .f32) (h0 : a0.IsWhole)
    (a1 : Memref sig .tc .vmem S1x1024 .f32) (h1 : a1.IsWhole)
    (a2 : Memref sig .tc .vmem S10x1024 .f32) (h2 : a2.IsWhole)
    (a3 : Memref sig .tc .vmem S10x2048 .f32) (h3 : a3.IsWhole)
    (a4 : Memref sig .tc .vmem S10 .f32) (h4 : a4.IsWhole)
    (a5 : Memref sig .tc .vmem S1024x2048 .f32) (h5 : a5.IsWhole)
    (a6 : Memref sig .tc .vmem S1024 .f32) (h6 : a6.IsWhole)
    (a7 : Memref sig .tc .vmem S1x10 .f32) (h7 : a7.IsWhole)
    (a8 : Memref sig .tc .vmem S1x1024 .f32) (h8 : a8.IsWhole)
    (x0 x1 : Vec F S1x1024 .f32) (x2 : Vec F S10x1024 .f32) (x3 : Vec F S10x2048 .f32) (x4 : Vec F S10 .f32)
    (x5 : Vec F S1024x2048 .f32) (x6 : Vec F S1024 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out0_7 x0 x1 x3 x4) ∗ owns (c : Thread nD τ) a8 fullShare (out0_8 x0 x1 x2 x3 x4 x5 x6)) -∗ K ⟨⟩))
      ⊢ wp frame (wpE (defs₀ (F := F)) Variants.none c none) E
          (cc0__attn_comb_kernel i a0 h0 a1 h1 a2 h2 a3 h3 a4 h4 a5 h5 a6 h6 a7 h7 a8 h8) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The body obligation at a point -/

/-- What the body is called with at point `t`, the nine windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at a point: each input's buffer holds its whole array, the outputs' hold anything, so the triple applies;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.B1.lean ====
/- Region 1's body obligation. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.KernelIdeal.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers hold their blocks

Windows 0 and 1 (the combined input row and the whole hidden row) are fetched at the first point only: at the second
point the block index has not moved, and the buffer still holds the block. The other inputs are fetched at both points. -/

/-- Input window 0's current staging buffer holds its block at every point, fetched there or not, for any proof data
    whose array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents' and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents' and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the entry contents' and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The one store covers the new hidden block's buffer -/

/-- The body's single store is of the whole 1 x 512 buffer, so every index lies in it. -/
theorem cover1_7 (p0 : Vec F S1x512 .f32) (y : S1x512.Idx) :
    ∃ pc ∈ ([⟨rH1, p0⟩] : List (View.Piece (Elt F) S1x512 .f32)), y ∈ pc.1.set :=
  View.cover_of_tiled [⟨rH1, p0⟩] S1x512.size (by rfl) y

/-! ## The body's triple -/

set_option maxHeartbeats 1000000 in
/-- The recurrent step's body on whole staging memrefs: the seven inputs at contents `x0 … x6`, the output at anything.
    It reads the input row, the hidden row and the hidden block whole, the three gates' slices of the two weight blocks
    and of the two bias blocks, reads the output buffer (a value it never uses), and stores the gated update over the
    whole output buffer; the inputs are left as they were. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1x512 .f32) (harg3 : arg3.IsWhole) (arg4 : Memref sig .tc .vmem S3x512x1024 .f32) (harg4 : arg4.IsWhole)
    (arg5 : Memref sig .tc .vmem S3x512x1024 .f32) (harg5 : arg5.IsWhole) (arg6 : Memref sig .tc .vmem S3x512 .f32) (harg6 : arg6.IsWhole)
    (arg7 : Memref sig .tc .vmem S3x512 .f32) (harg7 : arg7.IsWhole) (arg8 : Memref sig .tc .vmem S1x512 .f32) (harg8 : arg8.IsWhole)
    (x0 x1 : Vec F S1x1024 .f32) (x2 : Vec F S1x512 .f32) (x3 x4 : Vec F S3x512x1024 .f32) (x5 x6 : Vec F S3x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The body obligation, at a generic point -/

/-- What the body is called with at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.B2.lean ====
/- Region 2's body: the kernel's triple on whole staging buffers, and the body obligation with the logits window forgotten
   (what holds at every float instance: past the array's end the matrix block's rows are not named, and a matrix product's
   entries are not known to be independent of them except over the extended reals). -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.KernelIdeal.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The one store of the logits block is of the whole block, so it covers the buffer. -/
theorem cover2_3 (p0 : Vec F S1x3200 .f32) (y : S1x3200.Idx) :
    ∃ pc ∈ ([⟨rB2, p0⟩] : List (View.Piece (Elt F) S1x3200 .f32)), y ∈ pc.1.set :=
  View.cover_of_tiled [⟨rB2, p0⟩] S1x3200.size (by rfl) y

set_option maxHeartbeats 1000000 in
/-- The kernel body on whole staging memrefs, the inputs' at contents `x0 x1 x2` and the output's at anything, runs to the
    continuation holding the inputs' as they were and the output's at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The windows region 2's frame forgets: the logits block (window 3). -/
abbrev fgt2 : Fin cfg2.W → Bool := fun | ⟨0, _⟩ => false | ⟨1, _⟩ => false | ⟨2, _⟩ => false | ⟨3, _⟩ => true

/-- The hidden row's buffer (window 0: whole, uncut, fetched at the first point only) holds the row at every point:
    where it is not fetched its block index has not moved, and the body left it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The matrix block's buffer is fetched at every point: it holds the block's rows inside the matrix, and past the
    matrix's last row whatever `d` the fetch left there. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]; try rfl

/-- The bias block's likewise: the entries inside the bias row, and `d` past its end. -/
theorem before2_2 (c : Dev nD) (t : Fin cfg2.N) (d) :
    (dat2 V c).before 2 t d = win2_2.fill (grid2.coords t) d (iblk2 V c 2 t) := by
  unfold Dat.before; rw [if_pos (fetch2_2 t)]
  unfold Dat.fetched Dat.blockOf iblk2; rw [A_eq2]; try rfl

/-- The body obligation with the logits window forgotten, at any float instance. -/
theorem body_obligation2_fgt (c : Dev nD) :
    BodyObligationLoose (dat2 (F := F) V c) (defs₀ (F := F)) Variants.none () Set.univ fgt2 := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the matrix and bias buffers hold their blocks filled out with what the fetches left; on the part inside the
  -- arrays that is what the zero-filled blocks hold, which is all the obligation states of a cut window
  have h1 : win2_1.cut (grid2.coords t) (wblk2 V c t) = iblk2 V c 1 t := win2_1.cut_fill _ _ _
  have h2 : win2_2.cut (grid2.coords t) (bblk2 V c t) = iblk2 V c 2 t := win2_2.cut_fill _ _ _
  rw [after2_0, after2_1, after2_2]
  isplitl [H0]; · iexact H0
  isplitl [H1]
  · iexists d1
    change _ ⊢ owns (c : Thread nD τ) (win2_1.stage (cfg2.slots t 1)) fullShare
      (win2_1.fill (grid2.coords t) d1 (win2_1.cut (grid2.coords t) (wblk2 V c t)))
    rw [h1]
  isplitl [H2]
  · iexists d2
    change _ ⊢ owns (c : Thread nD τ) (win2_2.stage (cfg2.slots t 2)) fullShare
      (win2_2.fill (grid2.coords t) d2 (win2_2.cut (grid2.coords t) (bblk2 V c t)))
    rw [h2]
  iexists _; iexact H3

end Cert.KernelIdeal.Hand

end
-- ==== Proof.KernelIdeal.B2I.lean ====
/- Region 2's exact body obligation over the extended reals: an entry of the row-times-matrix product is a sum over that
   entry's own matrix row, so the logits inside the array do not depend on what the buffers hold past the array's end. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.KernelIdeal.B2
import Idealize.ShloMosaic.PureOps.Ideal.Laws
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The stored block, entry by entry -/

theorem zeros2I : (![0, 0] : Fin 2 → Nat) = fun _ => 0 := funext fun a => by fin_cases a <;> rfl

/-- The body loads its buffers whole and stores the logits block whole: the block is the payload of the buffers' contents. -/
theorem out2_3_eq (x0 : Vec Ideal S1x1024 .f32) (x1 : Vec Ideal S3200x1024 .f32) (x2 : Vec Ideal S1x3200 .f32) :
    out2_3 x0 x1 x2 = k2_pay1 x0 x1 x2 := by
  unfold out2_3
  rw [View.canon_unit_zero (S := S1x3200) zeros2I, View.ld_unit_zero (S := S1x1024) zeros2I,
    View.ld_unit_zero (S := S3200x1024) zeros2I, View.ld_unit_zero (S := S1x3200) zeros2I]

/-- Over the extended reals nothing is rounded: entry `j` of the payload is the sum, over the hidden axis, of the row's
    entries times the entries of the matrix row the product pairs with `j`, plus the bias's entry `j`. -/
theorem k2_pay1_apply (x0 : Vec Ideal S1x1024 .f32) (x1 : Vec Ideal S3200x1024 .f32) (x2 : Vec Ideal S1x3200 .f32)
    (j : S1x3200.Idx) :
    k2_pay1 x0 x1 x2 j
      = (∑ k : dot_S1x1024_S3200x1024_S1x3200_1_1_0_0_n_n.contr.Idx,
          x0 (dot_S1x1024_S3200x1024_S1x3200_1_1_0_0_n_n.lhsIdx j k)
            * x1 (dot_S1x1024_S3200x1024_S1x3200_1_1_0_0_n_n.rhsIdx j k)) + x2 j := by
  unfold k2_pay1
  simp only [shapeCast_self]
  show FloatOps.addf _ _ = _
  rw [Ideal.addf_def]
  simp only [matmul]
  rw [Ideal.matmul_constant_zero_apply]
  rfl

/-- The matrix row that entry `j` of the product reads is row `j 1`, at every position along the hidden axis. -/
theorem rhsIdx2_row (j : S1x3200.Idx) (k : dot_S1x1024_S3200x1024_S1x3200_1_1_0_0_n_n.contr.Idx) :
    (dot_S1x1024_S3200x1024_S1x3200_1_1_0_0_n_n.rhsIdx j k 0).val = (j 1).val := by
  unfold DotDims.rhsIdx
  rw [dif_neg (by decide), dif_pos (by decide)]
  simp only [Fin.val_cast]
  have key : ∀ (p q : Nat) (hp : p < S1x3200.rank) (hq : q < S1x3200.rank), p = q → (j ⟨p, hp⟩).val = (j ⟨q, hq⟩).val :=
    fun p q hp hq h => by subst h; rfl
  exact key _ _ _ _ (by decide)

/-! ## The cuts -/

/-- The three cut windows are cut alike: the matrix block on its rows exactly where the bias and logits blocks are on
    their entries (all sixteen points, the last one cut at 2257); the matrix block's rows themselves are whole. -/
theorem xsize2_1_0 : ∀ i : grid2.Coords, win2_1.xsize i 0 = win2_3.xsize i 1 := by decide +kernel
theorem xsize2_1_1 : ∀ i : grid2.Coords, win2_1.xsize i 1 = 1024 := by decide +kernel
theorem xsize2_2 : ∀ (i : grid2.Coords) a, win2_2.xsize i a = win2_3.xsize i a := by decide +kernel

/-- Two fillings of one block agree on the part the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The logits inside the array do not depend on what fills the matrix and bias blocks past the arrays' end: entry `j`
    inside the array reads matrix row `j 1`, which is inside the matrix (the cuts agree) and whole, and bias entry `j`. -/
theorem cut_out2_3_fill (i : grid2.Coords) (x0 : Vec Ideal S1x1024 .f32)
    (d1 d1' : S3200x1024.Idx → Elt Ideal .f32) (g1 : (win2_1.xblock i).Idx → Elt Ideal .f32)
    (d2 d2' : S1x3200.Idx → Elt Ideal .f32) (g2 : (win2_2.xblock i).Idx → Elt Ideal .f32) :
    win2_3.cut i (out2_3 x0 (win2_1.fill i d1 g1) (win2_2.fill i d2 g2))
      = win2_3.cut i (out2_3 x0 (win2_1.fill i d1' g1) (win2_2.fill i d2' g2)) := by
  funext j
  show out2_3 _ _ _ (win2_3.xinj i j) = out2_3 _ _ _ (win2_3.xinj i j)
  rw [out2_3_eq, out2_3_eq, k2_pay1_apply, k2_pay1_apply]
  congr 1
  · refine Finset.sum_congr rfl fun k _ => ?_
    congr 1
    refine fill_eq_of_moved win2_1 i d1 d1' g1 ((win2_1.moved_iff i _).mpr fun a => ?_)
    match a with
    | ⟨0, _⟩ =>
      show (dot_S1x1024_S3200x1024_S1x3200_1_1_0_0_n_n.rhsIdx (win2_3.xinj i j) k 0).val < win2_1.xsize i 0
      rw [rhsIdx2_row, xsize2_1_0 i]; exact (j 1).isLt
    | ⟨1, _⟩ =>
      show (dot_S1x1024_S3200x1024_S1x3200_1_1_0_0_n_n.rhsIdx (win2_3.xinj i j) k 1).val < win2_1.xsize i 1
      rw [xsize2_1_1 i]; exact (dot_S1x1024_S3200x1024_S1x3200_1_1_0_0_n_n.rhsIdx (win2_3.xinj i j) k 1).isLt
  · refine fill_eq_of_moved win2_2 i d2 d2' g2 ((win2_2.moved_iff i _).mpr fun a => ?_)
    rw [xsize2_2 i a]; exact (j a).isLt

/-! ## The body obligation -/

/-- The library's body obligation for region 2 at the extended reals, every window described on its part inside the array. -/
theorem body_obligation2 (c : Dev nD) :
    BodyObligationLoose (dat2 (F := Ideal) V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the matrix and bias buffers hold their blocks filled out with what the fetches left, which on the part inside the
  -- arrays is what the zero-filled blocks hold; the logits buffer holds the payload of THOSE fillings, which on the
  -- part inside the array is the payload of the zero-filled blocks (`cut_out2_3_fill`): each is what its window's
  -- obligation states, the buffer's own contents serving as the filling past the array's end
  have h1 : win2_1.cut (grid2.coords t) (wblk2 V c t) = iblk2 V c 1 t := win2_1.cut_fill _ _ _
  have h2 : win2_2.cut (grid2.coords t) (bblk2 V c t) = iblk2 V c 2 t := win2_2.cut_fill _ _ _
  have h3 : win2_3.cut (grid2.coords t) (out2_3 (iblk2 V c 0 t) (win2_1.fill (grid2.coords t) d1 (iblk2 V c 1 t))
        (win2_2.fill (grid2.coords t) d2 (iblk2 V c 2 t)))
      = win2_3.cut (grid2.coords t) (out2_3 (iblk2 V c 0 t) (wblk2 V c t) (bblk2 V c t)) :=
    cut_out2_3_fill (grid2.coords t) (iblk2 V c 0 t) d1 _ (iblk2 V c 1 t) d2 _ (iblk2 V c 2 t)
  rw [after2_0, after2_1, after2_2, after2_3]
  isplitl [H0]; · iexact H0
  isplitl [H1]
  · iexists d1
    change _ ⊢ owns (c : Thread nD τ) (win2_1.stage (cfg2.slots t 1)) fullShare
      (win2_1.fill (grid2.coords t) d1 (win2_1.cut (grid2.coords t) (wblk2 V c t)))
    rw [h1]
  isplitl [H2]
  · iexists d2
    change _ ⊢ owns (c : Thread nD τ) (win2_2.stage (cfg2.slots t 2)) fullShare
      (win2_2.fill (grid2.coords t) d2 (win2_2.cut (grid2.coords t) (bblk2 V c t)))
    rw [h2]
  iexists out2_3 (iblk2 V c 0 t) (win2_1.fill (grid2.coords t) d1 (iblk2 V c 1 t))
    (win2_2.fill (grid2.coords t) d2 (iblk2 V c 2 t))
  change _ ⊢ owns (c : Thread nD τ) (win2_3.stage (cfg2.slots t 3)) fullShare
    (win2_3.fill (grid2.coords t) (out2_3 (iblk2 V c 0 t) (win2_1.fill (grid2.coords t) d1 (iblk2 V c 1 t))
        (win2_2.fill (grid2.coords t) d2 (iblk2 V c 2 t)))
      (win2_3.cut (grid2.coords t) (out2_3 (iblk2 V c 0 t) (wblk2 V c t) (bblk2 V c t))))
  rw [win2_3.fill_congr_cut (grid2.coords t) h3]

end Cert.KernelIdeal.Hand

end
-- ==== Proof.KernelIdeal.RunI.lean ====
/- The idealized kernel's whole run over the extended reals: @main as eight segments (five host stretches, three kernel
   regions), each region entered from the buffers the segment before it left; at the end every unscoped buffer holds the
   fold `W8` of the launch memory. -/
import proofs.«411821_j20263655702618_3_alg».proof.Proof.Gen.KernelIdeal.Launch
import proofs.«411821_j20263655702618_3_alg».proof.Proof.Gen.KernelIdeal.Skeleton
import proofs.«411821_j20263655702618_3_alg».proof.Proof.Gen.KernelIdeal.Points
import proofs.«411821_j20263655702618_3_alg».proof.Proof.Gen.KernelIdeal.Regions
import proofs.«411821_j20263655702618_3_alg».proof.Proof.KernelIdeal.Fold
import proofs.«411821_j20263655702618_3_alg».proof.Proof.KernelIdeal.B0
import proofs.«411821_j20263655702618_3_alg».proof.Proof.KernelIdeal.B1
import proofs.«411821_j20263655702618_3_alg».proof.Proof.KernelIdeal.B2I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf Seg HostSeg RegionSeg)

local notation "𝕄" => MT nD τ sig Unit (Elt Ideal) ℕ (UR sig nD τ) ℕ

variable (m : (ℓ : Loc nD τ sig) → Buf (Elt Ideal) ℓ) (ρ : Dev nD → PrngReg)

/-! ## The fold at the regions' exits, read reference by reference -/

/-- Region 0 leaves every buffer but its two outputs' as it found it. -/
theorem W2_of_ne (c : Dev nD) (r : Ref sig .tc) (h0 : r ≠ main_v8_0) (h1 : r ≠ main_v8_1) :
    W2 (F := Ideal) m c r = W1 m c r := by
  simp only [W2, Function.update_of_ne (StableHlo.devRef_ne_of_ne h0 : (Proc.devRef .tc r : DevRef τ sig) ≠ Proc.devRef .tc main_v8_0),
    Function.update_of_ne (StableHlo.devRef_ne_of_ne h1 : (Proc.devRef .tc r : DevRef τ sig) ≠ Proc.devRef .tc main_v8_1)]
/-- The attention weights' buffer at region 0's exit. -/
theorem W2_v8_0 (c : Dev nD) : W2 (F := Ideal) m c main_v8_0 = (dat0 (E1 m) c).arrAt 7 cfg0.N := by
  simp only [W2, Function.update_of_ne (StableHlo.devRef_ne_of_ne (by decide : main_v8_0 ≠ main_v8_1) : (Proc.devRef .tc main_v8_0 : DevRef τ sig) ≠ Proc.devRef .tc main_v8_1),
    Function.update_self]
/-- The combined input's buffer at region 0's exit. -/
theorem W2_v8_1 (c : Dev nD) : W2 (F := Ideal) m c main_v8_1 = (dat0 (E1 m) c).arrAt 8 cfg0.N := by
  simp only [W2, Function.update_self]
/-- Region 1 leaves every buffer but the new hidden row's as it found it. -/
theorem W4_of_ne (c : Dev nD) (r : Ref sig .tc) (h : r ≠ main_v13) : W4 (F := Ideal) m c r = W3 m c r := by
  simp only [W4, Function.update_of_ne (StableHlo.devRef_ne_of_ne h : (Proc.devRef .tc r : DevRef τ sig) ≠ Proc.devRef .tc main_v13)]
/-- The new hidden row's buffer at region 1's exit. -/
theorem W4_v13 (c : Dev nD) : W4 (F := Ideal) m c main_v13 = (dat1 (E3 m) c).arrAt 7 cfg1.N := by
  simp only [W4, Function.update_self]
/-- Region 2 leaves every buffer but the logits' as it found it. -/
theorem W6_of_ne (c : Dev nD) (r : Ref sig .tc) (h : r ≠ main_v15) : W6 (F := Ideal) m c r = W5 m c r := by
  simp only [W6, Function.update_of_ne (StableHlo.devRef_ne_of_ne h : (Proc.devRef .tc r : DevRef τ sig) ≠ Proc.devRef .tc main_v15)]
/-- The logits' buffer at region 2's exit. -/
theorem W6_v15 (c : Dev nD) : W6 (F := Ideal) m c main_v15 = (dat2 (E5 m) c).arrAt 3 cfg2.N := by
  simp only [W6, Function.update_self]

/-- The exit contents read at the TensorCore's references. -/
abbrev E2 (c : Dev nD) (b : Ref sig .tc) : Buf (Elt Ideal) ((c : Thread nD τ).loc b) := W2 m c b
abbrev E4 (c : Dev nD) (b : Ref sig .tc) : Buf (Elt Ideal) ((c : Thread nD τ).loc b) := W4 m c b
abbrev E6 (c : Dev nD) (b : Ref sig .tc) : Buf (Elt Ideal) ((c : Thread nD τ).loc b) := W6 m c b

/-- At region 0's exit each of its arrays holds what the pipeline leaves: an input what it held at entry, an output the
    fold of its write-backs. -/
theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans ((A_eq0 (E1 m) c 0).trans (W2_of_ne m c main_v6 (by decide) (by decide)).symm)
  | ⟨1, _⟩ => ((dat0 (E1 m) c).arrAt_in 1 rfl _).trans ((A_eq0 (E1 m) c 1).trans (W2_of_ne m c main_v7 (by decide) (by decide)).symm)
  | ⟨2, _⟩ => ((dat0 (E1 m) c).arrAt_in 2 rfl _).trans ((A_eq0 (E1 m) c 2).trans (W2_of_ne m c main_arg2 (by decide) (by decide)).symm)
  | ⟨3, _⟩ => ((dat0 (E1 m) c).arrAt_in 3 rfl _).trans ((A_eq0 (E1 m) c 3).trans (W2_of_ne m c main_arg4 (by decide) (by decide)).symm)
  | ⟨4, _⟩ => ((dat0 (E1 m) c).arrAt_in 4 rfl _).trans ((A_eq0 (E1 m) c 4).trans (W2_of_ne m c main_arg5 (by decide) (by decide)).symm)
  | ⟨5, _⟩ => ((dat0 (E1 m) c).arrAt_in 5 rfl _).trans ((A_eq0 (E1 m) c 5).trans (W2_of_ne m c main_arg6 (by decide) (by decide)).symm)
  | ⟨6, _⟩ => ((dat0 (E1 m) c).arrAt_in 6 rfl _).trans ((A_eq0 (E1 m) c 6).trans (W2_of_ne m c main_arg7 (by decide) (by decide)).symm)
  | ⟨7, _⟩ => (W2_v8_0 m c).symm
  | ⟨8, _⟩ => (W2_v8_1 m c).symm
/-- Off region 0's arrays the exit contents are the entry contents. -/
theorem hrest0 (c : Dev nD) : ∀ b, b ∉ Finset.univ.image (Pipeline.arrRef spec0) → E2 m c b = E1 m c b :=
  fun b hb => W2_of_ne m c b (fun e => hb (Finset.mem_image.mpr ⟨7, Finset.mem_univ _, e.symm⟩))
    (fun e => hb (Finset.mem_image.mpr ⟨8, Finset.mem_univ _, e.symm⟩))

/-- At region 2's exit each of its arrays holds what the pipeline leaves. -/
theorem hF2 (c : Dev nD) (w : Fin cfg2.W) : (dat2 (E5 m) c).arrAt w cfg2.N = E6 m c (Pipeline.arrRef spec2 w) :=
  match w with
  | ⟨0, _⟩ => ((dat2 (E5 m) c).arrAt_in 0 rfl _).trans ((A_eq2 (E5 m) c 0).trans (W6_of_ne m c main_v13 (by decide)).symm)
  | ⟨1, _⟩ => ((dat2 (E5 m) c).arrAt_in 1 rfl _).trans ((A_eq2 (E5 m) c 1).trans (W6_of_ne m c main_arg12 (by decide)).symm)
  | ⟨2, _⟩ => ((dat2 (E5 m) c).arrAt_in 2 rfl _).trans ((A_eq2 (E5 m) c 2).trans (W6_of_ne m c main_v14 (by decide)).symm)
  | ⟨3, _⟩ => (W6_v15 m c).symm
/-- Off region 2's arrays the exit contents are the entry contents. -/
theorem hrest2 (c : Dev nD) : ∀ b, b ∉ Finset.univ.image (Pipeline.arrRef spec2) → E6 m c b = E5 m c b :=
  fun b hb => W6_of_ne m c b (fun e => hb (Finset.mem_image.mpr ⟨3, Finset.mem_univ _, e.symm⟩))

/-! ## The proof data family and the thread state -/

/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents `W8`, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- REGION 0 (attention weights and combined input) over the thread state: entered from every unscoped buffer at `W1`,
    left at `W2`. Its nine arrays are distinct buffers, split out of the unscoped buffers at entry and put back, the two
    outputs at their write-backs' fold, at exit. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the output projection) over the thread state: entered from every unscoped buffer at `W5`, left at `W6`.
    Its four arrays are distinct buffers; the body's obligation is the one that describes each clipped block on its part
    inside the array. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (E5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: seven buffers behind eight windows

The whole hidden row and its block of 512 are windows on ONE array: at entry its buffer's full share is cut in its two
halves, one per window; both windows are inputs, so at exit both halves hold the entry contents and join back. -/

/-- The distinct buffers behind region 1's windows, one by one. -/
theorem arrBufs1_eq (c : Dev nD) (V : (b : Ref sig .tc) → Buf (Elt Ideal) ((c : Thread nD τ).loc b)) :
    (Pipeline.arrBufs (Ix := Unit) (Name := ℕ) (U := UR sig nD τ) (Lvl := ℕ) spec1 c V : sProp 𝕄)
      = iprop((((c : Thread nD τ).loc main_v8_1) ↦{fullShare} V main_v8_1)
      ∗ (((c : Thread nD τ).loc main_v7) ↦{fullShare} V main_v7)
      ∗ (((c : Thread nD τ).loc main_v9) ↦{fullShare} V main_v9)
      ∗ (((c : Thread nD τ).loc main_v10) ↦{fullShare} V main_v10)
      ∗ (((c : Thread nD τ).loc main_v11) ↦{fullShare} V main_v11)
      ∗ (((c : Thread nD τ).loc main_v12) ↦{fullShare} V main_v12)
      ∗ (((c : Thread nD τ).loc main_v13) ↦{fullShare} V main_v13)) := by
  unfold Pipeline.arrBufs
  exact bigSep_eq_bigSepL_of_eq [main_v8_1, main_v7, main_v9, main_v10, main_v11, main_v12, main_v13] (by decide) (by decide) _

/-- Region 1's arrays window by window: each a whole buffer, at the share its window holds. -/
theorem arrays1_eq (c : Dev nD) (F : (w : Fin cfg1.W) → Buf (Elt Ideal) ((cfg1.win w).arr.view.loc (c : Thread nD τ))) :
    ((dat1 (E3 m) c).arrays F : sProp 𝕄) = iprop(
        (((c : Thread nD τ).loc main_v8_1) ↦{fullShare} F 0)
      ∗ (((c : Thread nD τ).loc main_v7) ↦{fullShare.left} F 1)
      ∗ (((c : Thread nD τ).loc main_v7) ↦{fullShare.right} F 2)
      ∗ (((c : Thread nD τ).loc main_v9) ↦{fullShare} F 3)
      ∗ (((c : Thread nD τ).loc main_v10) ↦{fullShare} F 4)
      ∗ (((c : Thread nD τ).loc main_v11) ↦{fullShare} F 5)
      ∗ (((c : Thread nD τ).loc main_v12) ↦{fullShare} F 6)
      ∗ (((c : Thread nD τ).loc main_v13) ↦{fullShare} F 7)) := by
  have h : ((dat1 (E3 m) c).arrays F : sProp 𝕄) = bigSep Finset.univ fun w : Fin cfg1.W =>
      ((((c : Thread nD τ).loc (Pipeline.arrRef spec1 w)) ↦{(dat1 (E3 m) c).share w} F w : sProp 𝕄)) := by
    unfold Pipeline.Dat.arrays
    exact bigSep_congr fun w _ => by rw [(arr_whole1 w).set_eq_univ]
  rw [h, bigSep_W1]
  rfl

/-- At region 1's exit each window's array holds what the pipeline leaves: an input what it held at entry, the new
    hidden row the fold of its write-backs. -/
theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans ((A_eq1 (E3 m) c 0).trans (W4_of_ne m c main_v8_1 (by decide)).symm)
  | ⟨1, _⟩ => ((dat1 (E3 m) c).arrAt_in 1 rfl _).trans ((A_eq1 (E3 m) c 1).trans (W4_of_ne m c main_v7 (by decide)).symm)
  | ⟨2, _⟩ => ((dat1 (E3 m) c).arrAt_in 2 rfl _).trans ((A_eq1 (E3 m) c 2).trans (W4_of_ne m c main_v7 (by decide)).symm)
  | ⟨3, _⟩ => ((dat1 (E3 m) c).arrAt_in 3 rfl _).trans ((A_eq1 (E3 m) c 3).trans (W4_of_ne m c main_v9 (by decide)).symm)
  | ⟨4, _⟩ => ((dat1 (E3 m) c).arrAt_in 4 rfl _).trans ((A_eq1 (E3 m) c 4).trans (W4_of_ne m c main_v10 (by decide)).symm)
  | ⟨5, _⟩ => ((dat1 (E3 m) c).arrAt_in 5 rfl _).trans ((A_eq1 (E3 m) c 5).trans (W4_of_ne m c main_v11 (by decide)).symm)
  | ⟨6, _⟩ => ((dat1 (E3 m) c).arrAt_in 6 rfl _).trans ((A_eq1 (E3 m) c 6).trans (W4_of_ne m c main_v12 (by decide)).symm)
  | ⟨7, _⟩ => (W4_v13 m c).symm

/-- ENTRY of region 1, the arrays' part: the core's unscoped buffers at the entry contents are the eight windows' arrays
    at those contents — the hidden row's buffer cut in its two half shares — and the unscoped rest. -/
theorem arrays1_of_unscopedBufs (c : Dev nD) :
    (unscopedBufs (Ix := Unit) (Name := ℕ) (U := UR sig nD τ) (Lvl := ℕ) c (E3 m c) : sProp 𝕄)
      ⊢ iprop((pdats m 1 c).arrays ((pdats m 1 c).arrAt · 0)
          ∗ Pipeline.unscopedRest (Ix := Unit) (Name := ℕ) (U := UR sig nD τ) (Lvl := ℕ) spec1 c (E3 m c)) := by
  show _ ⊢ iprop((dat1 (E3 m) c).arrays ((dat1 (E3 m) c).arrAt · 0)
          ∗ Pipeline.unscopedRest (Ix := Unit) (Name := ℕ) (U := UR sig nD τ) (Lvl := ℕ) spec1 c (E3 m c))
  have hub : (unscopedBufs (Ix := Unit) (Name := ℕ) (U := UR sig nD τ) (Lvl := ℕ) c (E3 m c) : sProp 𝕄)
      = iprop(Pipeline.arrBufs (Ix := Unit) (Name := ℕ) (U := UR sig nD τ) (Lvl := ℕ) spec1 c (E3 m c)
          ∗ Pipeline.unscopedRest (Ix := Unit) (Name := ℕ) (U := UR sig nD τ) (Lvl := ℕ) spec1 c (E3 m c)) :=
    Pipeline.unscopedBufs_split₀ (Pipeline.pin (pcfgs (F := Ideal)) adm) 1 winFacts₀1.arr_unscoped c (E3 m c)
  rw [hub, arrBufs1_eq, arrays1_eq]
  iintro ⟨⟨H0, H7, H9, H10, H11, H12, H13⟩, Hrest⟩
  ihave H7 := (pointsTo_share (PosShare.mem_left_op_right fullShare)).1 $$ H7
  icases H7 with ⟨H7l, H7r⟩
  isplitr [Hrest]
  · isplitl [H0]; · iexact H0
    isplitl [H7l]; · iexact H7l
    isplitl [H7r]; · iexact H7r
    isplitl [H9]; · iexact H9
    isplitl [H10]; · iexact H10
    isplitl [H11]; · iexact H11
    isplitl [H12]; · iexact H12
    iexact H13
  iexact Hrest

/-- EXIT of region 1, the arrays' part: the eight windows' arrays at what the pipeline leaves — the two halves of the
    hidden row's buffer both at the entry contents, joined back — and the unscoped rest are the core's unscoped buffers
    at the exit contents. -/
theorem unscopedBufs_of_arrays1 (c : Dev nD) :
    iprop((pdats m 1 c).arrays ((pdats m 1 c).arrAt · cfg1.N)
        ∗ Pipeline.unscopedRest (Ix := Unit) (Name := ℕ) (U := UR sig nD τ) (Lvl := ℕ) spec1 c (E3 m c))
      ⊢ (unscopedBufs (Ix := Unit) (Name := ℕ) (U := UR sig nD τ) (Lvl := ℕ) c (E4 m c) : sProp 𝕄) := by
  show iprop((dat1 (E3 m) c).arrays ((dat1 (E3 m) c).arrAt · cfg1.N)
        ∗ Pipeline.unscopedRest (Ix := Unit) (Name := ℕ) (U := UR sig nD τ) (Lvl := ℕ) spec1 c (E3 m c)) ⊢ _
  have hub : (unscopedBufs (Ix := Unit) (Name := ℕ) (U := UR sig nD τ) (Lvl := ℕ) c (E4 m c) : sProp 𝕄)
      = iprop(Pipeline.arrBufs (Ix := Unit) (Name := ℕ) (U := UR sig nD τ) (Lvl := ℕ) spec1 c (E4 m c)
          ∗ Pipeline.unscopedRest (Ix := Unit) (Name := ℕ) (U := UR sig nD τ) (Lvl := ℕ) spec1 c (E4 m c)) :=
    Pipeline.unscopedBufs_split₀ (Pipeline.pin (pcfgs (F := Ideal)) adm) 1 winFacts₀1.arr_unscoped c (E4 m c)
  have hrest : (Pipeline.unscopedRest (Ix := Unit) (Name := ℕ) (U := UR sig nD τ) (Lvl := ℕ) spec1 c (E4 m c) : sProp 𝕄)
      = Pipeline.unscopedRest (Ix := Unit) (Name := ℕ) (U := UR sig nD τ) (Lvl := ℕ) spec1 c (E3 m c) := by
    unfold Pipeline.unscopedRest
    exact bigSep_congr fun b hb => by
      rw [show E4 m c b = E3 m c b from W4_of_ne m c b fun e =>
        (Finset.mem_sdiff.mp hb).2 (Finset.mem_image.mpr ⟨7, Finset.mem_univ _, e.symm⟩)]
  rw [hub, hrest, arrBufs1_eq, arrays1_eq]
  simp only [hF1 m c]
  iintro ⟨⟨H0, H7l, H7r, H9, H10, H11, H12, H13⟩, Hrest⟩
  ihave H7 := (pointsTo_share (PosShare.mem_left_op_right fullShare)).2 $$ [H7l H7r]
  · isplitl [H7l] <;> iassumption
  isplitr [Hrest]
  · isplitl [H0]; · iexact H0
    isplitl [H7]; · iexact H7
    isplitl [H9]; · iexact H9
    isplitl [H10]; · iexact H10
    isplitl [H11]; · iexact H11
    isplitl [H12]; · iexact H12
    iexact H13
  iexact Hrest

set_option backward.isDefEq.respectTransparency.types false in
/-- REGION 1 (the recurrent step) over the thread state: entered from every unscoped buffer at `W3`, left at `W4`. -/
def reg1 : Pipeline.RegionSeg (pcfgs (F := Ideal)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: a host segment per stretch from its boundary's contents, a region per kernel call. -/
abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)) ]
/-- @main is the run of the segments. -/
theorem main_run (c : Dev nD) : main (F := Ideal) c = Pipeline.Seg.run (segs m) := (main_chain c).trans (by chain_rfl)

set_option backward.isDefEq.respectTransparency.types false in
/-- From any memory with zero counters every weakly fair execution of @main terminates, nothing faulting, and every
    unscoped TensorCore buffer ends at the fold `W8` of the launch memory. -/
theorem run_main : θ_run defs (onTc (τ := τ) (main (F := Ideal))) ⟨m, fun _ => 0, ρ⟩ (fun r => ∀ c : Dev nD,
      ∀ b ∈ Pipeline.ucRefs τ sig, r.2.mem ((c : Thread nD τ).1, b) = W8 (F := Ideal) m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W8 m c) ∗ R c)
          ⊢ iprop(Tₙ m c ∗ ∃ W, owes (c : Thread nD τ) (0 : CellTallies nD τ sig Unit) W) from by
        iintro ⟨Hh, Hr, HO⟩
        isplitr [HO]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.KernelIdeal.Hand

end
-- ==== Proof.Spec.lean ====
/- The reference's computation cut into stages, each a function of the values it starts from: the embedded row
   (`emb`), the hidden row (`hid`), the attention weights (`attn`: the softmax of the scores of the embedded and hidden
   rows against the attention matrix), the combined, rectified input (`comb`), the gated recurrent update (`gru`), the
   vocabulary scores (`logit`), their log-softmax (`lsm`) and the hidden state's returned form (`hout`). Each
   definition is ONE of the reference's operations applied to earlier ones of its stage. -/
import proofs.«411821_j20263655702618_3_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

def emb_main_c (ix : (⟨S1, .i32⟩ : BufTy).Contents (Elt F)) (tbl : (⟨S50257x1024, .f32⟩ : BufTy).Contents (Elt F)) : (⟨S_, .i32⟩ : BufTy).Contents (Elt F) :=
  constantI S_ 32 0#32
def emb_main_v0 (ix : (⟨S1, .i32⟩ : BufTy).Contents (Elt F)) (tbl : (⟨S50257x1024, .f32⟩ : BufTy).Contents (Elt F)) : (⟨S1, .i32⟩ : BufTy).Contents (Elt F) :=
  broadcastInDim S1 ![] bcast_S_S1 (emb_main_c (F := F) ix tbl)
def emb_main_v1 (ix : (⟨S1, .i32⟩ : BufTy).Contents (Elt F)) (tbl : (⟨S50257x1024, .f32⟩ : BufTy).Contents (Elt F)) : (⟨S1, .i1⟩ : BufTy).Contents (Elt F) :=
  cmpi .slt ix (emb_main_v0 (F := F) ix tbl)
def emb_main_c_0 (ix : (⟨S1, .i32⟩ : BufTy).Contents (Elt F)) (tbl : (⟨S50257x1024, .f32⟩ : BufTy).Contents (Elt F)) : (⟨S_, .i32⟩ : BufTy).Contents (Elt F) :=
  constantI S_ 32 50257#32
def emb_main_v2 (ix : (⟨S1, .i32⟩ : BufTy).Contents (Elt F)) (tbl : (⟨S50257x1024, .f32⟩ : BufTy).Contents (Elt F)) : (⟨S1, .i32⟩ : BufTy).Contents (Elt F) :=
  broadcastInDim S1 ![] bcast_S_S1 (emb_main_c_0 (F := F) ix tbl)
def emb_main_v3 (ix : (⟨S1, .i32⟩ : BufTy).Contents (Elt F)) (tbl : (⟨S50257x1024, .f32⟩ : BufTy).Contents (Elt F)) : (⟨S1, .i32⟩ : BufTy).Contents (Elt F) :=
  addi ix (emb_main_v2 (F := F) ix tbl)
def emb_main_v4 (ix : (⟨S1, .i32⟩ : BufTy).Contents (Elt F)) (tbl : (⟨S50257x1024, .f32⟩ : BufTy).Contents (Elt F)) : (⟨S1, .i32⟩ : BufTy).Contents (Elt F) :=
  select (emb_main_v1 (F := F) ix tbl) (emb_main_v3 (F := F) ix tbl) ix
def emb_main_v5 (ix : (⟨S1, .i32⟩ : BufTy).Contents (Elt F)) (tbl : (⟨S50257x1024, .f32⟩ : BufTy).Contents (Elt F)) : (⟨S1x1, .i32⟩ : BufTy).Contents (Elt F) :=
  broadcastInDim S1x1 ![0] bcast_S1_S1x1_0 (emb_main_v4 (F := F) ix tbl)
def emb_main_v6 (ix : (⟨S1, .i32⟩ : BufTy).Contents (Elt F)) (tbl : (⟨S50257x1024, .f32⟩ : BufTy).Contents (Elt F)) : (⟨S1x1024, .f32⟩ : BufTy).Contents (Elt F) :=
  Host.gather gather_S50257x1024_S1x1_S1x1024_1_0_n_n_0_1_11024 tbl (emb_main_v5 (F := F) ix tbl)
/-- Stage `emb`: main_v6 of its inputs. -/
abbrev emb (ix : (⟨S1, .i32⟩ : BufTy).Contents (Elt F)) (tbl : (⟨S50257x1024, .f32⟩ : BufTy).Contents (Elt F)) : (⟨S1x1024, .f32⟩ : BufTy).Contents (Elt F) := emb_main_v6 (F := F) ix tbl

def hid_main_v7 (hd : (⟨S1x1x1024, .f32⟩ : BufTy).Contents (Elt F)) : (⟨S1x1024, .f32⟩ : BufTy).Contents (Elt F) :=
  shapeCast _ hd shapeCasts_S1x1x1024_S1x1024
/-- Stage `hid`: main_v7 of its inputs. -/
abbrev hid (hd : (⟨S1x1x1024, .f32⟩ : BufTy).Contents (Elt F)) : (⟨S1x1024, .f32⟩ : BufTy).Contents (Elt F) := hid_main_v7 (F := F) hd

def attn_main_v8 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x2048, .f32⟩ : BufTy).Contents (Elt F) :=
  concatenate S1x2048 1 [⟨S1x1024, e⟩, ⟨S1x1024, h⟩] concatenates_S1x1024_S1x1024_S1x2048_d1
def attn_main_v9 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S2048x10, .f32⟩ : BufTy).Contents (Elt F) :=
  transpose S2048x10 [1, 0] aW transposes_S10x2048_S2048x10_1_0
def attn_main_v10 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  Host.dotGeneral dot_S1x2048_S2048x10_S1x10_1_0_0_1_n_n none (attn_main_v8 (F := F) e h aW ab) (attn_main_v9 (F := F) e h aW ab)
def attn_main_v11 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  broadcastInDim S1x10 ![1] bcast_S10_S1x10_1 ab
def attn_main_v12 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  addf (attn_main_v10 (F := F) e h aW ab) (attn_main_v11 (F := F) e h aW ab)
def attn_main_cst_1 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S_, .f32⟩ : BufTy).Contents (Elt F) :=
  constant S_ .f32 0xFF800000#32
def attn_main_v14 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1, .f32⟩ : BufTy).Contents (Elt F) :=
  broadcastInDim S1 ![] bcast_S_S1 (attn_main_cst_1 (F := F) e h aW ab)
def attn_main_cst (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S_, .f32⟩ : BufTy).Contents (Elt F) :=
  constant S_ .f32 0xFF800000#32
def attn_main_v13 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1, .f32⟩ : BufTy).Contents (Elt F) :=
  Host.reduce FloatOps.maximumf (attn_main_v12 (F := F) e h aW ab) (attn_main_cst (F := F) e h aW ab) reducesTo_S1x10_S1_d1 h_S_
def attn_main_v15 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1, .f32⟩ : BufTy).Contents (Elt F) :=
  maximumf (attn_main_v14 (F := F) e h aW ab) (attn_main_v13 (F := F) e h aW ab)
def attn_main_v16 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x1, .f32⟩ : BufTy).Contents (Elt F) :=
  broadcastInDim S1x1 ![0] bcast_S1_S1x1_0 (attn_main_v15 (F := F) e h aW ab)
def attn_main_v17 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  broadcastInDim S1x10 ![0, 1] bcast_S1x1_S1x10_0_1 (attn_main_v16 (F := F) e h aW ab)
def attn_main_v18 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  subf (attn_main_v12 (F := F) e h aW ab) (attn_main_v17 (F := F) e h aW ab)
def attn_main_v19 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  Host.exp (attn_main_v18 (F := F) e h aW ab)
def attn_main_cst_2 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S_, .f32⟩ : BufTy).Contents (Elt F) :=
  constant S_ .f32 0x00000000#32
def attn_main_v20 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1, .f32⟩ : BufTy).Contents (Elt F) :=
  Host.reduceAdd (attn_main_v19 (F := F) e h aW ab) (attn_main_cst_2 (F := F) e h aW ab) reducesTo_S1x10_S1_d1 h_S_
def attn_main_v21 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x1, .f32⟩ : BufTy).Contents (Elt F) :=
  broadcastInDim S1x1 ![0] bcast_S1_S1x1_0 (attn_main_v20 (F := F) e h aW ab)
def attn_main_v22 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  broadcastInDim S1x10 ![0, 1] bcast_S1x1_S1x10_0_1 (attn_main_v21 (F := F) e h aW ab)
def attn_main_v23 (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) :=
  Host.divf (attn_main_v19 (F := F) e h aW ab) (attn_main_v22 (F := F) e h aW ab)
/-- Stage `attn`: main_v23 of its inputs. -/
abbrev attn (e : (⟨S1x1024, .f32⟩ : BufTy).Contents (Elt F)) (h : (⟨S1x1024, .f32⟩ : BufTy).Contents (Elt F)) (aW : (⟨S10x2048, .f32⟩ : BufTy).Contents (Elt F)) (ab : (⟨S10, .f32⟩ : BufTy).Contents (Elt F)) : (⟨S1x10, .f32⟩ : BufTy).Contents (Elt F) := attn_main_v23 (F := F) e h aW ab

def comb_main_v24 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  Host.dotGeneral dot_S1x10_S10x1024_S1x1024_1_0_0_1_n_n none a enc
def comb_main_v25 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x2048, .f32⟩ : BufTy).Contents (Elt F) :=
  concatenate S1x2048 1 [⟨S1x1024, e⟩, ⟨S1x1024, (comb_main_v24 (F := F) e a enc cW cb)⟩] concatenates_S1x1024_S1x1024_S1x2048_d1
def comb_main_v26 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S2048x1024, .f32⟩ : BufTy).Contents (Elt F) :=
  transpose S2048x1024 [1, 0] cW transposes_S1024x2048_S2048x1024_1_0
def comb_main_v27 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  Host.dotGeneral dot_S1x2048_S2048x1024_S1x1024_1_0_0_1_n_n none (comb_main_v25 (F := F) e a enc cW cb) (comb_main_v26 (F := F) e a enc cW cb)
def comb_main_v28 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  broadcastInDim S1x1024 ![1] bcast_S1024_S1x1024_1 cb
def comb_main_v29 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  addf (comb_main_v27 (F := F) e a enc cW cb) (comb_main_v28 (F := F) e a enc cW cb)
def comb_main_call0_cst (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S_, .f32⟩ : BufTy).Contents (Elt F) :=
  constant S_ .f32 0x00000000#32
def comb_main_call0_v0 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  broadcastInDim S1x1024 ![] bcast_S_S1x1024 (comb_main_call0_cst (F := F) e a enc cW cb)
def comb_main_v30 (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) :=
  maximumf (comb_main_v29 (F := F) e a enc cW cb) (comb_main_call0_v0 (F := F) e a enc cW cb)
/-- Stage `comb`: main_v30 of its inputs. -/
abbrev comb (e : (⟨S1x1024, .f32⟩ : BufTy).Contents (Elt F)) (a : (⟨S1x10, .f32⟩ : BufTy).Contents (Elt F)) (enc : (⟨S10x1024, .f32⟩ : BufTy).Contents (Elt F)) (cW : (⟨S1024x2048, .f32⟩ : BufTy).Contents (Elt F)) (cb : (⟨S1024, .f32⟩ : BufTy).Contents (Elt F)) : (⟨S1x1024, .f32⟩ : BufTy).Contents (Elt F) := comb_main_v30 (F := F) e a enc cW cb

def gru_main_cst_7 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S_, .f32⟩ : BufTy).Contents (Elt F) :=
  constant S_ .f32 0x3F800000#32
def gru_main_v62 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  broadcastInDim S1x1024 ![] bcast_S_S1x1024 (gru_main_cst_7 (F := F) x h wih whh bih bhh)
def gru_main_cst_6 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S_, .f32⟩ : BufTy).Contents (Elt F) :=
  constant S_ .f32 0x3F800000#32
def gru_main_v55 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  broadcastInDim S1x1024 ![] bcast_S_S1x1024 (gru_main_cst_6 (F := F) x h wih whh bih bhh)
def gru_main_cst_5 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S_, .f32⟩ : BufTy).Contents (Elt F) :=
  constant S_ .f32 0x3F800000#32
def gru_main_v53 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  broadcastInDim S1x1024 ![] bcast_S_S1x1024 (gru_main_cst_5 (F := F) x h wih whh bih bhh)
def gru_main_v31 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1024x3072, .f32⟩ : BufTy).Contents (Elt F) :=
  transpose S1024x3072 [1, 0] wih transposes_S3072x1024_S1024x3072_1_0
def gru_main_v32 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  Host.dotGeneral dot_S1x1024_S1024x3072_S1x3072_1_0_0_1_n_n none x (gru_main_v31 (F := F) x h wih whh bih bhh)
def gru_main_v33 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  broadcastInDim S1x3072 ![1] bcast_S3072_S1x3072_1 bih
def gru_main_v34 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  addf (gru_main_v32 (F := F) x h wih whh bih bhh) (gru_main_v33 (F := F) x h wih whh bih bhh)
def gru_main_v48 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 1024] (gru_main_v34 (F := F) x h wih whh bih bhh) slices_S1x3072_S1x1024_0_1024
def gru_main_v35 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1024x3072, .f32⟩ : BufTy).Contents (Elt F) :=
  transpose S1024x3072 [1, 0] whh transposes_S3072x1024_S1024x3072_1_0
def gru_main_v36 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  Host.dotGeneral dot_S1x1024_S1024x3072_S1x3072_1_0_0_1_n_n none h (gru_main_v35 (F := F) x h wih whh bih bhh)
def gru_main_v37 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  broadcastInDim S1x3072 ![1] bcast_S3072_S1x3072_1 bhh
def gru_main_v38 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x3072, .f32⟩ : BufTy).Contents (Elt F) :=
  addf (gru_main_v36 (F := F) x h wih whh bih bhh) (gru_main_v37 (F := F) x h wih whh bih bhh)
def gru_main_v49 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 1024] (gru_main_v38 (F := F) x h wih whh bih bhh) slices_S1x3072_S1x1024_0_1024
def gru_main_v50 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v48 (F := F) x h wih whh bih bhh) (gru_main_v49 (F := F) x h wih whh bih bhh)
def gru_main_v51 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.negf (gru_main_v50 (F := F) x h wih whh bih bhh)
def gru_main_v52 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.exp (gru_main_v51 (F := F) x h wih whh bih bhh)
def gru_main_v54 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v53 (F := F) x h wih whh bih bhh) (gru_main_v52 (F := F) x h wih whh bih bhh)
def gru_main_v56 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.divf (gru_main_v55 (F := F) x h wih whh bih bhh) (gru_main_v54 (F := F) x h wih whh bih bhh)
def gru_main_v63 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  subf (gru_main_v62 (F := F) x h wih whh bih bhh) (gru_main_v56 (F := F) x h wih whh bih bhh)
def gru_main_v57 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 2048] (gru_main_v34 (F := F) x h wih whh bih bhh) slices_S1x3072_S1x1024_0_2048
def gru_main_cst_4 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S_, .f32⟩ : BufTy).Contents (Elt F) :=
  constant S_ .f32 0x3F800000#32
def gru_main_v46 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  broadcastInDim S1x1024 ![] bcast_S_S1x1024 (gru_main_cst_4 (F := F) x h wih whh bih bhh)
def gru_main_cst_3 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S_, .f32⟩ : BufTy).Contents (Elt F) :=
  constant S_ .f32 0x3F800000#32
def gru_main_v44 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  broadcastInDim S1x1024 ![] bcast_S_S1x1024 (gru_main_cst_3 (F := F) x h wih whh bih bhh)
def gru_main_v39 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 0] (gru_main_v34 (F := F) x h wih whh bih bhh) slices_S1x3072_S1x1024_0_0
def gru_main_v40 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 0] (gru_main_v38 (F := F) x h wih whh bih bhh) slices_S1x3072_S1x1024_0_0
def gru_main_v41 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v39 (F := F) x h wih whh bih bhh) (gru_main_v40 (F := F) x h wih whh bih bhh)
def gru_main_v42 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.negf (gru_main_v41 (F := F) x h wih whh bih bhh)
def gru_main_v43 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.exp (gru_main_v42 (F := F) x h wih whh bih bhh)
def gru_main_v45 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v44 (F := F) x h wih whh bih bhh) (gru_main_v43 (F := F) x h wih whh bih bhh)
def gru_main_v47 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.divf (gru_main_v46 (F := F) x h wih whh bih bhh) (gru_main_v45 (F := F) x h wih whh bih bhh)
def gru_main_v58 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  extractStridedSlice S1x1024 ![0, 2048] (gru_main_v38 (F := F) x h wih whh bih bhh) slices_S1x3072_S1x1024_0_2048
def gru_main_v59 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  mulf (gru_main_v47 (F := F) x h wih whh bih bhh) (gru_main_v58 (F := F) x h wih whh bih bhh)
def gru_main_v60 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v57 (F := F) x h wih whh bih bhh) (gru_main_v59 (F := F) x h wih whh bih bhh)
def gru_main_v61 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  Host.tanh (gru_main_v60 (F := F) x h wih whh bih bhh)
def gru_main_v64 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  mulf (gru_main_v63 (F := F) x h wih whh bih bhh) (gru_main_v61 (F := F) x h wih whh bih bhh)
def gru_main_v65 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  mulf (gru_main_v56 (F := F) x h wih whh bih bhh) h
def gru_main_v66 (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) :=
  addf (gru_main_v64 (F := F) x h wih whh bih bhh) (gru_main_v65 (F := F) x h wih whh bih bhh)
/-- Stage `gru`: main_v66 of its inputs. -/
abbrev gru (x : (⟨S1x1024, .f32⟩ : BufTy).Contents (Elt F)) (h : (⟨S1x1024, .f32⟩ : BufTy).Contents (Elt F)) (wih : (⟨S3072x1024, .f32⟩ : BufTy).Contents (Elt F)) (whh : (⟨S3072x1024, .f32⟩ : BufTy).Contents (Elt F)) (bih : (⟨S3072, .f32⟩ : BufTy).Contents (Elt F)) (bhh : (⟨S3072, .f32⟩ : BufTy).Contents (Elt F)) : (⟨S1x1024, .f32⟩ : BufTy).Contents (Elt F) := gru_main_v66 (F := F) x h wih whh bih bhh

def logit_main_v67 (hn : (⟨S1x1024, .f32⟩ : BufTy).Contents (Elt F)) (oW : (⟨S50257x1024, .f32⟩ : BufTy).Contents (Elt F)) (ob : (⟨S50257, .f32⟩ : BufTy).Contents (Elt F)) : (⟨S1024x50257, .f32⟩ : BufTy).Contents (Elt F) :=
  transpose S1024x50257 [1, 0] oW transposes_S50257x1024_S1024x50257_1_0
def logit_main_v68 (hn : (⟨S1x1024, .f32⟩ : BufTy).Contents (Elt F)) (oW : (⟨S50257x1024, .f32⟩ : BufTy).Contents (Elt F)) (ob : (⟨S50257, .f32⟩ : BufTy).Contents (Elt F)) : (⟨S1x50257, .f32⟩ : BufTy).Contents (Elt F) :=
  Host.dotGeneral dot_S1x1024_S1024x50257_S1x50257_1_0_0_1_n_n none hn (logit_main_v67 (F := F) hn oW ob)
def logit_main_v69 (hn : (⟨S1x1024, .f32⟩ : BufTy).Contents (Elt F)) (oW : (⟨S50257x1024, .f32⟩ : BufTy).Contents (Elt F)) (ob : (⟨S50257, .f32⟩ : BufTy).Contents (Elt F)) : (⟨S1x50257, .f32⟩ : BufTy).Contents (Elt F) :=
  broadcastInDim S1x50257 ![1] bcast_S50257_S1x50257_1 ob
def logit_main_v70 (hn : (⟨S1x1024, .f32⟩ : BufTy).Contents (Elt F)) (oW : (⟨S50257x1024, .f32⟩ : BufTy).Contents (Elt F)) (ob : (⟨S50257, .f32⟩ : BufTy).Contents (Elt F)) : (⟨S1x50257, .f32⟩ : BufTy).Contents (Elt F) :=
  addf (logit_main_v68 (F := F) hn oW ob) (logit_main_v69 (F := F) hn oW ob)
/-- Stage `logit`: main_v70 of its inputs. -/
abbrev logit (hn : (⟨S1x1024, .f32⟩ : BufTy).Contents (Elt F)) (oW : (⟨S50257x1024, .f32⟩ : BufTy).Contents (Elt F)) (ob : (⟨S50257, .f32⟩ : BufTy).Contents (Elt F)) : (⟨S1x50257, .f32⟩ : BufTy).Contents (Elt F) := logit_main_v70 (F := F) hn oW ob

def lsm_main_call1_cst_0 (lg : (⟨S1x50257, .f32⟩ : BufTy).Contents (Elt F)) : (⟨S_, .f32⟩ : BufTy).Contents (Elt F) :=
  constant S_ .f32 0xFF800000#32
def lsm_main_call1_v1 (lg : (⟨S1x50257, .f32⟩ : BufTy).Contents (Elt F)) : (⟨S1, .f32⟩ : BufTy).Contents (Elt F) :=
  broadcastInDim S1 ![] bcast_S_S1 (lsm_main_call1_cst_0 (F := F) lg)
def lsm_main_call1_cst (lg : (⟨S1x50257, .f32⟩ : BufTy).Contents (Elt F)) : (⟨S_, .f32⟩ : BufTy).Contents (Elt F) :=
  constant S_ .f32 0xFF800000#32
def lsm_main_call1_v0 (lg : (⟨S1x50257, .f32⟩ : BufTy).Contents (Elt F)) : (⟨S1, .f32⟩ : BufTy).Contents (Elt F) :=
  Host.reduce FloatOps.maximumf lg (lsm_main_call1_cst (F := F) lg) reducesTo_S1x50257_S1_d1 h_S_
def lsm_main_call1_v2 (lg : (⟨S1x50257, .f32⟩ : BufTy).Contents (Elt F)) : (⟨S1, .f32⟩ : BufTy).Contents (Elt F) :=
  maximumf (lsm_main_call1_v1 (F := F) lg) (lsm_main_call1_v0 (F := F) lg)
def lsm_main_call1_v3 (lg : (⟨S1x50257, .f32⟩ : BufTy).Contents (Elt F)) : (⟨S1x1, .f32⟩ : BufTy).Contents (Elt F) :=
  broadcastInDim S1x1 ![0] bcast_S1_S1x1_0 (lsm_main_call1_v2 (F := F) lg)
def lsm_main_call1_v4 (lg : (⟨S1x50257, .f32⟩ : BufTy).Contents (Elt F)) : (⟨S1x50257, .f32⟩ : BufTy).Contents (Elt F) :=
  broadcastInDim S1x50257 ![0, 1] bcast_S1x1_S1x50257_0_1 (lsm_main_call1_v3 (F := F) lg)
def lsm_main_call1_v5 (lg : (⟨S1x50257, .f32⟩ : BufTy).Contents (Elt F)) : (⟨S1x50257, .f32⟩ : BufTy).Contents (Elt F) :=
  subf lg (lsm_main_call1_v4 (F := F) lg)
def lsm_main_call1_v6 (lg : (⟨S1x50257, .f32⟩ : BufTy).Contents (Elt F)) : (⟨S1x50257, .f32⟩ : BufTy).Contents (Elt F) :=
  Host.exp (lsm_main_call1_v5 (F := F) lg)
def lsm_main_call1_cst_1 (lg : (⟨S1x50257, .f32⟩ : BufTy).Contents (Elt F)) : (⟨S_, .f32⟩ : BufTy).Contents (Elt F) :=
  constant S_ .f32 0x00000000#32
def lsm_main_call1_v7 (lg : (⟨S1x50257, .f32⟩ : BufTy).Contents (Elt F)) : (⟨S1, .f32⟩ : BufTy).Contents (Elt F) :=
  Host.reduceAdd (lsm_main_call1_v6 (F := F) lg) (lsm_main_call1_cst_1 (F := F) lg) reducesTo_S1x50257_S1_d1 h_S_
def lsm_main_call1_v8 (lg : (⟨S1x50257, .f32⟩ : BufTy).Contents (Elt F)) : (⟨S1x1, .f32⟩ : BufTy).Contents (Elt F) :=
  broadcastInDim S1x1 ![0] bcast_S1_S1x1_0 (lsm_main_call1_v7 (F := F) lg)
def lsm_main_call1_v9 (lg : (⟨S1x50257, .f32⟩ : BufTy).Contents (Elt F)) : (⟨S1x1, .f32⟩ : BufTy).Contents (Elt F) :=
  Host.log (lsm_main_call1_v8 (F := F) lg)
def lsm_main_call1_v10 (lg : (⟨S1x50257, .f32⟩ : BufTy).Contents (Elt F)) : (⟨S1x50257, .f32⟩ : BufTy).Contents (Elt F) :=
  broadcastInDim S1x50257 ![0, 1] bcast_S1x1_S1x50257_0_1 (lsm_main_call1_v9 (F := F) lg)
def lsm_main_v71 (lg : (⟨S1x50257, .f32⟩ : BufTy).Contents (Elt F)) : (⟨S1x50257, .f32⟩ : BufTy).Contents (Elt F) :=
  subf (lsm_main_call1_v5 (F := F) lg) (lsm_main_call1_v10 (F := F) lg)
/-- Stage `lsm`: main_v71 of its inputs. -/
abbrev lsm (lg : (⟨S1x50257, .f32⟩ : BufTy).Contents (Elt F)) : (⟨S1x50257, .f32⟩ : BufTy).Contents (Elt F) := lsm_main_v71 (F := F) lg

def hout_main_v72 (hn : (⟨S1x1024, .f32⟩ : BufTy).Contents (Elt F)) : (⟨S1x1x1024, .f32⟩ : BufTy).Contents (Elt F) :=
  broadcastInDim S1x1x1024 ![1, 2] bcast_S1x1024_S1x1x1024_1_2 hn
/-- Stage `hout`: main_v72 of its inputs. -/
abbrev hout (hn : (⟨S1x1024, .f32⟩ : BufTy).Contents (Elt F)) : (⟨S1x1x1024, .f32⟩ : BufTy).Contents (Elt F) := hout_main_v72 (F := F) hn

end Cert.Spec

end
-- ==== Proof.KernelIdeal.Val0.lean ====
/- Region 0's arrays after its one grid point, over the extended reals: the softmax weights are the reference's attention
   stage of the region's inputs, and the rectified combination its combine stage. -/
import proofs.«411821_j20263655702618_3_alg».proof.Proof.Spec
import proofs.«411821_j20263655702618_3_alg».proof.Proof.KernelIdeal.D0
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

/-! ## Layout: one row and one value, spelt the kernel's way and the host's -/

theorem hz2 : (![0, 0] : Fin 2 → Nat) = fun _ => 0 := funext fun a => by fin_cases a <;> rfl
theorem hz1 : (![0] : Fin 1 → Nat) = fun _ => 0 := funext fun a => by fin_cases a; rfl

section Layout
variable {α : Type}

/-- A vector of n entries cast to one row is the vector broadcast along axis 1 of a one-row matrix. -/
theorem oneRow_cast_eq_bcast {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, t, rfl⟩ : ∃ (r : Fin 1) (t : Fin n), i = ix2 r t := ⟨i 0, i 1, eq_ix2 i⟩
  rw [shapeCast_a_1a_apply]
  symm
  refine broadcastInDim_apply ![1] hd x (ix2 r t) (ix1 t) ?_
  intro a
  match a with
  | ⟨0, _⟩ =>
    show t.val = if n = 1 then 0 else t.val
    split
    · have := t.isLt; omega
    · rfl

/-- A single value, cast to a 1 x 1 matrix and spread along a row of n, is that value broadcast the host's way:
    first to 1 x 1, then along the row. Both read the one entry everywhere. -/
theorem spread_eq {n : Nat} (z : (⟨1, ![1]⟩ : Shape).Idx → α)
    (h1 : (⟨1, ![1]⟩ : Shape).ShapeCasts ⟨2, ![1, 1]⟩) (hb : (⟨2, ![1, 1]⟩ : Shape).Broadcasts ⟨2, ![1, n]⟩)
    (hd : (⟨1, ![1]⟩ : Shape).BroadcastsInDim ⟨2, ![1, 1]⟩ ![0])
    (hc : (⟨2, ![1, 1]⟩ : Shape).BroadcastsInDim ⟨2, ![1, n]⟩ ![0, 1]) :
    broadcastTo ⟨2, ![1, n]⟩ (shapeCast ⟨2, ![1, 1]⟩ z h1) hb
      = broadcastInDim ⟨2, ![1, n]⟩ ![0, 1] hc (broadcastInDim ⟨2, ![1, 1]⟩ ![0] hd z) := by
  funext i
  have e1 := broadcastTo_apply (shapeCast ⟨2, ![1, 1]⟩ z h1) hb i (ix2 (0 : Fin 1) (0 : Fin 1)) (by
    intro a
    match a with
    | ⟨0, _⟩ => rfl
    | ⟨1, _⟩ => rfl)
  have e2 := shapeCast_a_1a_apply z h1 (0 : Fin 1) (0 : Fin 1)
  have e3 := broadcastInDim_apply ![0, 1] hc (broadcastInDim ⟨2, ![1, 1]⟩ ![0] hd z) i (ix2 (0 : Fin 1) (0 : Fin 1)) (by
    intro a
    match a with
    | ⟨0, _⟩ => rfl
    | ⟨1, _⟩ => rfl)
  have e4 := broadcastInDim_apply ![0] hd z (ix2 (0 : Fin 1) (0 : Fin 1)) (ix1 (0 : Fin 1)) (by
    intro a
    match a with
    | ⟨0, _⟩ => rfl)
  exact e1.trans (e2.trans (e3.trans e4).symm)

end Layout

/-! ## The attention weights: scores, their greatest, the exponentials' sum -/

/-- The joined row's ten scores: a sum over the 2048 columns of row-entry times matrix-entry (k, column) is the sum
    against the transposed matrix's entry (column, k). -/
theorem scores_eq (x : FVec Ideal S1x2048 .f32) (w : FVec Ideal S10x2048 .f32) :
    matmul dot_S1x2048_S10x2048_S1x10_1_1_0_0_n_n none (truncf .bf16 x bitsLt_bf16_f32) (truncf .bf16 w bitsLt_bf16_f32) (constant S1x10 .f32 0x00000000#32)
      = Host.dotGeneral Cert.ReferenceIdeal.dot_S1x2048_S2048x10_S1x10_1_0_0_1_n_n none x
          (transpose Cert.ReferenceIdeal.S2048x10 [1, 0] w Cert.ReferenceIdeal.Gen.transposes_S10x2048_S2048x10_1_0) := by
  rw [matmul_zero_eq_dotGeneral]
  funext j
  show FloatOps.dotGeneral _ none _ _ _ j = FloatOps.dotGeneral _ none _ _ _ j
  rw [Ideal.dotGeneral_apply, Ideal.dotGeneral_apply]
  refine Finset.sum_congr rfl fun k _ => ?_
  show x (dot_S1x2048_S10x2048_S1x10_1_1_0_0_n_n.lhsIdx j k) * w (dot_S1x2048_S10x2048_S1x10_1_1_0_0_n_n.rhsIdx j k) = _
  congr 1
  symm
  exact transpose_apply _ w _ _ _ (fun b => match b with | ⟨0, _⟩ => rfl | ⟨1, _⟩ => rfl)

/-- The greatest of the row's ten scores, from minus infinity: the maximum over the lanes is the host's reduction,
    both the fold of `max` over the ten entries. -/
theorem rowMax_eq (x : FVec Ideal S1x10 .f32) :
    multiReduction .maximumf [1] S1 x 0xFF800000#32 reduces_S1x10_S1 (.inl rfl) rfl
      = Host.reduce FloatOps.maximumf x (constant (F := Ideal) Cert.ReferenceIdeal.S_ .f32 0xFF800000#32)
          Cert.ReferenceIdeal.Gen.reducesTo_S1x10_S1_d1 Cert.ReferenceIdeal.Gen.h_S_ := by
  funext j
  refine (Ideal.multiReduction_maximumf_single x 0xFF800000#32 reduces_S1x10_S1 (.inl rfl) rfl j).trans ?_
  have b := Host.reduce_eq_fold_single (FloatOps.maximumf (F := Ideal) (φ := .f32)) x
    (constant (F := Ideal) Cert.ReferenceIdeal.S_ .f32 0xFF800000#32) Cert.ReferenceIdeal.Gen.reducesTo_S1x10_S1_d1
    reduces_S1x10_S1 Cert.ReferenceIdeal.Gen.h_S_ j
  rw [b]
  rfl

/-- The sum of the row's ten exponentials, from zero. -/
theorem rowSum_eq (x : FVec Ideal S1x10 .f32) :
    multiReduction .add [1] S1 x 0x00000000#32 reduces_S1x10_S1 (.inl rfl) rfl
      = Host.reduceAdd x (constant (F := Ideal) Cert.ReferenceIdeal.S_ .f32 0x00000000#32)
          Cert.ReferenceIdeal.Gen.reducesTo_S1x10_S1_d1 Cert.ReferenceIdeal.Gen.h_S_ :=
  multiReduction_add_eq_hostReduceAdd x _ _ _ _ _ _ _ Ideal.ofBits_zero_f32

/-- The softmax of the scores of the joined embedded and hidden rows, as the body computes it from whole arrays, is
    the reference's attention stage: the same scores plus bias, less their greatest, exponentiated, over their sum. -/
theorem pay2_eq_attn (e h : Vec Ideal S1x1024 .f32) (aW : Vec Ideal S10x2048 .f32) (ab : Vec Ideal S10 .f32) :
    k0_pay2 e h aW ab = Cert.Spec.attn (F := Ideal) e h aW ab := by
  unfold k0_pay2 k0_pay1
  dsimp only
  have he : shapeCast S1x1024 e shapeCasts_S1x1024_S1x1024 = e := shapeCast_self e _
  have hh : shapeCast S1x1024 h shapeCasts_S1x1024_S1x1024 = h := shapeCast_self h _
  rw [he, hh, scores_eq, oneRow_cast_eq_bcast (hd := Cert.ReferenceIdeal.Gen.bcast_S10_S1x10_1), rowMax_eq, rowSum_eq,
    ← broadcastInDim_constant (s := Cert.ReferenceIdeal.S_) ![] Cert.ReferenceIdeal.Gen.bcast_S_S1,
    spread_eq (hd := Cert.ReferenceIdeal.Gen.bcast_S1_S1x1_0) (hc := Cert.ReferenceIdeal.Gen.bcast_S1x1_S1x10_0_1),
    spread_eq (hd := Cert.ReferenceIdeal.Gen.bcast_S1_S1x1_0) (hc := Cert.ReferenceIdeal.Gen.bcast_S1x1_S1x10_0_1)]
  rfl

/-! ## The combined input: weights times encoder outputs, joined, projected, rectified -/

/-- The joined row against the combine matrix: the sum over the 2048 columns against row k of the matrix is the sum
    against column k of its transpose. -/
theorem proj_eq (x : FVec Ideal S1x2048 .f32) (w : FVec Ideal S1024x2048 .f32) :
    matmul dot_S1x2048_S1024x2048_S1x1024_1_1_0_0_n_n none (truncf .bf16 x bitsLt_bf16_f32) (truncf .bf16 w bitsLt_bf16_f32) (constant S1x1024 .f32 0x00000000#32)
      = Host.dotGeneral Cert.ReferenceIdeal.dot_S1x2048_S2048x1024_S1x1024_1_0_0_1_n_n none x
          (transpose Cert.ReferenceIdeal.S2048x1024 [1, 0] w Cert.ReferenceIdeal.Gen.transposes_S1024x2048_S2048x1024_1_0) := by
  rw [matmul_zero_eq_dotGeneral]
  funext j
  show FloatOps.dotGeneral _ none _ _ _ j = FloatOps.dotGeneral _ none _ _ _ j
  rw [Ideal.dotGeneral_apply, Ideal.dotGeneral_apply]
  refine Finset.sum_congr rfl fun k _ => ?_
  show x (dot_S1x2048_S1024x2048_S1x1024_1_1_0_0_n_n.lhsIdx j k) * w (dot_S1x2048_S1024x2048_S1x1024_1_1_0_0_n_n.rhsIdx j k) = _
  congr 1
  symm
  exact transpose_apply _ w _ _ _ (fun b => match b with | ⟨0, _⟩ => rfl | ⟨1, _⟩ => rfl)

/-- The ten weights times the ten encoder rows: the same contraction on both sides. -/
theorem context_eq (a : FVec Ideal S1x10 .f32) (enc : FVec Ideal S10x1024 .f32) :
    matmul dot_S1x10_S10x1024_S1x1024_1_0_0_1_n_n none (truncf .bf16 a bitsLt_bf16_f32) (truncf .bf16 enc bitsLt_bf16_f32) (constant S1x1024 .f32 0x00000000#32)
      = Host.dotGeneral Cert.ReferenceIdeal.dot_S1x10_S10x1024_S1x1024_1_0_0_1_n_n none a enc := by
  rw [matmul_zero_eq_dotGeneral]
  rfl

/-- The body's rectified combination from whole arrays is the reference's combine stage of the embedded row, the
    attention weights, the encoder outputs, the combine matrix and its bias. -/
theorem pay3_eq_comb (e h : Vec Ideal S1x1024 .f32) (aW : Vec Ideal S10x2048 .f32) (ab : Vec Ideal S10 .f32)
    (enc : Vec Ideal S10x1024 .f32) (cW : Vec Ideal S1024x2048 .f32) (cb : Vec Ideal S1024 .f32) :
    k0_pay3 e h aW ab enc cW cb
      = Cert.Spec.comb (F := Ideal) e (Cert.Spec.attn (F := Ideal) e h aW ab) enc cW cb := by
  unfold k0_pay3 k0_pay1
  dsimp only
  have he : shapeCast S1x1024 e shapeCasts_S1x1024_S1x1024 = e := shapeCast_self e _
  rw [he, pay2_eq_attn, context_eq, proj_eq, oneRow_cast_eq_bcast (hd := Cert.ReferenceIdeal.Gen.bcast_S1024_S1x1024_1),
    ← broadcastInDim_constant (s := Cert.ReferenceIdeal.S_) ![] Cert.ReferenceIdeal.Gen.bcast_S_S1x1024]
  rfl

/-! ## The region's one point: every block is its whole array -/

/-- At the region's one point window 0's block index is zero on every axis. -/
theorem idx0_0 : ∀ t : Fin cfg0.N, win0_0.index t (0 : Fin 2) = 0 ∧ win0_0.index t (1 : Fin 2) = 0 :=
  (by decide +kernel : ∀ t : Fin grid0.N, _)

/-- So an element of window 0's block sits in the array at its own coordinates: the block is the array. -/
theorem emb0_0 (t : Fin cfg0.N) (j : ((cfg0.win 0).xblock (grid0.coords t)).Idx) :
    ((cfg0.win 0).blk t).view.emb j = j := by
  obtain ⟨e0, e1⟩ := idx0_0 t
  funext a; apply Fin.ext
  match a with
  | ⟨0, _⟩ => show win0_0.index t (0 : Fin 2) * 1 + 1 * (j 0).val = (j 0).val; omega
  | ⟨1, _⟩ => show win0_0.index t (1 : Fin 2) * 1024 + 1 * (j 1).val = (j 1).val; omega

/-- At the region's one point window 1's block index is zero on every axis. -/
theorem idx0_1 : ∀ t : Fin cfg0.N, win0_1.index t (0 : Fin 2) = 0 ∧ win0_1.index t (1 : Fin 2) = 0 :=
  (by decide +kernel : ∀ t : Fin grid0.N, _)

/-- So an element of window 1's block sits in the array at its own coordinates: the block is the array. -/
theorem emb0_1 (t : Fin cfg0.N) (j : ((cfg0.win 1).xblock (grid0.coords t)).Idx) :
    ((cfg0.win 1).blk t).view.emb j = j := by
  obtain ⟨e0, e1⟩ := idx0_1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- At the region's one point window 2's block index is zero on every axis. -/
theorem idx0_2 : ∀ t : Fin cfg0.N, win0_2.index t (0 : Fin 2) = 0 ∧ win0_2.index t (1 : Fin 2) = 0 :=
  (by decide +kernel : ∀ t : Fin grid0.N, _)

/-- So an element of window 2's block sits in the array at its own coordinates: the block is the array. -/
theorem emb0_2 (t : Fin cfg0.N) (j : ((cfg0.win 2).xblock (grid0.coords t)).Idx) :
    ((cfg0.win 2).blk t).view.emb j = j := by
  obtain ⟨e0, e1⟩ := idx0_2 t
  funext a; apply Fin.ext
  match a with
  | ⟨0, _⟩ => show win0_2.index t (0 : Fin 2) * 10 + 1 * (j 0).val = (j 0).val; omega
  | ⟨1, _⟩ => show win0_2.index t (1 : Fin 2) * 1024 + 1 * (j 1).val = (j 1).val; omega

/-- At the region's one point window 3's block index is zero on every axis. -/
theorem idx0_3 : ∀ t : Fin cfg0.N, win0_3.index t (0 : Fin 2) = 0 ∧ win0_3.index t (1 : Fin 2) = 0 :=
  (by decide +kernel : ∀ t : Fin grid0.N, _)

/-- So an element of window 3's block sits in the array at its own coordinates: the block is the array. -/
theorem emb0_3 (t : Fin cfg0.N) (j : ((cfg0.win 3).xblock (grid0.coords t)).Idx) :
    ((cfg0.win 3).blk t).view.emb j = j := by
  obtain ⟨e0, e1⟩ := idx0_3 t
  funext a; apply Fin.ext
  match a with
  | ⟨0, _⟩ => show win0_3.index t (0 : Fin 2) * 10 + 1 * (j 0).val = (j 0).val; omega
  | ⟨1, _⟩ => show win0_3.index t (1 : Fin 2) * 2048 + 1 * (j 1).val = (j 1).val; omega

/-- At the region's one point window 4's block index is zero on every axis. -/
theorem idx0_4 : ∀ t : Fin cfg0.N, win0_4.index t (0 : Fin 1) = 0 :=
  (by decide +kernel : ∀ t : Fin grid0.N, _)

/-- So an element of window 4's block sits in the array at its own coordinates: the block is the array. -/
theorem emb0_4 (t : Fin cfg0.N) (j : ((cfg0.win 4).xblock (grid0.coords t)).Idx) :
    ((cfg0.win 4).blk t).view.emb j = j := by
  obtain e0 := idx0_4 t
  funext a; apply Fin.ext
  match a with
  | ⟨0, _⟩ => show win0_4.index t (0 : Fin 1) * 10 + 1 * (j 0).val = (j 0).val; omega

/-- At the region's one point window 5's block index is zero on every axis. -/
theorem idx0_5 : ∀ t : Fin cfg0.N, win0_5.index t (0 : Fin 2) = 0 ∧ win0_5.index t (1 : Fin 2) = 0 :=
  (by decide +kernel : ∀ t : Fin grid0.N, _)

/-- So an element of window 5's block sits in the array at its own coordinates: the block is the array. -/
theorem emb0_5 (t : Fin cfg0.N) (j : ((cfg0.win 5).xblock (grid0.coords t)).Idx) :
    ((cfg0.win 5).blk t).view.emb j = j := by
  obtain ⟨e0, e1⟩ := idx0_5 t
  funext a; apply Fin.ext
  match a with
  | ⟨0, _⟩ => show win0_5.index t (0 : Fin 2) * 1024 + 1 * (j 0).val = (j 0).val; omega
  | ⟨1, _⟩ => show win0_5.index t (1 : Fin 2) * 2048 + 1 * (j 1).val = (j 1).val; omega

/-- At the region's one point window 6's block index is zero on every axis. -/
theorem idx0_6 : ∀ t : Fin cfg0.N, win0_6.index t (0 : Fin 1) = 0 :=
  (by decide +kernel : ∀ t : Fin grid0.N, _)

/-- So an element of window 6's block sits in the array at its own coordinates: the block is the array. -/
theorem emb0_6 (t : Fin cfg0.N) (j : ((cfg0.win 6).xblock (grid0.coords t)).Idx) :
    ((cfg0.win 6).blk t).view.emb j = j := by
  obtain e0 := idx0_6 t
  funext a; apply Fin.ext
  match a with
  | ⟨0, _⟩ => show win0_6.index t (0 : Fin 1) * 1024 + 1 * (j 0).val = (j 0).val; omega

/-- At the region's one point window 7's block index is zero on every axis. -/
theorem idx0_7 : ∀ t : Fin cfg0.N, win0_7.index t (0 : Fin 2) = 0 ∧ win0_7.index t (1 : Fin 2) = 0 :=
  (by decide +kernel : ∀ t : Fin grid0.N, _)

/-- So an element of window 7's block sits in the array at its own coordinates: the block is the array. -/
theorem emb0_7 (t : Fin cfg0.N) (j : ((cfg0.win 7).xblock (grid0.coords t)).Idx) :
    ((cfg0.win 7).blk t).view.emb j = j := by
  obtain ⟨e0, e1⟩ := idx0_7 t
  funext a; apply Fin.ext
  match a with
  | ⟨0, _⟩ => show win0_7.index t (0 : Fin 2) * 1 + 1 * (j 0).val = (j 0).val; omega
  | ⟨1, _⟩ => show win0_7.index t (1 : Fin 2) * 10 + 1 * (j 1).val = (j 1).val; omega

/-- At the region's one point window 8's block index is zero on every axis. -/
theorem idx0_8 : ∀ t : Fin cfg0.N, win0_8.index t (0 : Fin 2) = 0 ∧ win0_8.index t (1 : Fin 2) = 0 :=
  (by decide +kernel : ∀ t : Fin grid0.N, _)

/-- So an element of window 8's block sits in the array at its own coordinates: the block is the array. -/
theorem emb0_8 (t : Fin cfg0.N) (j : ((cfg0.win 8).xblock (grid0.coords t)).Idx) :
    ((cfg0.win 8).blk t).view.emb j = j := by
  obtain ⟨e0, e1⟩ := idx0_8 t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

-- the TensorCore's buffer contents when the region is entered, over the extended reals
variable (V : (c : Dev nD) → (b : Ref sig .tc) → Buf (Elt Ideal) ((c : Thread nD τ).loc b))

/-! Each input's block at the point is the array as the region finds it. -/

theorem iblk0_0 (c : Dev nD) (t : Fin cfg0.N) : iblk0 (F := Ideal) V c 0 t = V c main_v6 := by
  funext j
  show V c main_v6 (((cfg0.win 0).blk t).view.emb j) = V c main_v6 j
  rw [emb0_0]

theorem iblk0_1 (c : Dev nD) (t : Fin cfg0.N) : iblk0 (F := Ideal) V c 1 t = V c main_v7 := by
  funext j
  show V c main_v7 (((cfg0.win 1).blk t).view.emb j) = V c main_v7 j
  rw [emb0_1]

theorem iblk0_2 (c : Dev nD) (t : Fin cfg0.N) : iblk0 (F := Ideal) V c 2 t = V c main_arg2 := by
  funext j
  show V c main_arg2 (((cfg0.win 2).blk t).view.emb j) = V c main_arg2 j
  rw [emb0_2]

theorem iblk0_3 (c : Dev nD) (t : Fin cfg0.N) : iblk0 (F := Ideal) V c 3 t = V c main_arg4 := by
  funext j
  show V c main_arg4 (((cfg0.win 3).blk t).view.emb j) = V c main_arg4 j
  rw [emb0_3]

theorem iblk0_4 (c : Dev nD) (t : Fin cfg0.N) : iblk0 (F := Ideal) V c 4 t = V c main_arg5 := by
  funext j
  show V c main_arg5 (((cfg0.win 4).blk t).view.emb j) = V c main_arg5 j
  rw [emb0_4]

theorem iblk0_5 (c : Dev nD) (t : Fin cfg0.N) : iblk0 (F := Ideal) V c 5 t = V c main_arg6 := by
  funext j
  show V c main_arg6 (((cfg0.win 5).blk t).view.emb j) = V c main_arg6 j
  rw [emb0_5]

theorem iblk0_6 (c : Dev nD) (t : Fin cfg0.N) : iblk0 (F := Ideal) V c 6 t = V c main_arg7 := by
  funext j
  show V c main_arg7 (((cfg0.win 6).blk t).view.emb j) = V c main_arg7 j
  rw [emb0_6]

/-- What the point writes back to window 7 from a buffer holding `G` is `G` read through the block: all of it. -/
theorem cut_eq_read7 (t : Fin cfg0.N) (G : Vec Ideal S1x10 .f32) :
    (cfg0.win 7).cut (grid0.coords t) G = ((cfg0.win 7).blk t).view.read (Elt Ideal) G := by
  funext j
  show G ((cfg0.win 7).xinj (grid0.coords t) j) = G (((cfg0.win 7).blk t).view.emb j)
  rw [emb0_7]

/-- Every index of window 7's array is in the one point's block. -/
theorem cover7 (i : S1x10.Idx) :
    ∃ t : Fin cfg0.N, (cfg0.win 7).flush t = true ∧ i ∈ ((cfg0.win 7).blk t).view.set := by
  refine ⟨⟨0, by decide⟩, flush0_7 _, ?_⟩
  have h := ((cfg0.win 7).blk ⟨0, by decide⟩).view.emb_mem_set i
  rwa [emb0_7] at h

/-- What the point writes back to window 8 from a buffer holding `G` is `G` read through the block: all of it. -/
theorem cut_eq_read8 (t : Fin cfg0.N) (G : Vec Ideal S1x1024 .f32) :
    (cfg0.win 8).cut (grid0.coords t) G = ((cfg0.win 8).blk t).view.read (Elt Ideal) G := by
  funext j
  show G ((cfg0.win 8).xinj (grid0.coords t) j) = G (((cfg0.win 8).blk t).view.emb j)
  rw [emb0_8]

/-- Every index of window 8's array is in the one point's block. -/
theorem cover8 (i : S1x1024.Idx) :
    ∃ t : Fin cfg0.N, (cfg0.win 8).flush t = true ∧ i ∈ ((cfg0.win 8).blk t).view.set := by
  refine ⟨⟨0, by decide⟩, flush0_8 _, ?_⟩
  have h := ((cfg0.win 8).blk ⟨0, by decide⟩).view.emb_mem_set i
  rwa [emb0_8] at h

/-! ## From the point's write-backs to the arrays -/

/-- What the point writes back to the attention-weights array is the reference's attention stage read through the block. -/
theorem flushed7_eq (c : Dev nD) (t : Fin cfg0.N) :
    (dat0 (F := Ideal) V c).flushed 7 t = ((cfg0.win 7).blk t).view.read (Elt Ideal)
      (Cert.Spec.attn (F := Ideal) (V c main_v6) (V c main_v7) (V c main_arg4) (V c main_arg5)) := by
  show (cfg0.win 7).cut (grid0.coords t) ((dat0 (F := Ideal) V c).after 7 t) = _
  rw [after0_7]
  unfold out0_7
  rw [View.canon_unit_zero hz2]
  simp only [View.ld_unit_zero (S := S1x1024) hz2, View.ld_unit_zero (S := S10x2048) hz2, View.ld_unit_zero (S := S10) hz1]
  rw [iblk0_0, iblk0_1, iblk0_3, iblk0_4, pay2_eq_attn]
  exact cut_eq_read7 t _

/-- What it writes back to the combined-input array is the reference's combine stage read through the block. -/
theorem flushed8_eq (c : Dev nD) (t : Fin cfg0.N) :
    (dat0 (F := Ideal) V c).flushed 8 t = ((cfg0.win 8).blk t).view.read (Elt Ideal)
      (Cert.Spec.comb (F := Ideal) (V c main_v6)
        (Cert.Spec.attn (F := Ideal) (V c main_v6) (V c main_v7) (V c main_arg4) (V c main_arg5))
        (V c main_arg2) (V c main_arg6) (V c main_arg7)) := by
  show (cfg0.win 8).cut (grid0.coords t) ((dat0 (F := Ideal) V c).after 8 t) = _
  rw [after0_8]
  unfold out0_8
  rw [View.canon_unit_zero hz2]
  simp only [View.ld_unit_zero (S := S1x1024) hz2, View.ld_unit_zero (S := S10x2048) hz2, View.ld_unit_zero (S := S10) hz1,
    View.ld_unit_zero (S := S10x1024) hz2, View.ld_unit_zero (S := S1024x2048) hz2, View.ld_unit_zero (S := S1024) hz1]
  rw [iblk0_0, iblk0_1, iblk0_2, iblk0_3, iblk0_4, iblk0_5, iblk0_6, pay3_eq_comb]
  exact cut_eq_read8 t _

/-- After region 0 the attention-weights array holds the reference's attention stage of the embedded row, the hidden row,
    the attention matrix and its bias as the region found them. -/
theorem attn_eq (c : Dev nD) :
    (dat0 (F := Ideal) V c).arrAt 7 cfg0.N
      = Cert.Spec.attn (F := Ideal) (V c main_v6) (V c main_v7) (V c main_arg4) (V c main_arg5) :=
  (dat0 (F := Ideal) V c).arrAt_eq_of_cover 7 _ (fun t _ => flushed7_eq V c t) cover7

/-- After region 0 the combined-input array holds the reference's combine stage of the embedded row, those attention
    weights, the encoder outputs, the combine matrix and its bias. -/
theorem comb_eq (c : Dev nD) :
    (dat0 (F := Ideal) V c).arrAt 8 cfg0.N
      = Cert.Spec.comb (F := Ideal) (V c main_v6)
          (Cert.Spec.attn (F := Ideal) (V c main_v6) (V c main_v7) (V c main_arg4) (V c main_arg5))
          (V c main_arg2) (V c main_arg6) (V c main_arg7) :=
  (dat0 (F := Ideal) V c).arrAt_eq_of_cover 8 _ (fun t _ => flushed8_eq V c t) cover8

end Cert.KernelIdeal.Val

end
-- ==== Proof.KernelIdeal.Val1.lean ====
/- Region 1's output array after its two grid points, over the extended reals: the reference's gated recurrent update of
   the combined input and the hidden row, the gate weights and biases being the region's gate-major reshapes of them. -/
import proofs.«411821_j20263655702618_3_alg».proof.Proof.Spec
import proofs.«411821_j20263655702618_3_alg».proof.Proof.KernelIdeal.D1
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

namespace GruStep

/-! ## The reference's stage at an index -/

/-- One hidden unit's gated update from its six gate pre-activations (input and hidden side of the reset, update and
    candidate gates) and its old value: `(1 - z) * n + z * h` with `r`, `z` the logistic of the summed reset and update
    pre-activations and `n = tanh (i_n + r * h_n)`. -/
def gateOut (ir hr iz hz inn hn hv : EReal) : EReal :=
  (Ideal.ofBits .f32 0x3F800000#32 - Ideal.logistic (iz + hz)) * Ideal.tanh (inn + Ideal.logistic (ir + hr) * hn)
    + Ideal.logistic (iz + hz) * hv

/-- Row `r` of a 3072 x 1024 matrix against a 1024-row, plus entry `r` of a 3072-vector: one gate pre-activation. -/
def preAct (v : Cert.ReferenceIdeal.S1x1024.Idx → EReal) (w : Cert.ReferenceIdeal.S3072x1024.Idx → EReal)
    (b : Cert.ReferenceIdeal.S3072.Idx → EReal) (r : Fin 3072) : EReal :=
  (∑ k : Fin 1024, v (ix2 (0 : Fin 1) k) * w (ix2 r k)) + b (ix1 r)

theorem refDot_lhs_0 (i : Cert.ReferenceIdeal.S1x3072.Idx) (q : Cert.ReferenceIdeal.dot_S1x1024_S1024x3072_S1x3072_1_0_0_1_n_n.contr.Idx) :
    (Cert.ReferenceIdeal.dot_S1x1024_S1024x3072_S1x3072_1_0_0_1_n_n.lhsIdx i q 0).val = (i 0).val := by
  unfold DotDims.lhsIdx
  rw [dif_neg (show ¬(0 : Fin Cert.ReferenceIdeal.S1x1024.rank) ∈ Cert.ReferenceIdeal.dot_S1x1024_S1024x3072_S1x3072_1_0_0_1_n_n.lhsBatch by decide), dif_pos (show (0 : Fin Cert.ReferenceIdeal.S1x1024.rank) ∈ Cert.ReferenceIdeal.dot_S1x1024_S1024x3072_S1x3072_1_0_0_1_n_n.lhsNonContracting by decide)]
  rfl
theorem refDot_lhs_1 (i : Cert.ReferenceIdeal.S1x3072.Idx) (q : Cert.ReferenceIdeal.dot_S1x1024_S1024x3072_S1x3072_1_0_0_1_n_n.contr.Idx) :
    (Cert.ReferenceIdeal.dot_S1x1024_S1024x3072_S1x3072_1_0_0_1_n_n.lhsIdx i q 1).val = (q ⟨0, by decide⟩).val :=
  Cert.ReferenceIdeal.dot_S1x1024_S1024x3072_S1x3072_1_0_0_1_n_n.lhsIdx_val_of_single rfl i q
theorem refDot_rhs_0 (i : Cert.ReferenceIdeal.S1x3072.Idx) (q : Cert.ReferenceIdeal.dot_S1x1024_S1024x3072_S1x3072_1_0_0_1_n_n.contr.Idx) :
    (Cert.ReferenceIdeal.dot_S1x1024_S1024x3072_S1x3072_1_0_0_1_n_n.rhsIdx i q 0).val = (q ⟨0, by decide⟩).val :=
  Cert.ReferenceIdeal.dot_S1x1024_S1024x3072_S1x3072_1_0_0_1_n_n.rhsIdx_val_of_single rfl i q
theorem refDot_rhs_1 (i : Cert.ReferenceIdeal.S1x3072.Idx) (q : Cert.ReferenceIdeal.dot_S1x1024_S1024x3072_S1x3072_1_0_0_1_n_n.contr.Idx) :
    (Cert.ReferenceIdeal.dot_S1x1024_S1024x3072_S1x3072_1_0_0_1_n_n.rhsIdx i q 1).val = (i 1).val := by
  unfold DotDims.rhsIdx
  rw [dif_neg (show ¬(1 : Fin Cert.ReferenceIdeal.S1024x3072.rank) ∈ Cert.ReferenceIdeal.dot_S1x1024_S1024x3072_S1x3072_1_0_0_1_n_n.rhsBatch by decide), dif_pos (show (1 : Fin Cert.ReferenceIdeal.S1024x3072.rank) ∈ Cert.ReferenceIdeal.dot_S1x1024_S1024x3072_S1x3072_1_0_0_1_n_n.rhsNonContracting by decide)]
  rfl

/-- The host's product of a 1024-row with the transpose of a 3072 x 1024 matrix, at column `r`: the row against row `r`. -/
theorem hostDot_transpose_apply (v : FVec Ideal Cert.ReferenceIdeal.S1x1024 .f32) (w : FVec Ideal Cert.ReferenceIdeal.S3072x1024 .f32) (r : Fin 3072) :
    Host.dotGeneral Cert.ReferenceIdeal.dot_S1x1024_S1024x3072_S1x3072_1_0_0_1_n_n none v
        (transpose Cert.ReferenceIdeal.S1024x3072 [1, 0] w Cert.ReferenceIdeal.Gen.transposes_S3072x1024_S1024x3072_1_0) (ix2 (0 : Fin 1) r)
      = ∑ k : Fin 1024, v (ix2 (0 : Fin 1) k) * w (ix2 r k) := by
  simp only [Host.dotGeneral]
  rw [Ideal.dotGeneral_apply, ← Equiv.sum_comp (ValueIdx.contrEquiv1 Cert.ReferenceIdeal.dot_S1x1024_S1024x3072_S1x3072_1_0_0_1_n_n 1024 rfl rfl).symm]
  refine Finset.sum_congr rfl fun k _ => ?_
  have hk := ValueIdx.contrEquiv1_symm_val Cert.ReferenceIdeal.dot_S1x1024_S1024x3072_S1x3072_1_0_0_1_n_n 1024 rfl rfl k
  have el : Cert.ReferenceIdeal.dot_S1x1024_S1024x3072_S1x3072_1_0_0_1_n_n.lhsIdx (ix2 (0 : Fin 1) r) ((ValueIdx.contrEquiv1 Cert.ReferenceIdeal.dot_S1x1024_S1024x3072_S1x3072_1_0_0_1_n_n 1024 rfl rfl).symm k) = ix2 (0 : Fin 1) k := funext fun a => Fin.ext (by
    match a with
    | ⟨0, _⟩ => exact refDot_lhs_0 _ _
    | ⟨1, _⟩ => exact (refDot_lhs_1 _ _).trans hk)
  rw [el]
  congr 1
  refine transpose_apply [1, 0] w Cert.ReferenceIdeal.Gen.transposes_S3072x1024_S1024x3072_1_0 _ (ix2 r k) (fun b => match b with
    | ⟨0, _⟩ => ?_
    | ⟨1, _⟩ => ?_)
  · exact ((refDot_rhs_0 (ix2 (0 : Fin 1) r) _).trans hk).symm
  · exact (refDot_rhs_1 (ix2 (0 : Fin 1) r) _).symm

/-- Row `g * 1024 + j` of the stacked gates: gate `g`'s row for hidden unit `j`. -/
def gateRow (g : Fin 3) (j : Fin 1024) : Fin 3072 := ⟨g.val * 1024 + j.val, by have := g.isLt; have := j.isLt; omega⟩

theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem hostTanh_apply {s : Shape} (a : FVec Ideal s .f32) (i : s.Idx) : Host.tanh a i = Ideal.tanh (a i) := rfl

/-- The quotient `1 / (1 + exp (-a))` with the ones spelt as the f32 word of one is the logistic function. -/
theorem div_one_add_exp_neg (a : EReal) :
    Ideal.div (Ideal.ofBits .f32 0x3F800000#32) (Ideal.ofBits .f32 0x3F800000#32 + Ideal.exp (-a)) = Ideal.logistic a := by
  rw [Ideal.ofBits_one_f32]; rfl

/-- A 1024-wide slice of a 3072-row at offset `off`, read at `j`: the row at `off + j`. -/
theorem slice_row_apply (y : Cert.ReferenceIdeal.S1x3072.Idx → EReal) (off : Nat)
    (hs : Cert.ReferenceIdeal.S1x3072.Slices ![0, off] Cert.ReferenceIdeal.S1x1024) (j : Fin 1024) (r : Fin 3072) (hr : r.val = off + j.val) :
    extractStridedSlice Cert.ReferenceIdeal.S1x1024 ![0, off] y hs (ix2 (0 : Fin 1) j) = y (ix2 (0 : Fin 1) r) :=
  extractStridedSlice_apply ![0, off] y hs (ix2 (0 : Fin 1) j) (ix2 (0 : Fin 1) r) (fun a => match a with
    | ⟨0, _⟩ => by show (0 : Nat) = 0 + 0; rfl
    | ⟨1, _⟩ => by show r.val = off + j.val; exact hr)

/-- The f32 word of one as a scalar, broadcast to a row: that word everywhere. -/
theorem bcast_one_apply (i : Cert.ReferenceIdeal.S1x1024.Idx) :
    broadcastInDim Cert.ReferenceIdeal.S1x1024 ![] Cert.ReferenceIdeal.Gen.bcast_S_S1x1024 (constant (F := Ideal) Cert.ReferenceIdeal.S_ .f32 0x3F800000#32) i
      = Ideal.ofBits .f32 0x3F800000#32 := by
  rw [broadcastInDim_scalar_apply]; rfl

section Reference
variable (x h : (⟨Cert.ReferenceIdeal.S1x1024, .f32⟩ : BufTy).Contents (Elt Ideal))
  (wih whh : (⟨Cert.ReferenceIdeal.S3072x1024, .f32⟩ : BufTy).Contents (Elt Ideal))
  (bih bhh : (⟨Cert.ReferenceIdeal.S3072, .f32⟩ : BufTy).Contents (Elt Ideal))

/-- The input side's pre-activations `x · wihᵀ + bih` at column `r`. -/
theorem ref_gi_apply (r : Fin 3072) :
    Cert.Spec.gru_main_v34 (F := Ideal) x h wih whh bih bhh (ix2 (0 : Fin 1) r) = preAct x wih bih r := by
  unfold Cert.Spec.gru_main_v34 Cert.Spec.gru_main_v32 Cert.Spec.gru_main_v31 Cert.Spec.gru_main_v33 preAct
  rw [addf_apply, hostDot_transpose_apply]
  congr 1
  exact broadcastInDim_apply _ Cert.ReferenceIdeal.Gen.bcast_S3072_S1x3072_1 bih _ (ix1 r) (fun a => match a with
    | ⟨0, _⟩ => by show r.val = if (3072 : Nat) = 1 then 0 else r.val; rw [if_neg (by decide)])

/-- The hidden side's pre-activations `h · whhᵀ + bhh` at column `r`. -/
theorem ref_gh_apply (r : Fin 3072) :
    Cert.Spec.gru_main_v38 (F := Ideal) x h wih whh bih bhh (ix2 (0 : Fin 1) r) = preAct h whh bhh r := by
  unfold Cert.Spec.gru_main_v38 Cert.Spec.gru_main_v36 Cert.Spec.gru_main_v35 Cert.Spec.gru_main_v37 preAct
  rw [addf_apply, hostDot_transpose_apply]
  congr 1
  exact broadcastInDim_apply _ Cert.ReferenceIdeal.Gen.bcast_S3072_S1x3072_1 bhh _ (ix1 r) (fun a => match a with
    | ⟨0, _⟩ => by show r.val = if (3072 : Nat) = 1 then 0 else r.val; rw [if_neg (by decide)])

/-- The reset gate at hidden unit `j`. -/
theorem ref_reset_apply (j : Fin 1024) :
    Cert.Spec.gru_main_v47 (F := Ideal) x h wih whh bih bhh (ix2 (0 : Fin 1) j)
      = Ideal.logistic (preAct x wih bih (gateRow 0 j) + preAct h whh bhh (gateRow 0 j)) := by
  unfold Cert.Spec.gru_main_v47 Cert.Spec.gru_main_v46 Cert.Spec.gru_main_cst_4 Cert.Spec.gru_main_v45 Cert.Spec.gru_main_v44
    Cert.Spec.gru_main_cst_3 Cert.Spec.gru_main_v43 Cert.Spec.gru_main_v42 Cert.Spec.gru_main_v41 Cert.Spec.gru_main_v39 Cert.Spec.gru_main_v40
  rw [hostDivf_apply, addf_apply, hostExp_apply, hostNegf_apply, addf_apply, bcast_one_apply,
    slice_row_apply _ 0 _ j (gateRow 0 j) (by show 0 * 1024 + j.val = 0 + j.val; omega),
    slice_row_apply _ 0 _ j (gateRow 0 j) (by show 0 * 1024 + j.val = 0 + j.val; omega),
    ref_gi_apply, ref_gh_apply, div_one_add_exp_neg]

/-- The update gate at hidden unit `j`. -/
theorem ref_update_apply (j : Fin 1024) :
    Cert.Spec.gru_main_v56 (F := Ideal) x h wih whh bih bhh (ix2 (0 : Fin 1) j)
      = Ideal.logistic (preAct x wih bih (gateRow 1 j) + preAct h whh bhh (gateRow 1 j)) := by
  unfold Cert.Spec.gru_main_v56 Cert.Spec.gru_main_v55 Cert.Spec.gru_main_cst_6 Cert.Spec.gru_main_v54 Cert.Spec.gru_main_v53
    Cert.Spec.gru_main_cst_5 Cert.Spec.gru_main_v52 Cert.Spec.gru_main_v51 Cert.Spec.gru_main_v50 Cert.Spec.gru_main_v48 Cert.Spec.gru_main_v49
  rw [hostDivf_apply, addf_apply, hostExp_apply, hostNegf_apply, addf_apply, bcast_one_apply,
    slice_row_apply _ 1024 _ j (gateRow 1 j) (by show 1 * 1024 + j.val = 1024 + j.val; omega),
    slice_row_apply _ 1024 _ j (gateRow 1 j) (by show 1 * 1024 + j.val = 1024 + j.val; omega),
    ref_gi_apply, ref_gh_apply, div_one_add_exp_neg]

/-- The candidate at hidden unit `j`. -/
theorem ref_cand_apply (j : Fin 1024) :
    Cert.Spec.gru_main_v61 (F := Ideal) x h wih whh bih bhh (ix2 (0 : Fin 1) j)
      = Ideal.tanh (preAct x wih bih (gateRow 2 j)
          + Ideal.logistic (preAct x wih bih (gateRow 0 j) + preAct h whh bhh (gateRow 0 j)) * preAct h whh bhh (gateRow 2 j)) := by
  unfold Cert.Spec.gru_main_v61 Cert.Spec.gru_main_v60 Cert.Spec.gru_main_v59 Cert.Spec.gru_main_v57 Cert.Spec.gru_main_v58
  rw [hostTanh_apply, addf_apply, mulf_apply, ref_reset_apply,
    slice_row_apply _ 2048 _ j (gateRow 2 j) (by show 2 * 1024 + j.val = 2048 + j.val; omega),
    slice_row_apply _ 2048 _ j (gateRow 2 j) (by show 2 * 1024 + j.val = 2048 + j.val; omega),
    ref_gi_apply, ref_gh_apply]

/-- THE REFERENCE'S STAGE at hidden unit `j`: the gated update of the six pre-activations and the old value. -/
theorem ref_gru_apply (j : Fin 1024) :
    Cert.Spec.gru (F := Ideal) x h wih whh bih bhh (ix2 (0 : Fin 1) j)
      = gateOut (preAct x wih bih (gateRow 0 j)) (preAct h whh bhh (gateRow 0 j))
          (preAct x wih bih (gateRow 1 j)) (preAct h whh bhh (gateRow 1 j))
          (preAct x wih bih (gateRow 2 j)) (preAct h whh bhh (gateRow 2 j)) (h (ix2 (0 : Fin 1) j)) := by
  unfold Cert.Spec.gru Cert.Spec.gru_main_v66 Cert.Spec.gru_main_v64 Cert.Spec.gru_main_v65 Cert.Spec.gru_main_v63 Cert.Spec.gru_main_v62
    Cert.Spec.gru_main_cst_7 gateOut
  rw [addf_apply, mulf_apply, mulf_apply, subf_apply, bcast_one_apply, ref_update_apply, ref_cand_apply]

end Reference

/-! ## The body's stored block at an index -/

theorem hz2 : (![0, 0] : Fin 2 → Nat) = fun _ => 0 := funext fun a => by fin_cases a <;> rfl

theorem blkDot_lhs_0 (i : S1x512.Idx) (q : dot_S1x1024_S512x1024_S1x512_1_1_0_0_n_n.contr.Idx) :
    (dot_S1x1024_S512x1024_S1x512_1_1_0_0_n_n.lhsIdx i q 0).val = (i 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl
theorem blkDot_lhs_1 (i : S1x512.Idx) (q : dot_S1x1024_S512x1024_S1x512_1_1_0_0_n_n.contr.Idx) :
    (dot_S1x1024_S512x1024_S1x512_1_1_0_0_n_n.lhsIdx i q 1).val = (q ⟨0, by decide⟩).val :=
  dot_S1x1024_S512x1024_S1x512_1_1_0_0_n_n.lhsIdx_val_of_single rfl i q
theorem blkDot_rhs_0 (i : S1x512.Idx) (q : dot_S1x1024_S512x1024_S1x512_1_1_0_0_n_n.contr.Idx) :
    (dot_S1x1024_S512x1024_S1x512_1_1_0_0_n_n.rhsIdx i q 0).val = (i 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl
theorem blkDot_rhs_1 (i : S1x512.Idx) (q : dot_S1x1024_S512x1024_S1x512_1_1_0_0_n_n.contr.Idx) :
    (dot_S1x1024_S512x1024_S1x512_1_1_0_0_n_n.rhsIdx i q 1).val = (q ⟨0, by decide⟩).val :=
  dot_S1x1024_S512x1024_S1x512_1_1_0_0_n_n.rhsIdx_val_of_single rfl i q

/-- The body's product of a 1024-row with a 512 x 1024 block contracted along both last axes, into zero, at column `j`:
    the row against row `j` of the block. -/
theorem blkDot_apply {φ₁ φ₂ : FTy} (a : FVec Ideal S1x1024 φ₁) (b : FVec Ideal S512x1024 φ₂) (j : Fin 512) :
    matmul dot_S1x1024_S512x1024_S1x512_1_1_0_0_n_n none a b (constant S1x512 .f32 0x00000000#32) (ix2 (0 : Fin 1) j)
      = ∑ k : Fin 1024, a (ix2 (0 : Fin 1) k) * b (ix2 j k) := by
  simp only [matmul]
  rw [Ideal.matmul_constant_zero_apply, ← Equiv.sum_comp (ValueIdx.contrEquiv1 dot_S1x1024_S512x1024_S1x512_1_1_0_0_n_n 1024 rfl rfl).symm]
  refine Finset.sum_congr rfl fun k _ => ?_
  have hk := ValueIdx.contrEquiv1_symm_val dot_S1x1024_S512x1024_S1x512_1_1_0_0_n_n 1024 rfl rfl k
  have el : dot_S1x1024_S512x1024_S1x512_1_1_0_0_n_n.lhsIdx (ix2 (0 : Fin 1) j) ((ValueIdx.contrEquiv1 dot_S1x1024_S512x1024_S1x512_1_1_0_0_n_n 1024 rfl rfl).symm k) = ix2 (0 : Fin 1) k := funext fun a => Fin.ext (by
    match a with
    | ⟨0, _⟩ => exact blkDot_lhs_0 _ _
    | ⟨1, _⟩ => exact (blkDot_lhs_1 _ _).trans hk)
  have er : dot_S1x1024_S512x1024_S1x512_1_1_0_0_n_n.rhsIdx (ix2 (0 : Fin 1) j) ((ValueIdx.contrEquiv1 dot_S1x1024_S512x1024_S1x512_1_1_0_0_n_n 1024 rfl rfl).symm k) = ix2 j k := funext fun a => Fin.ext (by
    match a with
    | ⟨0, _⟩ => exact blkDot_rhs_0 (ix2 (0 : Fin 1) j) _
    | ⟨1, _⟩ => exact (blkDot_rhs_1 _ _).trans hk)
  rw [el, er]

/-- One gate pre-activation as the body spells it: the row (narrowed) against the gate's block (narrowed) into zero, plus
    the gate's bias block through its two reshapes. -/
abbrev bodyPre (v : FVec Ideal S1x1024 .f32) (w : FVec Ideal S512x1024 .f32) (b : Vec Ideal S1x512 .f32) : FVec Ideal S1x512 .f32 :=
  addf (matmul dot_S1x1024_S512x1024_S1x512_1_1_0_0_n_n none (truncf .bf16 v bitsLt_bf16_f32) (truncf .bf16 w bitsLt_bf16_f32)
      (constant S1x512 .f32 0x00000000#32))
    (shapeCast S1x512 (shapeCast S512 b shapeCasts_S1x512_S512) shapeCasts_S512_S1x512)

theorem bodyPre_apply (v : FVec Ideal S1x1024 .f32) (w : FVec Ideal S512x1024 .f32) (b : Vec Ideal S1x512 .f32) (j : Fin 512) :
    bodyPre v w b (ix2 (0 : Fin 1) j) = (∑ k : Fin 1024, v (ix2 (0 : Fin 1) k) * w (ix2 j k)) + b (ix2 (0 : Fin 1) j) := by
  unfold bodyPre
  rw [addf_apply, blkDot_apply, shapeCast_a_1a_apply, shapeCast_1a_a_apply]
  rfl

/-- The body's stored value at an index: the gated update of the six pre-activations as the body spells them. -/
theorem pay10_apply (v1 v3 : FVec Ideal S1x1024 .f32) (v5 : FVec Ideal S1x512 .f32) (v11 v13 v15 v17 : FVec Ideal S512x1024 .f32)
    (v24 v27 : FVec Ideal S1x512 .f32) (v28 v35 v42 v49 v56 : Vec Ideal S1x512 .f32) (i : S1x512.Idx) :
    k1_pay10 (F := Ideal) v1 v3 v5 v11 v13 v15 v17 v24 v27 v28 v35 v42 v49 v56 i
      = gateOut (v24 i) (bodyPre v3 v13 v42 i)
          (v27 i + shapeCast S1x512 (shapeCast S512 v28 shapeCasts_S1x512_S512) shapeCasts_S512_S1x512 i) (bodyPre v3 v15 v49 i)
          (bodyPre v1 v11 v35 i) (bodyPre v3 v17 v56 i) (v5 i) := rfl

/-- Gate `g`'s slice of a three-gate weight block, flattened to 512 x 1024: entry (j, k) is the block's entry (g, j, k). -/
theorem gateW_apply (X : Vec Ideal S3x512x1024 .f32) (g : Fin 3)
    (inb : ∀ a, (![g.val, 0, 0] : Fin 3 → Nat) a + S1x512x1024.size a ≤ S3x512x1024.size a) (j : Fin 512) (k : Fin 1024) :
    shapeCast S512x1024 (View.ld X (Rect.unit (s := S3x512x1024) ![g.val, 0, 0] S1x512x1024.size inb)) shapeCasts_S1x512x1024_S512x1024 (ix2 j k)
      = X (ix3 g j k) := by
  refine (shapeCast_1ab_ab_apply _ shapeCasts_S1x512x1024_S512x1024 j k).trans ?_
  show X ((Rect.unit (s := S3x512x1024) ![g.val, 0, 0] S1x512x1024.size inb).emb (ix3 (0 : Fin 1) j k)) = X (ix3 g j k)
  refine congrArg X (funext fun a => Fin.ext ?_)
  rw [Rect.emb_apply]
  match a with
  | ⟨0, _⟩ => show g.val + 1 * 0 = g.val; omega
  | ⟨1, _⟩ => show 0 + 1 * j.val = j.val; omega
  | ⟨2, _⟩ => show 0 + 1 * k.val = k.val; omega

/-- Gate `g`'s row of a three-gate bias block: entry (0, j) is the block's entry (g, j). -/
theorem gateB_apply (X : Vec Ideal S3x512 .f32) (g : Fin 3)
    (inb : ∀ a, (![g.val, 0] : Fin 2 → Nat) a + S1x512.size a ≤ S3x512.size a) (j : Fin 512) :
    View.ld X (Rect.unit (s := S3x512) ![g.val, 0] S1x512.size inb) (ix2 (0 : Fin 1) j) = X (ix2 g j) := by
  show X ((Rect.unit (s := S3x512) ![g.val, 0] S1x512.size inb).emb (ix2 (0 : Fin 1) j)) = X (ix2 g j)
  refine congrArg X (funext fun a => Fin.ext ?_)
  rw [Rect.emb_apply]
  match a with
  | ⟨0, _⟩ => show g.val + 1 * 0 = g.val; omega
  | ⟨1, _⟩ => show 0 + 1 * j.val = j.val; omega

/-- One gate pre-activation over the blocks: the row against row `j` of gate `g`'s slice of the weight block, plus the
    bias block's entry (g, j). -/
def blkPre (v : S1x1024.Idx → EReal) (w : S3x512x1024.Idx → EReal) (b : S3x512.Idx → EReal) (g : Fin 3) (j : Fin 512) : EReal :=
  (∑ k : Fin 1024, v (ix2 (0 : Fin 1) k) * w (ix3 g j k)) + b (ix2 g j)

/-- The body's spelling of gate `g`'s pre-activation over a row, a weight block and a bias block, at `j`. -/
theorem bodyPre_blk_apply (v : Vec Ideal S1x1024 .f32) (X : Vec Ideal S3x512x1024 .f32) (B : Vec Ideal S3x512 .f32) (g : Fin 3)
    (inbW : ∀ a, (![g.val, 0, 0] : Fin 3 → Nat) a + S1x512x1024.size a ≤ S3x512x1024.size a)
    (inbB : ∀ a, (![g.val, 0] : Fin 2 → Nat) a + S1x512.size a ≤ S3x512.size a) (j : Fin 512) :
    bodyPre (shapeCast S1x1024 v shapeCasts_S1x1024_S1x1024)
        (shapeCast S512x1024 (View.ld X (Rect.unit (s := S3x512x1024) ![g.val, 0, 0] S1x512x1024.size inbW)) shapeCasts_S1x512x1024_S512x1024)
        (View.ld B (Rect.unit (s := S3x512) ![g.val, 0] S1x512.size inbB)) (ix2 (0 : Fin 1) j)
      = blkPre v X B g j := by
  rw [bodyPre_apply, gateB_apply, shapeCast_self]
  unfold blkPre
  congr 1
  exact Finset.sum_congr rfl fun k _ => by rw [gateW_apply]

/-- WHAT THE BODY STORES, at hidden unit `j` of the block: the gated update of the six pre-activations over the blocks and
    the hidden block's entry. -/
theorem out1_7_apply (x0 x1 : Vec Ideal S1x1024 .f32) (x2 : Vec Ideal S1x512 .f32) (x3 x4 : Vec Ideal S3x512x1024 .f32)
    (x5 x6 : Vec Ideal S3x512 .f32) (j : Fin 512) :
    out1_7 x0 x1 x2 x3 x4 x5 x6 (ix2 (0 : Fin 1) j)
      = gateOut (blkPre x0 x3 x5 0 j) (blkPre x1 x4 x6 0 j) (blkPre x0 x3 x5 1 j) (blkPre x1 x4 x6 1 j)
          (blkPre x0 x3 x5 2 j) (blkPre x1 x4 x6 2 j) (x2 (ix2 (0 : Fin 1) j)) := by
  unfold out1_7
  rw [View.canon_unit_zero hz2]
  simp only [View.ld_unit_zero (S := S1x1024) hz2, View.ld_unit_zero (S := S1x512) hz2]
  rw [pay10_apply]
  refine congr (congr (congr (congr (congr (congr (congrArg gateOut ?_) ?_) ?_) ?_) ?_) ?_) ?_
  · exact bodyPre_blk_apply x0 x3 x5 0 _ _ j
  · exact bodyPre_blk_apply x1 x4 x6 0 _ _ j
  · exact bodyPre_blk_apply x0 x3 x5 1 _ _ j
  · exact bodyPre_blk_apply x1 x4 x6 1 _ _ j
  · exact bodyPre_blk_apply x0 x3 x5 2 _ _ j
  · exact bodyPre_blk_apply x1 x4 x6 2 _ _ j
  · unfold k1_pay3; rw [shapeCast_self]

/-! ## From the blocks to the array -/

-- the TensorCore's buffer contents when the region is entered, over the extended reals
variable (V : (c : Dev nD) → (b : Ref sig .tc) → Buf (Elt Ideal) ((c : Thread nD τ).loc b))

/-- The block index maps of the input row's and the hidden row's windows over the two points: block (0, 0) at both, the whole row. -/
theorem idx1_rows : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The block index maps of the hidden block's, the two bias blocks' and the new hidden block's windows: column block `t` at point `t`. -/
theorem idx1_cols : ∀ t : Fin cfg1.N, win1_2.index t (0 : Fin 2) = 0 ∧ win1_2.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

/-- The block index maps of the two weight windows: at point `t`, unit block `t` of every gate, all 1024 columns. -/
theorem idx1_gates : ∀ t : Fin cfg1.N, win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0 :=
  (by decide +kernel : ∀ t : Fin grid1.N, _)

/-- Hidden unit `j` of point `t`'s block is hidden unit `512 t + j` of the row. -/
def colOf (t : Fin cfg1.N) (j : Fin 512) : Fin 1024 :=
  ⟨512 * t.val + j.val, by have := t.isLt; have h : cfg1.N = 2 := N_1; have := j.isLt; omega⟩

section Blocks
variable (c : Dev nD) (t : Fin cfg1.N)

/-- The input row's block is the whole row. -/
theorem iblk1_0_apply (k : Fin 1024) : iblk1 V c 0 t (ix2 (0 : Fin 1) k) = V c main_v8_1 (ix2 (0 : Fin 1) k) := by
  obtain ⟨e0, e1, -, -⟩ := idx1_rows t
  show V c main_v8_1 (((cfg1.win 0).blk t).view.emb (ix2 (0 : Fin 1) k)) = V c main_v8_1 (ix2 (0 : Fin 1) k)
  refine congrArg (V c main_v8_1) (funext fun a => Fin.ext ?_)
  match a with
  | ⟨0, _⟩ => show win1_0.index t (0 : Fin 2) * 1 + 1 * 0 = 0; rw [e0]
  | ⟨1, _⟩ => show win1_0.index t (1 : Fin 2) * 1024 + 1 * k.val = k.val; rw [e1]; omega

/-- The hidden row's block is the whole row. -/
theorem iblk1_1_apply (k : Fin 1024) : iblk1 V c 1 t (ix2 (0 : Fin 1) k) = V c main_v7 (ix2 (0 : Fin 1) k) := by
  obtain ⟨-, -, e0, e1⟩ := idx1_rows t
  show V c main_v7 (((cfg1.win 1).blk t).view.emb (ix2 (0 : Fin 1) k)) = V c main_v7 (ix2 (0 : Fin 1) k)
  refine congrArg (V c main_v7) (funext fun a => Fin.ext ?_)
  match a with
  | ⟨0, _⟩ => show win1_1.index t (0 : Fin 2) * 1 + 1 * 0 = 0; rw [e0]
  | ⟨1, _⟩ => show win1_1.index t (1 : Fin 2) * 1024 + 1 * k.val = k.val; rw [e1]; omega

/-- The hidden block's entry `j` is the hidden row's entry `512 t + j`. -/
theorem iblk1_2_apply (j : Fin 512) : iblk1 V c 2 t (ix2 (0 : Fin 1) j) = V c main_v7 (ix2 (0 : Fin 1) (colOf t j)) := by
  obtain ⟨e0, e1, -⟩ := idx1_cols t
  show V c main_v7 (((cfg1.win 2).blk t).view.emb (ix2 (0 : Fin 1) j)) = V c main_v7 (ix2 (0 : Fin 1) (colOf t j))
  refine congrArg (V c main_v7) (funext fun a => Fin.ext ?_)
  match a with
  | ⟨0, _⟩ => show win1_2.index t (0 : Fin 2) * 1 + 1 * 0 = 0; rw [e0]
  | ⟨1, _⟩ => show win1_2.index t (1 : Fin 2) * 512 + 1 * j.val = 512 * t.val + j.val; rw [e1]; omega

/-- The input weights' block at (g, j, k) is the gate-major array at (g, 512 t + j, k). -/
theorem iblk1_3_apply (g : Fin 3) (j : Fin 512) (k : Fin 1024) :
    iblk1 V c 3 t (ix3 g j k) = V c main_v9 (ix3 g (colOf t j) k) := by
  obtain ⟨e0, e1, e2, -⟩ := idx1_gates t
  show V c main_v9 (((cfg1.win 3).blk t).view.emb (ix3 g j k)) = V c main_v9 (ix3 g (colOf t j) k)
  refine congrArg (V c main_v9) (funext fun a => Fin.ext ?_)
  match a with
  | ⟨0, _⟩ => show win1_3.index t (0 : Fin 3) * 3 + 1 * g.val = g.val; rw [e0]; omega
  | ⟨1, _⟩ => show win1_3.index t (1 : Fin 3) * 512 + 1 * j.val = 512 * t.val + j.val; rw [e1]; omega
  | ⟨2, _⟩ => show win1_3.index t (2 : Fin 3) * 1024 + 1 * k.val = k.val; rw [e2]; omega

/-- The hidden weights' block likewise. -/
theorem iblk1_4_apply (g : Fin 3) (j : Fin 512) (k : Fin 1024) :
    iblk1 V c 4 t (ix3 g j k) = V c main_v10 (ix3 g (colOf t j) k) := by
  obtain ⟨-, -, -, e0, e1, e2⟩ := idx1_gates t
  show V c main_v10 (((cfg1.win 4).blk t).view.emb (ix3 g j k)) = V c main_v10 (ix3 g (colOf t j) k)
  refine congrArg (V c main_v10) (funext fun a => Fin.ext ?_)
  match a with
  | ⟨0, _⟩ => show win1_4.index t (0 : Fin 3) * 3 + 1 * g.val = g.val; rw [e0]; omega
  | ⟨1, _⟩ => show win1_4.index t (1 : Fin 3) * 512 + 1 * j.val = 512 * t.val + j.val; rw [e1]; omega
  | ⟨2, _⟩ => show win1_4.index t (2 : Fin 3) * 1024 + 1 * k.val = k.val; rw [e2]; omega

/-- The input bias' block at (g, j) is the gate-major array at (g, 512 t + j). -/
theorem iblk1_5_apply (g : Fin 3) (j : Fin 512) : iblk1 V c 5 t (ix2 g j) = V c main_v11 (ix2 g (colOf t j)) := by
  obtain ⟨-, -, e0, e1, -⟩ := idx1_cols t
  show V c main_v11 (((cfg1.win 5).blk t).view.emb (ix2 g j)) = V c main_v11 (ix2 g (colOf t j))
  refine congrArg (V c main_v11) (funext fun a => Fin.ext ?_)
  match a with
  | ⟨0, _⟩ => show win1_5.index t (0 : Fin 2) * 3 + 1 * g.val = g.val; rw [e0]; omega
  | ⟨1, _⟩ => show win1_5.index t (1 : Fin 2) * 512 + 1 * j.val = 512 * t.val + j.val; rw [e1]; omega

/-- The hidden bias' block likewise. -/
theorem iblk1_6_apply (g : Fin 3) (j : Fin 512) : iblk1 V c 6 t (ix2 g j) = V c main_v12 (ix2 g (colOf t j)) := by
  obtain ⟨-, -, -, -, e0, e1, -⟩ := idx1_cols t
  show V c main_v12 (((cfg1.win 6).blk t).view.emb (ix2 g j)) = V c main_v12 (ix2 g (colOf t j))
  refine congrArg (V c main_v12) (funext fun a => Fin.ext ?_)
  match a with
  | ⟨0, _⟩ => show win1_6.index t (0 : Fin 2) * 3 + 1 * g.val = g.val; rw [e0]; omega
  | ⟨1, _⟩ => show win1_6.index t (1 : Fin 2) * 512 + 1 * j.val = 512 * t.val + j.val; rw [e1]; omega

end Blocks

/-- The gate-major reshape of a 3072 x 1024 matrix at (g, r, k) is the matrix at row `g * 1024 + r`. -/
theorem gateMajorW_apply (W : (⟨Cert.ReferenceIdeal.S3072x1024, .f32⟩ : BufTy).Contents (Elt Ideal)) (g : Fin 3) (r k : Fin 1024) :
    shapeCast S3x1024x1024 W shapeCasts_S3072x1024_S3x1024x1024 (ix3 g r k) = W (ix2 (gateRow g r) k) :=
  shapeCast_apply W shapeCasts_S3072x1024_S3x1024x1024 (ix3 g r k) (ix2 (gateRow g r) k) (by
    rw [Shape.rowMajor_val_two, Shape.rowMajor_val_three]
    show (g.val * 1024 + r.val) * 1024 + k.val = (g.val * 1024 + r.val) * 1024 + k.val
    rfl)

/-- The gate-major reshape of a 3072-vector at (g, r) is the vector at `g * 1024 + r`. -/
theorem gateMajorB_apply (B : (⟨Cert.ReferenceIdeal.S3072, .f32⟩ : BufTy).Contents (Elt Ideal)) (g : Fin 3) (r : Fin 1024) :
    shapeCast S3x1024 B shapeCasts_S3072_S3x1024 (ix2 g r) = B (ix1 (gateRow g r)) :=
  shapeCast_apply B shapeCasts_S3072_S3x1024 (ix2 g r) (ix1 (gateRow g r)) (by
    rw [Shape.rowMajor_val_one, Shape.rowMajor_val_two]
    show g.val * 1024 + r.val = g.val * 1024 + r.val
    rfl)

section Point
variable (c : Dev nD) (t : Fin cfg1.N)
  (wih whh : (⟨Cert.ReferenceIdeal.S3072x1024, .f32⟩ : BufTy).Contents (Elt Ideal))
  (bih bhh : (⟨Cert.ReferenceIdeal.S3072, .f32⟩ : BufTy).Contents (Elt Ideal))

/-- Gate `g`'s input-side pre-activation over point `t`'s blocks is the reference's at row `g * 1024 + 512 t + j`. -/
theorem blkPre_input_eq (h9 : V c main_v9 = shapeCast S3x1024x1024 wih shapeCasts_S3072x1024_S3x1024x1024)
    (h11 : V c main_v11 = shapeCast S3x1024 bih shapeCasts_S3072_S3x1024) (g : Fin 3) (j : Fin 512) :
    blkPre (iblk1 V c 0 t) (iblk1 V c 3 t) (iblk1 V c 5 t) g j = preAct (V c main_v8_1) wih bih (gateRow g (colOf t j)) := by
  unfold blkPre preAct
  rw [iblk1_5_apply, h11, gateMajorB_apply]
  congr 1
  exact Finset.sum_congr rfl fun k _ => by rw [iblk1_0_apply, iblk1_3_apply, h9, gateMajorW_apply]

/-- Gate `g`'s hidden-side pre-activation likewise. -/
theorem blkPre_hidden_eq (h10 : V c main_v10 = shapeCast S3x1024x1024 whh shapeCasts_S3072x1024_S3x1024x1024)
    (h12 : V c main_v12 = shapeCast S3x1024 bhh shapeCasts_S3072_S3x1024) (g : Fin 3) (j : Fin 512) :
    blkPre (iblk1 V c 1 t) (iblk1 V c 4 t) (iblk1 V c 6 t) g j = preAct (V c main_v7) whh bhh (gateRow g (colOf t j)) := by
  unfold blkPre preAct
  rw [iblk1_6_apply, h12, gateMajorB_apply]
  congr 1
  exact Finset.sum_congr rfl fun k _ => by rw [iblk1_1_apply, iblk1_4_apply, h10, gateMajorW_apply]

/-- WHAT POINT `t` STORES at hidden unit `j` of its block is the reference's stage at hidden unit `512 t + j`. -/
theorem stored_eq_ref (h9 : V c main_v9 = shapeCast S3x1024x1024 wih shapeCasts_S3072x1024_S3x1024x1024)
    (h10 : V c main_v10 = shapeCast S3x1024x1024 whh shapeCasts_S3072x1024_S3x1024x1024)
    (h11 : V c main_v11 = shapeCast S3x1024 bih shapeCasts_S3072_S3x1024)
    (h12 : V c main_v12 = shapeCast S3x1024 bhh shapeCasts_S3072_S3x1024) (j : Fin 512) :
    out1_7 (iblk1 V c 0 t) (iblk1 V c 1 t) (iblk1 V c 2 t) (iblk1 V c 3 t) (iblk1 V c 4 t) (iblk1 V c 5 t) (iblk1 V c 6 t) (ix2 (0 : Fin 1) j)
      = Cert.Spec.gru (F := Ideal) (V c main_v8_1) (V c main_v7) wih whh bih bhh (ix2 (0 : Fin 1) (colOf t j)) := by
  rw [ref_gru_apply]
  refine (out1_7_apply (iblk1 V c 0 t) (iblk1 V c 1 t) (iblk1 V c 2 t) (iblk1 V c 3 t) (iblk1 V c 4 t) (iblk1 V c 5 t) (iblk1 V c 6 t) j).trans ?_
  refine congr (congr (congr (congr (congr (congr (congrArg gateOut ?_) ?_) ?_) ?_) ?_) ?_) ?_
  · exact blkPre_input_eq V c t wih bih h9 h11 0 j
  · exact blkPre_hidden_eq V c t whh bhh h10 h12 0 j
  · exact blkPre_input_eq V c t wih bih h9 h11 1 j
  · exact blkPre_hidden_eq V c t whh bhh h10 h12 1 j
  · exact blkPre_input_eq V c t wih bih h9 h11 2 j
  · exact blkPre_hidden_eq V c t whh bhh h10 h12 2 j
  · exact iblk1_2_apply V c t j

/-- WHAT POINT `t` WRITES BACK is block `t` of the reference's stage. -/
theorem flushed1_7_eq (h9 : V c main_v9 = shapeCast S3x1024x1024 wih shapeCasts_S3072x1024_S3x1024x1024)
    (h10 : V c main_v10 = shapeCast S3x1024x1024 whh shapeCasts_S3072x1024_S3x1024x1024)
    (h11 : V c main_v11 = shapeCast S3x1024 bih shapeCasts_S3072_S3x1024)
    (h12 : V c main_v12 = shapeCast S3x1024 bhh shapeCasts_S3072_S3x1024) :
    (dat1 (F := Ideal) V c).flushed 7 t
      = ((cfg1.win 7).blk t).view.read (Elt Ideal) (Cert.Spec.gru (F := Ideal) (V c main_v8_1) (V c main_v7) wih whh bih bhh) := by
  show (cfg1.win 7).cut (grid1.coords t) ((dat1 (F := Ideal) V c).after 7 t) = _
  rw [after1_7]
  funext y
  obtain ⟨-, -, -, -, -, -, e0, e1⟩ := idx1_cols t
  have hy0 : (y 0).val < 1 := (y 0).isLt
  have hy1 : (y 1).val < 512 := (y 1).isLt
  show out1_7 (iblk1 V c 0 t) (iblk1 V c 1 t) (iblk1 V c 2 t) (iblk1 V c 3 t) (iblk1 V c 4 t) (iblk1 V c 5 t) (iblk1 V c 6 t)
      ((cfg1.win 7).xinj (grid1.coords t) y)
    = Cert.Spec.gru (F := Ideal) (V c main_v8_1) (V c main_v7) wih whh bih bhh (((cfg1.win 7).blk t).view.emb y)
  have hy : (cfg1.win 7).xinj (grid1.coords t) y = ix2 (0 : Fin 1) (⟨(y 1).val, hy1⟩ : Fin 512) := funext fun a => Fin.ext (by
    match a with
    | ⟨0, _⟩ => show (y 0).val = 0; omega
    | ⟨1, _⟩ => rfl)
  rw [hy, stored_eq_ref V c t wih whh bih bhh h9 h10 h11 h12]
  refine congrArg _ (funext fun a => Fin.ext ?_)
  match a with
  | ⟨0, _⟩ => show (0 : Nat) = win1_7.index t (0 : Fin 2) * 1 + 1 * (y 0).val; rw [e0]; omega
  | ⟨1, _⟩ => show 512 * t.val + (y 1).val = win1_7.index t (1 : Fin 2) * 512 + 1 * (y 1).val; rw [e1]; omega

end Point

/-- An index of the new hidden row is in point `t`'s block iff each coordinate is in the block's range on its axis. -/
theorem mem_blk1_7 (t : Fin cfg1.N) (i : S1x1024.Idx) :
    i ∈ ((cfg1.win 7).blk t).view.set
      ↔ ∀ a : Fin 2, win1_7.index t a * S1x512.size a ≤ (i a).val ∧ (i a).val < win1_7.index t a * S1x512.size a + S1x512.size a := by
  show i ∈ ((View.whole main_v13).slice (win1_7.rect t)).set ↔ _
  rw [View.set_slice_whole, Rect.mem_set_unit]
  exact Iff.rfl

/-- Hidden unit `i` of the row is written back by point `i / 512`. -/
theorem cover1_7 (i : S1x1024.Idx) : ∃ t : Fin cfg1.N, (cfg1.win 7).flush t = true ∧ i ∈ ((cfg1.win 7).blk t).view.set := by
  have hi0 : (i 0).val < 1 := (i 0).isLt
  have hi1 : (i 1).val < 1024 := (i 1).isLt
  have hN : cfg1.N = 2 := N_1
  obtain ⟨t, ht⟩ : ∃ t : Fin cfg1.N, t.val = (i 1).val / 512 := ⟨⟨(i 1).val / 512, by omega⟩, rfl⟩
  obtain ⟨-, -, -, -, -, -, e0, e1⟩ := idx1_cols t
  refine ⟨t, flush1_7 t, ?_⟩
  rw [mem_blk1_7]
  intro a
  match a with
  | ⟨0, _⟩ => show win1_7.index t (0 : Fin 2) * 1 ≤ (i 0).val ∧ (i 0).val < win1_7.index t (0 : Fin 2) * 1 + 1; rw [e0]; omega
  | ⟨1, _⟩ => show win1_7.index t (1 : Fin 2) * 512 ≤ (i 1).val ∧ (i 1).val < win1_7.index t (1 : Fin 2) * 512 + 512; rw [e1]; omega

end GruStep

open GruStep

-- the TensorCore's buffer contents when the region is entered, over the extended reals
variable (V : (c : Dev nD) → (b : Ref sig .tc) → Buf (Elt Ideal) ((c : Thread nD τ).loc b))

/-- After region 1 the new-hidden-row array holds the reference's recurrent stage. The region reads the weights and biases
    through their gate-major reshapes (`h9` … `h12`). -/
theorem gru_eq (c : Dev nD)
    (wih whh : (⟨Cert.ReferenceIdeal.S3072x1024, .f32⟩ : BufTy).Contents (Elt Ideal))
    (bih bhh : (⟨Cert.ReferenceIdeal.S3072, .f32⟩ : BufTy).Contents (Elt Ideal))
    (h9 : V c main_v9 = shapeCast S3x1024x1024 wih shapeCasts_S3072x1024_S3x1024x1024)
    (h10 : V c main_v10 = shapeCast S3x1024x1024 whh shapeCasts_S3072x1024_S3x1024x1024)
    (h11 : V c main_v11 = shapeCast S3x1024 bih shapeCasts_S3072_S3x1024)
    (h12 : V c main_v12 = shapeCast S3x1024 bhh shapeCasts_S3072_S3x1024) :
    (dat1 (F := Ideal) V c).arrAt 7 cfg1.N
      = Cert.Spec.gru (F := Ideal) (V c main_v8_1) (V c main_v7) wih whh bih bhh :=
  (dat1 (F := Ideal) V c).arrAt_eq_of_cover 7 _ (fun t _ => flushed1_7_eq V c t wih whh bih bhh h9 h10 h11 h12) (fun i => cover1_7 i)

end Cert.KernelIdeal.Val

end
-- ==== Proof.KernelIdeal.Val2.lean ====
/- Region 2's output array after its sixteen grid points, over the extended reals: the reference's vocabulary scores of the
   new hidden row, the output matrix and the output bias (read by the region through its reshape to a row). -/
import proofs.«411821_j20263655702618_3_alg».proof.Proof.Spec
import proofs.«411821_j20263655702618_3_alg».proof.Proof.KernelIdeal.D2
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

-- the TensorCore's buffer contents when the region is entered, over the extended reals
variable (V : (c : Dev nD) → (b : Ref sig .tc) → Buf (Elt Ideal) ((c : Thread nD τ).loc b))

/-! ## The reference's stage and the body's payload, read at an index -/

/-- The reference's score of vocabulary entry n: the row's product with the matrix's row n, plus the bias's entry n. -/
theorem logit_apply (hn : (⟨Cert.ReferenceIdeal.S1x1024, .f32⟩ : BufTy).Contents (Elt Ideal))
    (oW : (⟨Cert.ReferenceIdeal.S50257x1024, .f32⟩ : BufTy).Contents (Elt Ideal))
    (ob : (⟨Cert.ReferenceIdeal.S50257, .f32⟩ : BufTy).Contents (Elt Ideal)) (n : Fin 50257) :
    Cert.Spec.logit (F := Ideal) hn oW ob (ix2 (0 : Fin 1) n)
      = (∑ k : Fin 1024, hn (ix2 (0 : Fin 1) k) * oW (ix2 n k)) + ob (ix1 n) := by
  show Cert.Spec.logit_main_v68 (F := Ideal) hn oW ob (ix2 (0 : Fin 1) n) + Cert.Spec.logit_main_v69 (F := Ideal) hn oW ob (ix2 (0 : Fin 1) n) = _
  congr 1
  · -- the product against the transposed matrix: the contraction index is the row's column and the matrix's column
    unfold Cert.Spec.logit_main_v68 Cert.Spec.logit_main_v67
    show FloatOps.dotGeneral (F := Ideal) (φ₁ := .f32) (φ₂ := .f32) Cert.ReferenceIdeal.dot_S1x1024_S1024x50257_S1x50257_1_0_0_1_n_n none .single hn _ (ix2 (0 : Fin 1) n) = _
    rw [Ideal.dotGeneral_apply,
      ← Equiv.sum_comp (contrEquiv1 Cert.ReferenceIdeal.dot_S1x1024_S1024x50257_S1x50257_1_0_0_1_n_n 1024 rfl rfl).symm]
    refine Finset.sum_congr rfl fun k _ => ?_
    have ck := contrEquiv1_symm_val Cert.ReferenceIdeal.dot_S1x1024_S1024x50257_S1x50257_1_0_0_1_n_n 1024 rfl rfl k
    have hl : Cert.ReferenceIdeal.dot_S1x1024_S1024x50257_S1x50257_1_0_0_1_n_n.lhsIdx (ix2 (0 : Fin 1) n)
        ((contrEquiv1 Cert.ReferenceIdeal.dot_S1x1024_S1024x50257_S1x50257_1_0_0_1_n_n 1024 rfl rfl).symm k) = ix2 (0 : Fin 1) k := by
      funext ax; apply Fin.ext
      match ax with
      | ⟨0, _⟩ => simp [DotDims.lhsIdx, Cert.ReferenceIdeal.dot_S1x1024_S1024x50257_S1x50257_1_0_0_1_n_n] <;> rfl
      | ⟨1, _⟩ => simp [DotDims.lhsIdx, Cert.ReferenceIdeal.dot_S1x1024_S1024x50257_S1x50257_1_0_0_1_n_n] <;> exact ck
    have hr : Cert.ReferenceIdeal.dot_S1x1024_S1024x50257_S1x50257_1_0_0_1_n_n.rhsIdx (ix2 (0 : Fin 1) n)
        ((contrEquiv1 Cert.ReferenceIdeal.dot_S1x1024_S1024x50257_S1x50257_1_0_0_1_n_n 1024 rfl rfl).symm k) = ix2 k n := by
      funext ax; apply Fin.ext
      match ax with
      | ⟨0, _⟩ => simp [DotDims.rhsIdx, Cert.ReferenceIdeal.dot_S1x1024_S1024x50257_S1x50257_1_0_0_1_n_n] <;> exact ck
      | ⟨1, _⟩ => simp [DotDims.rhsIdx, Cert.ReferenceIdeal.dot_S1x1024_S1024x50257_S1x50257_1_0_0_1_n_n] <;> rfl
    rw [hl, hr]
    congr 1
    exact transpose_apply [1, 0] oW _ (ix2 k n) (ix2 n k) (fun b => match b with | ⟨0, _⟩ => rfl | ⟨1, _⟩ => rfl)
  · -- the bias laid along the one row
    unfold Cert.Spec.logit_main_v69
    exact broadcastInDim_apply ![1] _ ob (ix2 (0 : Fin 1) n) (ix1 n) (fun a => match a with | ⟨0, _⟩ => rfl)

/-- The body's payload at entry j of the block: the row's product with the matrix block's row j, plus the bias block's
    entry j (over the extended reals the narrowing of the two operands is the identity, and the accumulator is zero). -/
theorem pay2_apply (x0 : Vec Ideal S1x1024 .f32) (x1 : Vec Ideal S3200x1024 .f32) (x2 : Vec Ideal S1x3200 .f32) (j : Fin 3200) :
    k2_pay1 x0 x1 x2 (ix2 (0 : Fin 1) j)
      = (∑ k : Fin 1024, x0 (ix2 (0 : Fin 1) k) * x1 (ix2 j k)) + x2 (ix2 (0 : Fin 1) j) := by
  unfold k2_pay1
  simp only [shapeCast_self]
  show FloatOps.matmul (F := Ideal) (φ₁ := .bf16) (φ₂ := .bf16) dot_S1x1024_S3200x1024_S1x3200_1_1_0_0_n_n none
      (truncf FTy.bf16 x0 bitsLt_bf16_f32) (truncf FTy.bf16 x1 bitsLt_bf16_f32) (constant S1x3200 FTy.f32 0x00000000#32) (ix2 (0 : Fin 1) j)
      + x2 (ix2 (0 : Fin 1) j) = _
  congr 1
  rw [Ideal.matmul_constant_zero_apply,
    ← Equiv.sum_comp (contrEquiv1 dot_S1x1024_S3200x1024_S1x3200_1_1_0_0_n_n 1024 rfl rfl).symm]
  refine Finset.sum_congr rfl fun k _ => ?_
  have ck := contrEquiv1_symm_val dot_S1x1024_S3200x1024_S1x3200_1_1_0_0_n_n 1024 rfl rfl k
  have hl : dot_S1x1024_S3200x1024_S1x3200_1_1_0_0_n_n.lhsIdx (ix2 (0 : Fin 1) j)
      ((contrEquiv1 dot_S1x1024_S3200x1024_S1x3200_1_1_0_0_n_n 1024 rfl rfl).symm k) = ix2 (0 : Fin 1) k := by
    funext ax; apply Fin.ext
    match ax with
    | ⟨0, _⟩ => simp [DotDims.lhsIdx, dot_S1x1024_S3200x1024_S1x3200_1_1_0_0_n_n] <;> rfl
    | ⟨1, _⟩ => simp [DotDims.lhsIdx, dot_S1x1024_S3200x1024_S1x3200_1_1_0_0_n_n] <;> exact ck
  have hr : dot_S1x1024_S3200x1024_S1x3200_1_1_0_0_n_n.rhsIdx (ix2 (0 : Fin 1) j)
      ((contrEquiv1 dot_S1x1024_S3200x1024_S1x3200_1_1_0_0_n_n 1024 rfl rfl).symm k) = ix2 j k := by
    funext ax; apply Fin.ext
    match ax with
    | ⟨0, _⟩ => simp [DotDims.rhsIdx, dot_S1x1024_S3200x1024_S1x3200_1_1_0_0_n_n] <;> rfl
    | ⟨1, _⟩ => simp [DotDims.rhsIdx, dot_S1x1024_S3200x1024_S1x3200_1_1_0_0_n_n] <;> exact ck
  rw [hl, hr]
  rfl

/-! ## The blocks at a point -/

/-- The printed index maps and the cuts, decided over the sixteen points: the row's block is the whole row; the matrix's
    block t starts at row 3200·t, the bias's and the output's at entry 3200·t; the three cut alike, to all 3200 entries
    but for the last block's 2257 (50257 = 15·3200 + 2257). -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = win2_3.xsize (grid2.coords t) (1 : Fin 2)
    ∧ win2_1.xsize (grid2.coords t) (1 : Fin 2) = 1024
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ win2_3.xsize (grid2.coords t) (1 : Fin 2) = (if t.val < 15 then 3200 else 2257) :=
  (by decide +kernel : ∀ t : Fin grid2.N, _)

/-- A block filled out past its moved part reads, at an index inside the moved part, the moved part there. -/
theorem fill2_apply_of_lt {G : Pipeline.Grid} (w : Window sig G) {α : Type} (i : G.Coords) (d : w.block.Idx → α)
    (g : (w.xblock i).Idx → α) (x : w.block.Idx) (h : ∀ a, (x a).val < w.xsize i a) :
    w.fill i d g x = g (fun a => ⟨(x a).val, h a⟩) := by
  unfold Window.fill; rw [dif_pos ((w.moved_iff i x).mpr h)]

/-- The row's block at any point is the row. -/
theorem iblk2_row (c : Dev nD) (t : Fin cfg2.N) (k : Fin 1024) :
    iblk2 V c 0 t (ix2 (0 : Fin 1) k) = V c main_v13 (ix2 (0 : Fin 1) k) := by
  obtain ⟨a0, a1, -⟩ := idx_facts2 t
  show V c main_v13 (((cfg2.win 0).blk t).view.emb (ix2 (0 : Fin 1) k)) = _
  refine congrArg _ (funext fun a => Fin.ext ?_)
  match a with
  | ⟨0, _⟩ => show win2_0.index t (0 : Fin 2) * 1 + 1 * 0 = 0; omega
  | ⟨1, _⟩ => show win2_0.index t (1 : Fin 2) * 1024 + 1 * k.val = k.val; omega

/-- Row j of the matrix's block at point t, inside the cut, is the matrix's row 3200·t + j. -/
theorem wblk2_apply (c : Dev nD) (t : Fin cfg2.N) (j : Fin 3200) (hj : j.val < win2_3.xsize (grid2.coords t) (1 : Fin 2))
    (k : Fin 1024) (n : Fin 50257) (hn : n.val = t.val * 3200 + j.val) :
    wblk2 V c t (ix2 j k) = V c main_arg12 (ix2 n k) := by
  obtain ⟨-, -, b0, b1, -, -, -, -, s10, s11, -⟩ := idx_facts2 t
  unfold wblk2
  rw [fill2_apply_of_lt win2_1 (grid2.coords t) _ _ (ix2 j k) (fun a => match a with
    | ⟨0, _⟩ => by show j.val < win2_1.xsize (grid2.coords t) (0 : Fin 2); rw [s10]; exact hj
    | ⟨1, _⟩ => by show k.val < win2_1.xsize (grid2.coords t) (1 : Fin 2); rw [s11]; exact k.isLt)]
  show V c main_arg12 (((cfg2.win 1).blk t).view.emb _) = _
  refine congrArg _ (funext fun a => Fin.ext ?_)
  match a with
  | ⟨0, _⟩ => show win2_1.index t (0 : Fin 2) * 3200 + 1 * j.val = n.val; rw [b0]; omega
  | ⟨1, _⟩ => show win2_1.index t (1 : Fin 2) * 1024 + 1 * k.val = k.val; omega

/-- Entry j of the bias's block at point t, inside the cut, is the bias row's entry 3200·t + j. -/
theorem bblk2_apply (c : Dev nD) (t : Fin cfg2.N) (j : Fin 3200) (hj : j.val < win2_3.xsize (grid2.coords t) (1 : Fin 2))
    (n : Fin 50257) (hn : n.val = t.val * 3200 + j.val) :
    bblk2 V c t (ix2 (0 : Fin 1) j) = V c main_v14 (ix2 (0 : Fin 1) n) := by
  obtain ⟨-, -, -, -, c0, c1, -, -, -, -, s20, s21, -⟩ := idx_facts2 t
  unfold bblk2
  rw [fill2_apply_of_lt win2_2 (grid2.coords t) _ _ (ix2 (0 : Fin 1) j) (fun a => match a with
    | ⟨0, _⟩ => by show 0 < win2_2.xsize (grid2.coords t) (0 : Fin 2); rw [s20]; exact Nat.one_pos
    | ⟨1, _⟩ => by show j.val < win2_2.xsize (grid2.coords t) (1 : Fin 2); rw [s21]; exact hj)]
  show V c main_v14 (((cfg2.win 2).blk t).view.emb _) = _
  refine congrArg _ (funext fun a => Fin.ext ?_)
  match a with
  | ⟨0, _⟩ => show win2_2.index t (0 : Fin 2) * 1 + 1 * 0 = 0; omega
  | ⟨1, _⟩ => show win2_2.index t (1 : Fin 2) * 3200 + 1 * j.val = n.val; rw [c1]; omega

/-! ## From blocks to the array -/

/-- The offsets of a whole two-axis buffer: zero on both axes. -/
theorem off_zero_r2 : (![0, 0] : Fin 2 → Nat) = fun _ => 0 := funext fun a => by fin_cases a <;> rfl

/-- The bias row the region reads is the bias vector laid as one row: its entry (0, n) is the vector's entry n. -/
theorem bias2_row_apply (ob : (⟨Cert.ReferenceIdeal.S50257, .f32⟩ : BufTy).Contents (Elt Ideal)) (n : Fin 50257) :
    shapeCast S1x50257 ob shapeCasts_S50257_S1x50257 (ix2 (0 : Fin 1) n) = ob (ix1 n) :=
  shapeCast_apply ob _ (ix2 (0 : Fin 1) n) (ix1 n) (by
    rw [Shape.rowMajor_val_one, Shape.rowMajor_val_two]
    show n.val = 0 * 50257 + n.val
    omega)

/-- Point t writes back the cut of the body's payload; its entry j is the row's product with the matrix's row 3200·t + j
    plus the bias's entry 3200·t + j, so what is written is block t of the reference's scores. -/
theorem flushed2_3_eq (c : Dev nD)
    (ob : (⟨Cert.ReferenceIdeal.S50257, .f32⟩ : BufTy).Contents (Elt Ideal))
    (h14 : V c main_v14 = shapeCast S1x50257 ob shapeCasts_S50257_S1x50257) (t : Fin cfg2.N) :
    (dat2 (F := Ideal) V c).flushed 3 t
      = ((cfg2.win 3).blk t).view.read (Elt Ideal) (Cert.Spec.logit (F := Ideal) (V c main_v13) (V c main_arg12) ob) := by
  show (cfg2.win 3).cut (grid2.coords t) ((dat2 (F := Ideal) V c).after 3 t) = _
  rw [after2_3]
  unfold out2_3
  rw [View.canon_unit_zero off_zero_r2]
  simp only [View.ld_unit_zero (S := S1x1024) off_zero_r2, View.ld_unit_zero (S := S3200x1024) off_zero_r2, View.ld_unit_zero (S := S1x3200) off_zero_r2]
  obtain ⟨-, -, -, -, -, -, d0, d1, -, -, -, -, s30, s31⟩ := idx_facts2 t
  funext j
  have ht : t.val < 16 := N_2 ▸ t.isLt
  have h0 : (j 0).val < win2_3.xsize (grid2.coords t) (0 : Fin 2) := (j 0).isLt
  have h1 : (j 1).val < win2_3.xsize (grid2.coords t) (1 : Fin 2) := (j 1).isLt
  have h1' : (j 1).val < 3200 := Nat.lt_of_lt_of_le h1 (win2_3.xsize_le (grid2.coords t) (1 : Fin 2))
  have hn : t.val * 3200 + (j 1).val < 50257 := by
    have h := h1; rw [s31] at h; split at h <;> omega
  rw [s30] at h0
  -- the block's entry j sits at (0, j) in the staging buffer and at (0, 3200·t + j) in the array
  have hx : win2_3.xinj (grid2.coords t) j = ix2 (0 : Fin 1) (⟨(j 1).val, h1'⟩ : Fin 3200) := by
    funext a; apply Fin.ext
    match a with
    | ⟨0, _⟩ => show (j 0).val = 0; omega
    | ⟨1, _⟩ => rfl
  have he : ((cfg2.win 3).blk t).view.emb j = ix2 (0 : Fin 1) (⟨t.val * 3200 + (j 1).val, hn⟩ : Fin 50257) := by
    funext a; apply Fin.ext
    match a with
    | ⟨0, _⟩ => show win2_3.index t (0 : Fin 2) * 1 + 1 * (j 0).val = 0; omega
    | ⟨1, _⟩ => show win2_3.index t (1 : Fin 2) * 3200 + 1 * (j 1).val = t.val * 3200 + (j 1).val; rw [d1]; omega
  show k2_pay1 (iblk2 V c 0 t) (wblk2 V c t) (bblk2 V c t) (win2_3.xinj (grid2.coords t) j)
    = Cert.Spec.logit (F := Ideal) (V c main_v13) (V c main_arg12) ob (((cfg2.win 3).blk t).view.emb j)
  rw [hx, he, pay2_apply, logit_apply,
    bblk2_apply V c t ⟨(j 1).val, h1'⟩ h1 ⟨t.val * 3200 + (j 1).val, hn⟩ rfl, h14, bias2_row_apply]
  refine congrArg (· + _) (Finset.sum_congr rfl fun k _ => ?_)
  rw [iblk2_row V c t k, wblk2_apply V c t ⟨(j 1).val, h1'⟩ h1 k ⟨t.val * 3200 + (j 1).val, hn⟩ rfl]

/-- An index of the scores array is in point t's block iff each coordinate is in the block's range, cut at the array's
    end, on its axis. -/
theorem mem_blk2_3 (t : Fin cfg2.N) (i : S1x50257.Idx) :
    i ∈ ((cfg2.win 3).blk t).view.set ↔ ∀ a : Fin 2, win2_3.index t a * S1x3200.size a ≤ (i a).val
      ∧ (i a).val < win2_3.index t a * S1x3200.size a + win2_3.xsize (grid2.coords t) a := by
  show i ∈ ((View.whole main_v15).slice (win2_3.rect t)).set ↔ _
  rw [View.set_slice_whole, Rect.mem_set_unit]
  exact Iff.rfl

/-- Every entry of the scores is written: entry n lies in block n / 3200's part inside the array (for the last block, 15,
    the entries 48000 … 50256). -/
theorem cover2_3 (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hq : (i 1).val / 3200 < grid2.N := by rw [N_2]; omega
  refine ⟨⟨(i 1).val / 3200, hq⟩, flush2_3 _, ?_⟩
  obtain ⟨-, -, -, -, -, -, d0, d1, -, -, -, -, s30, s31⟩ := idx_facts2 ⟨(i 1).val / 3200, hq⟩
  rw [mem_blk2_3]
  intro a
  match a with
  | ⟨0, _⟩ =>
    show win2_3.index ⟨(i 1).val / 3200, hq⟩ (0 : Fin 2) * 1 ≤ (i 0).val
      ∧ (i 0).val < win2_3.index ⟨(i 1).val / 3200, hq⟩ (0 : Fin 2) * 1 + win2_3.xsize (grid2.coords ⟨(i 1).val / 3200, hq⟩) (0 : Fin 2)
    rw [d0, s30]; omega
  | ⟨1, _⟩ =>
    show win2_3.index ⟨(i 1).val / 3200, hq⟩ (1 : Fin 2) * 3200 ≤ (i 1).val
      ∧ (i 1).val < win2_3.index ⟨(i 1).val / 3200, hq⟩ (1 : Fin 2) * 3200 + win2_3.xsize (grid2.coords ⟨(i 1).val / 3200, hq⟩) (1 : Fin 2)
    rw [d1, s31]
    show (i 1).val / 3200 * 3200 ≤ (i 1).val ∧ (i 1).val < (i 1).val / 3200 * 3200 + (if (i 1).val / 3200 < 15 then 3200 else 2257)
    split <;> omega

/-- After region 2 the logits array holds the reference's scoring stage: the sixteen blocks' parts inside the array cover
    it, the last block cut at entry 50257. -/
theorem logit_eq (c : Dev nD)
    (ob : (⟨Cert.ReferenceIdeal.S50257, .f32⟩ : BufTy).Contents (Elt Ideal))
    (h14 : V c main_v14 = shapeCast S1x50257 ob shapeCasts_S50257_S1x50257) :
    (dat2 (F := Ideal) V c).arrAt 3 cfg2.N
      = Cert.Spec.logit (F := Ideal) (V c main_v13) (V c main_arg12) ob :=
  (dat2 (F := Ideal) V c).arrAt_eq_of_cover 3 _ (fun t _ => flushed2_3_eq V c ob h14 t) cover2_3

end Cert.KernelIdeal.Val

end
-- ==== Proof.KernelIdeal.Plumb.lean ====
/- The idealized kernel's final buffers as functions of the launch memory, over the extended reals: the fold of @main's
   host stretches and regions read back — the gathered embedding row and the reshaped hidden row enter region 0, its two
   results enter region 1 beside the gate-major reshapes of the recurrent weights, the new hidden row enters region 2
   beside the output matrix and the bias row, and the log-softmax and the hidden state's return form close @main. -/
import proofs.«411821_j20263655702618_3_alg».proof.Proof.KernelIdeal.Fold
import proofs.«411821_j20263655702618_3_alg».proof.Proof.KernelIdeal.Val0
import proofs.«411821_j20263655702618_3_alg».proof.Proof.KernelIdeal.Val1
import proofs.«411821_j20263655702618_3_alg».proof.Proof.KernelIdeal.Val2
import proofs.«411821_j20263655702618_3_alg».proof.Proof.Gen.KernelIdeal.Regions
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The embedded row the launch memory determines (the reference's own gather of the table's row). -/
abbrev embRow : (⟨Cert.ReferenceIdeal.S1x1024, .f32⟩ : BufTy).Contents (Elt Ideal) :=
  Cert.Spec.emb (F := Ideal) (m ((c.tc : Thread nD τ).loc main_arg0)) (m ((c.tc : Thread nD τ).loc main_arg3))
/-- The hidden row. -/
abbrev hidRow : (⟨Cert.ReferenceIdeal.S1x1024, .f32⟩ : BufTy).Contents (Elt Ideal) :=
  Cert.Spec.hid (F := Ideal) (m ((c.tc : Thread nD τ).loc main_arg1))
/-- The attention weights. -/
abbrev attnRow : (⟨Cert.ReferenceIdeal.S1x10, .f32⟩ : BufTy).Contents (Elt Ideal) :=
  Cert.Spec.attn (F := Ideal) (embRow m c) (hidRow m c) (m ((c.tc : Thread nD τ).loc main_arg4)) (m ((c.tc : Thread nD τ).loc main_arg5))
/-- The combined, rectified input. -/
abbrev combRow : (⟨Cert.ReferenceIdeal.S1x1024, .f32⟩ : BufTy).Contents (Elt Ideal) :=
  Cert.Spec.comb (F := Ideal) (embRow m c) (attnRow m c) (m ((c.tc : Thread nD τ).loc main_arg2)) (m ((c.tc : Thread nD τ).loc main_arg6)) (m ((c.tc : Thread nD τ).loc main_arg7))
/-- The new hidden row. -/
abbrev newRow : (⟨Cert.ReferenceIdeal.S1x1024, .f32⟩ : BufTy).Contents (Elt Ideal) :=
  Cert.Spec.gru (F := Ideal) (combRow m c) (hidRow m c) (m ((c.tc : Thread nD τ).loc main_arg8)) (m ((c.tc : Thread nD τ).loc main_arg9)) (m ((c.tc : Thread nD τ).loc main_arg10)) (m ((c.tc : Thread nD τ).loc main_arg11))
/-- The vocabulary scores. -/
abbrev logitRow : (⟨Cert.ReferenceIdeal.S1x50257, .f32⟩ : BufTy).Contents (Elt Ideal) :=
  Cert.Spec.logit (F := Ideal) (newRow m c) (m ((c.tc : Thread nD τ).loc main_arg12)) (m ((c.tc : Thread nD τ).loc main_arg13))

/-! ## Buffers that pass a boundary untouched -/

theorem W1_of (r : Ref sig .tc) (h : r ∉ hostOps0_W) : W1 (F := Ideal) m c r = W0 m c r :=
  StableHlo.after_of_writes_sub hostOps0 _ hostOps0_writes h
theorem W2_of (r : Ref sig .tc) (h0 : r ≠ main_v8_0) (h1 : r ≠ main_v8_1) : W2 (F := Ideal) m c r = W1 m c r := by
  unfold W2
  rw [Function.update_of_ne (StableHlo.devRef_ne_of_ne h1), Function.update_of_ne (StableHlo.devRef_ne_of_ne h0)]
theorem W3_of (r : Ref sig .tc) (h : r ∉ hostOps1_W) : W3 (F := Ideal) m c r = W2 m c r :=
  StableHlo.after_of_writes_sub hostOps1 _ hostOps1_writes h
theorem W4_of (r : Ref sig .tc) (h : r ≠ main_v13) : W4 (F := Ideal) m c r = W3 m c r := by
  unfold W4
  rw [Function.update_of_ne (StableHlo.devRef_ne_of_ne h)]
theorem W5_of (r : Ref sig .tc) (h : r ∉ hostOps2_W) : W5 (F := Ideal) m c r = W4 m c r :=
  StableHlo.after_of_writes_sub hostOps2 _ hostOps2_writes h
theorem W6_of (r : Ref sig .tc) (h : r ≠ main_v15) : W6 (F := Ideal) m c r = W5 m c r := by
  unfold W6
  rw [Function.update_of_ne (StableHlo.devRef_ne_of_ne h)]
theorem W7_of (r : Ref sig .tc) (h : r ∉ hostOps3_W) : W7 (F := Ideal) m c r = W6 m c r :=
  StableHlo.after_of_writes_sub hostOps3 _ hostOps3_writes h
theorem W8_of (r : Ref sig .tc) (h : r ∉ hostOps3_1_W) : W8 (F := Ideal) m c r = W7 m c r :=
  StableHlo.after_of_writes_sub hostOps3_1 _ hostOps3_1_writes h

/-- A buffer that no host stretch writes and no region puts out ends as launched. -/
theorem W8_untouched (r : Ref sig .tc) (h0 : r ∉ hostOps0_W) (h1 : r ∉ hostOps1_W) (h2 : r ∉ hostOps2_W) (h3 : r ∉ hostOps3_W)
    (h4 : r ∉ hostOps3_1_W) (o0 : r ≠ main_v8_0) (o1 : r ≠ main_v8_1) (o2 : r ≠ main_v13) (o3 : r ≠ main_v15) :
    W8 (F := Ideal) m c r = m ((c.tc : Thread nD τ).loc r) :=
  (W8_of m c r h4).trans <| (W7_of m c r h3).trans <| (W6_of m c r o3).trans <| (W5_of m c r h2).trans <|
    (W4_of m c r o2).trans <| (W3_of m c r h1).trans <| (W2_of m c r o0 o1).trans <| (W1_of m c r h0).trans rfl

/-! ## Region 0's entry -/

/-- The first host stretch leaves the gathered embedding row, the reference's own gather of it. -/
theorem E1_v6 : E1 (F := Ideal) m c main_v6 = embRow m c := by
  show StableHlo.after hostOps0 _ (Proc.devRef .tc main_v6) = _
  after_results
  rfl
/-- and the hidden state reshaped to a row. -/
theorem E1_v7 : E1 (F := Ideal) m c main_v7 = hidRow m c := by
  show StableHlo.after hostOps0 _ (Proc.devRef .tc main_v7) = _
  after_results
  rfl

/-! ## Region 0's results -/

/-- Region 0 leaves the attention weights of the embedded and hidden rows in its first output, -/
theorem W2_v8_0 : W2 (F := Ideal) m c main_v8_0 = attnRow m c := by
  unfold W2
  rw [Function.update_of_ne (StableHlo.devRef_ne_of_ne (by decide)), Function.update_self, attn_eq (E1 m) c,
    E1_v6, E1_v7, show E1 (F := Ideal) m c main_arg4 = m ((c.tc : Thread nD τ).loc main_arg4) from W1_of m c main_arg4 (by decide),
    show E1 (F := Ideal) m c main_arg5 = m ((c.tc : Thread nD τ).loc main_arg5) from W1_of m c main_arg5 (by decide)]
/-- and the combined, rectified input in its second. -/
theorem W2_v8_1 : W2 (F := Ideal) m c main_v8_1 = combRow m c := by
  unfold W2
  rw [Function.update_self, comb_eq (E1 m) c,
    E1_v6, E1_v7, show E1 (F := Ideal) m c main_arg4 = m ((c.tc : Thread nD τ).loc main_arg4) from W1_of m c main_arg4 (by decide),
    show E1 (F := Ideal) m c main_arg5 = m ((c.tc : Thread nD τ).loc main_arg5) from W1_of m c main_arg5 (by decide),
    show E1 (F := Ideal) m c main_arg2 = m ((c.tc : Thread nD τ).loc main_arg2) from W1_of m c main_arg2 (by decide),
    show E1 (F := Ideal) m c main_arg6 = m ((c.tc : Thread nD τ).loc main_arg6) from W1_of m c main_arg6 (by decide),
    show E1 (F := Ideal) m c main_arg7 = m ((c.tc : Thread nD τ).loc main_arg7) from W1_of m c main_arg7 (by decide)]

/-! ## Region 1's entry and result -/

/-- A buffer the first host stretch does not write and region 0 does not put out is still as launched after region 0. -/
theorem W2_launch (r : Ref sig .tc) (h : r ∉ hostOps0_W) (o0 : r ≠ main_v8_0) (o1 : r ≠ main_v8_1) :
    W2 (F := Ideal) m c r = m ((c.tc : Thread nD τ).loc r) :=
  (W2_of m c r o0 o1).trans <| (W1_of m c r h).trans rfl

/-- The second host stretch reshapes the input-side gate weights gate-major, -/
theorem E3_v9 : E3 (F := Ideal) m c main_v9
    = shapeCast S3x1024x1024 (m ((c.tc : Thread nD τ).loc main_arg8)) shapeCasts_S3072x1024_S3x1024x1024 := by
  have h := W2_launch m c main_arg8 (by decide) (by decide) (by decide)
  show StableHlo.after hostOps1 _ (Proc.devRef .tc main_v9) = _
  after_results
  rw [h]
  rfl
/-- the hidden-side gate weights, -/
theorem E3_v10 : E3 (F := Ideal) m c main_v10
    = shapeCast S3x1024x1024 (m ((c.tc : Thread nD τ).loc main_arg9)) shapeCasts_S3072x1024_S3x1024x1024 := by
  have h := W2_launch m c main_arg9 (by decide) (by decide) (by decide)
  show StableHlo.after hostOps1 _ (Proc.devRef .tc main_v10) = _
  after_results
  rw [h]
  rfl
/-- the input-side gate biases -/
theorem E3_v11 : E3 (F := Ideal) m c main_v11
    = shapeCast S3x1024 (m ((c.tc : Thread nD τ).loc main_arg10)) shapeCasts_S3072_S3x1024 := by
  have h := W2_launch m c main_arg10 (by decide) (by decide) (by decide)
  show StableHlo.after hostOps1 _ (Proc.devRef .tc main_v11) = _
  after_results
  rw [h]
  rfl
/-- and the hidden-side gate biases. -/
theorem E3_v12 : E3 (F := Ideal) m c main_v12
    = shapeCast S3x1024 (m ((c.tc : Thread nD τ).loc main_arg11)) shapeCasts_S3072_S3x1024 := by
  have h := W2_launch m c main_arg11 (by decide) (by decide) (by decide)
  show StableHlo.after hostOps1 _ (Proc.devRef .tc main_v12) = _
  after_results
  rw [h]
  rfl
/-- Region 1 finds the combined input where region 0 left it -/
theorem E3_v8_1 : E3 (F := Ideal) m c main_v8_1 = combRow m c :=
  (W3_of m c main_v8_1 (by decide)).trans (W2_v8_1 m c)
/-- and the hidden row where the first host stretch left it. -/
theorem E3_v7 : E3 (F := Ideal) m c main_v7 = hidRow m c :=
  (W3_of m c main_v7 (by decide)).trans <| (W2_of m c main_v7 (by decide) (by decide)).trans (E1_v7 m c)

/-- Region 1 leaves the gated recurrent update of the combined input and the hidden row. -/
theorem W4_v13 : W4 (F := Ideal) m c main_v13 = newRow m c := by
  unfold W4
  rw [Function.update_self, gru_eq (E3 m) c _ _ _ _ (E3_v9 m c) (E3_v10 m c) (E3_v11 m c) (E3_v12 m c), E3_v8_1, E3_v7]

/-! ## Region 2's entry and result -/

/-- The third host stretch reshapes the output bias to a row. -/
theorem E5_v14 : E5 (F := Ideal) m c main_v14
    = shapeCast S1x50257 (m ((c.tc : Thread nD τ).loc main_arg13)) shapeCasts_S50257_S1x50257 := by
  have h : W4 (F := Ideal) m c main_arg13 = m ((c.tc : Thread nD τ).loc main_arg13) :=
    (W4_of m c main_arg13 (by decide)).trans <| (W3_of m c main_arg13 (by decide)).trans <|
      W2_launch m c main_arg13 (by decide) (by decide) (by decide)
  show StableHlo.after hostOps2 _ (Proc.devRef .tc main_v14) = _
  after_results
  rw [h]
  rfl
/-- Region 2 finds the new hidden row where region 1 left it -/
theorem E5_v13 : E5 (F := Ideal) m c main_v13 = newRow m c :=
  (W5_of m c main_v13 (by decide)).trans (W4_v13 m c)
/-- and the output matrix as launched. -/
theorem E5_arg12 : E5 (F := Ideal) m c main_arg12 = m ((c.tc : Thread nD τ).loc main_arg12) :=
  (W5_of m c main_arg12 (by decide)).trans <| (W4_of m c main_arg12 (by decide)).trans <| (W3_of m c main_arg12 (by decide)).trans <|
    W2_launch m c main_arg12 (by decide) (by decide) (by decide)

/-- Region 2 leaves the vocabulary scores of the new hidden row. -/
theorem W6_v15 : W6 (F := Ideal) m c main_v15 = logitRow m c := by
  unfold W6
  rw [Function.update_self, logit_eq (E5 m) c _ (E5_v14 m c), E5_v13, E5_arg12]

/-! ## The end of @main -/

section Typed

variable {Val : EltTy → Type}

/-- Contents moved to a typed reference's own buffer type and back are themselves. -/
theorem ofBuf_toBuf {T : BufTy} (x : StableHlo.TRef sig T) (v : T.Contents Val) : x.ofBuf (x.toBuf v) = v := by
  obtain ⟨r, rfl, _, _⟩ := x
  rfl
/-- At a reference typed by its own buffer type the move is the identity, -/
theorem ofBuf_self (r : Ref sig .tc) (h2 h3) (v : r.ty.Contents Val) :
    (StableHlo.TRef.of r rfl h2 h3 : StableHlo.TRef sig r.ty).ofBuf v = v := rfl
/-- in both directions. -/
theorem toBuf_self (r : Ref sig .tc) (h2 h3) (v : r.ty.Contents Val) :
    (StableHlo.TRef.of r rfl h2 h3 : StableHlo.TRef sig r.ty).toBuf v = v := rfl

end Typed

/-- The log-softmax's fifteen operations, read as one function of the scores they start from: the reference's own
    log-softmax stage (the same maximum, shift, exponential, sum, logarithm and second shift, in the same order). -/
theorem lsm_after {F : FTy → Type} [FloatOps F] (V : Valuation τ sig (Elt F)) :
    StableHlo.after hostOps3 V (Proc.devRef .tc main_v16) = Cert.Spec.lsm (F := F) (V (Proc.devRef .tc main_v15)) := by
  after_results
  simp only [ofBuf_toBuf]
  rw [toBuf_self, ofBuf_self]
  generalize V (Proc.devRef .tc main_v15) = x
  rfl
/-- The first result: the log-softmax of the scores. -/
theorem W8_v16 : W8 (F := Ideal) m c main_v16 = Cert.Spec.lsm (F := Ideal) (logitRow m c) := by
  refine (W8_of m c main_v16 (by decide)).trans ?_
  show StableHlo.after hostOps3 (W6 m c) (Proc.devRef .tc main_v16) = _
  rw [lsm_after, W6_v15]
/-- The second result: the new hidden row in its returned form. -/
theorem W8_v17 : W8 (F := Ideal) m c main_v17 = Cert.Spec.hout (F := Ideal) (newRow m c) := by
  have h : W6 (F := Ideal) m c main_v13 = newRow m c :=
    (W6_of m c main_v13 (by decide)).trans <| (W5_of m c main_v13 (by decide)).trans <| W4_v13 m c
  show StableHlo.after hostOps3_1 _ (Proc.devRef .tc main_v17) = _
  after_results
  rw [h]
  rfl
/-- The third result: the attention weights. -/
theorem W8_v8_0 : W8 (F := Ideal) m c main_v8_0 = attnRow m c :=
  (W8_of m c main_v8_0 (by decide)).trans <| (W7_of m c main_v8_0 (by decide)).trans <| (W6_of m c main_v8_0 (by decide)).trans <|
    (W5_of m c main_v8_0 (by decide)).trans <| (W4_of m c main_v8_0 (by decide)).trans <| (W3_of m c main_v8_0 (by decide)).trans <|
    W2_v8_0 m c
/-- Argument 0 ends as launched: no host stretch writes it and no region's output is it. -/
theorem W8_arg0 : W8 (F := Ideal) m c main_arg0 = m ((c.tc : Thread nD τ).loc main_arg0) :=
  W8_untouched m c main_arg0 (by decide) (by decide) (by decide) (by decide) (by decide) (by decide) (by decide) (by decide) (by decide)
/-- Argument 1 ends as launched: no host stretch writes it and no region's output is it. -/
theorem W8_arg1 : W8 (F := Ideal) m c main_arg1 = m ((c.tc : Thread nD τ).loc main_arg1) :=
  W8_untouched m c main_arg1 (by decide) (by decide) (by decide) (by decide) (by decide) (by decide) (by decide) (by decide) (by decide)
/-- Argument 2 ends as launched: no host stretch writes it and no region's output is it. -/
theorem W8_arg2 : W8 (F := Ideal) m c main_arg2 = m ((c.tc : Thread nD τ).loc main_arg2) :=
  W8_untouched m c main_arg2 (by decide) (by decide) (by decide) (by decide) (by decide) (by decide) (by decide) (by decide) (by decide)
/-- Argument 3 ends as launched: no host stretch writes it and no region's output is it. -/
theorem W8_arg3 : W8 (F := Ideal) m c main_arg3 = m ((c.tc : Thread nD τ).loc main_arg3) :=
  W8_untouched m c main_arg3 (by decide) (by decide) (by decide) (by decide) (by decide) (by decide) (by decide) (by decide) (by decide)
/-- Argument 4 ends as launched: no host stretch writes it and no region's output is it. -/
theorem W8_arg4 : W8 (F := Ideal) m c main_arg4 = m ((c.tc : Thread nD τ).loc main_arg4) :=
  W8_untouched m c main_arg4 (by decide) (by decide) (by decide) (by decide) (by decide) (by decide) (by decide) (by decide) (by decide)
/-- Argument 5 ends as launched: no host stretch writes it and no region's output is it. -/
theorem W8_arg5 : W8 (F := Ideal) m c main_arg5 = m ((c.tc : Thread nD τ).loc main_arg5) :=
  W8_untouched m c main_arg5 (by decide) (by decide) (by decide) (by decide) (by decide) (by decide) (by decide) (by decide) (by decide)
/-- Argument 6 ends as launched: no host stretch writes it and no region's output is it. -/
theorem W8_arg6 : W8 (F := Ideal) m c main_arg6 = m ((c.tc : Thread nD τ).loc main_arg6) :=
  W8_untouched m c main_arg6 (by decide) (by decide) (by decide) (by decide) (by decide) (by decide) (by decide) (by decide) (by decide)
/-- Argument 7 ends as launched: no host stretch writes it and no region's output is it. -/
theorem W8_arg7 : W8 (F := Ideal) m c main_arg7 = m ((c.tc : Thread nD τ).loc main_arg7) :=
  W8_untouched m c main_arg7 (by decide) (by decide) (by decide) (by decide) (by decide) (by decide) (by decide) (by decide) (by decide)
/-- Argument 8 ends as launched: no host stretch writes it and no region's output is it. -/
theorem W8_arg8 : W8 (F := Ideal) m c main_arg8 = m ((c.tc : Thread nD τ).loc main_arg8) :=
  W8_untouched m c main_arg8 (by decide) (by decide) (by decide) (by decide) (by decide) (by decide) (by decide) (by decide) (by decide)
/-- Argument 9 ends as launched: no host stretch writes it and no region's output is it. -/
theorem W8_arg9 : W8 (F := Ideal) m c main_arg9 = m ((c.tc : Thread nD τ).loc main_arg9) :=
  W8_untouched m c main_arg9 (by decide) (by decide) (by decide) (by decide) (by decide) (by decide) (by decide) (by decide) (by decide)
/-- Argument 10 ends as launched: no host stretch writes it and no region's output is it. -/
theorem W8_arg10 : W8 (F := Ideal) m c main_arg10 = m ((c.tc : Thread nD τ).loc main_arg10) :=
  W8_untouched m c main_arg10 (by decide) (by decide) (by decide) (by decide) (by decide) (by decide) (by decide) (by decide) (by decide)
/-- Argument 11 ends as launched: no host stretch writes it and no region's output is it. -/
theorem W8_arg11 : W8 (F := Ideal) m c main_arg11 = m ((c.tc : Thread nD τ).loc main_arg11) :=
  W8_untouched m c main_arg11 (by decide) (by decide) (by decide) (by decide) (by decide) (by decide) (by decide) (by decide) (by decide)
/-- Argument 12 ends as launched: no host stretch writes it and no region's output is it. -/
theorem W8_arg12 : W8 (F := Ideal) m c main_arg12 = m ((c.tc : Thread nD τ).loc main_arg12) :=
  W8_untouched m c main_arg12 (by decide) (by decide) (by decide) (by decide) (by decide) (by decide) (by decide) (by decide) (by decide)
/-- Argument 13 ends as launched: no host stretch writes it and no region's output is it. -/
theorem W8_arg13 : W8 (F := Ideal) m c main_arg13 = m ((c.tc : Thread nD τ).loc main_arg13) :=
  W8_untouched m c main_arg13 (by decide) (by decide) (by decide) (by decide) (by decide) (by decide) (by decide) (by decide) (by decide)

end Cert.KernelIdeal.Val

end
-- ==== Proof.Ref.lean ====
/- The reference's run, stated over the stages of its computation. The reference's @main is a line of 99 operations; the
   line is cut where a stage ends (the embedded and hidden rows; the attention weights; the combined, rectified input; the
   gated recurrent update; the vocabulary scores; their log-softmax; the hidden state's returned form). Over each stretch
   the stage's last buffer ends at the stage's function of the buffers the stage starts from, and a buffer no later stretch
   writes keeps its contents; chaining the stretches gives the three results as the staged functions of the arguments. -/
import proofs.«411821_j20263655702618_3_alg».proof.Defs
import proofs.«411821_j20263655702618_3_alg».proof.Proof.Gen.ReferenceIdeal
import proofs.«411821_j20263655702618_3_alg».proof.Proof.Spec
import Idealize.ShloMosaic.Lib.StableHlo.Run

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

/-! ## The line of operations -/

/-- The reference's @main as the line of its 99 operations, in order (a called function's operations stand where it is
    called, at its typed references). -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x10 [1, 0] · transposes_S10x2048_S2048x10_1_0) : (⟨S10x2048, .f32⟩ : BufTy).Contents (Elt F) → (⟨S2048x10, .f32⟩ : BufTy).Contents (Elt F)),
    binary main_v8 main_v9 main_v10 ((fun l r => Host.dotGeneral dot_S1x2048_S2048x10_S1x10_1_0_0_1_n_n none l r) : (⟨S1x2048, .f32⟩ : BufTy).Contents (Elt F) → (⟨S2048x10, .f32⟩ : BufTy).Contents (Elt F) → (⟨S1x10, .f32⟩ : BufTy).Contents (Elt F)),
    unary main_arg5 main_v11 (broadcastInDim S1x10 ![1] bcast_S10_S1x10_1 : (⟨S10, .f32⟩ : BufTy).Contents (Elt F) → (⟨S1x10, .f32⟩ : BufTy).Contents (Elt F)),
    binary main_v10 main_v11 main_v12 (addf : (⟨S1x10, .f32⟩ : BufTy).Contents (Elt F) → (⟨S1x10, .f32⟩ : BufTy).Contents (Elt F) → (⟨S1x10, .f32⟩ : BufTy).Contents (Elt F)),
    nullary main_cst (constant S_ .f32 0xFF800000#32),
    binary main_v12 main_cst main_v13 ((fun x v => Host.reduce FloatOps.maximumf x v reducesTo_S1x10_S1_d1 h_S_) : (⟨S1x10, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x10 ![0, 1] bcast_S1x1_S1x10_0_1 : (⟨S1x1, .f32⟩ : BufTy).Contents (Elt F) → (⟨S1x10, .f32⟩ : BufTy).Contents (Elt F)),
    binary main_v12 main_v17 main_v18 (subf : (⟨S1x10, .f32⟩ : BufTy).Contents (Elt F) → (⟨S1x10, .f32⟩ : BufTy).Contents (Elt F) → (⟨S1x10, .f32⟩ : BufTy).Contents (Elt F)),
    unary main_v18 main_v19 (Host.exp : (⟨S1x10, .f32⟩ : BufTy).Contents (Elt F) → (⟨S1x10, .f32⟩ : BufTy).Contents (Elt F)),
    nullary main_cst_2 (constant S_ .f32 0x00000000#32),
    binary main_v19 main_cst_2 main_v20 ((fun x v => Host.reduceAdd x v reducesTo_S1x10_S1_d1 h_S_) : (⟨S1x10, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x10 ![0, 1] bcast_S1x1_S1x10_0_1 : (⟨S1x1, .f32⟩ : BufTy).Contents (Elt F) → (⟨S1x10, .f32⟩ : BufTy).Contents (Elt F)),
    binary main_v19 main_v22 main_v23 (Host.divf : (⟨S1x10, .f32⟩ : BufTy).Contents (Elt F) → (⟨S1x10, .f32⟩ : BufTy).Contents (Elt F) → (⟨S1x10, .f32⟩ : BufTy).Contents (Elt F)),
    binary main_v23 main_arg2 main_v24 ((fun l r => Host.dotGeneral dot_S1x10_S10x1024_S1x1024_1_0_0_1_n_n none l r) : (⟨S1x10, .f32⟩ : BufTy).Contents (Elt F) → (⟨S10x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v38 main_v40 ((extractStridedSlice S1x1024 ![0, 0] · slices_S1x3072_S1x1024_0_0) : (⟨S1x3072, .f32⟩ : BufTy).Contents (Elt F) → (⟨S1x1024, .f32⟩ : BufTy).Contents (Elt F)),
    binary main_v39 main_v40 main_v41 (addf : (⟨S1x1024, .f32⟩ : BufTy).Contents (Elt F) → (⟨S1x1024, .f32⟩ : BufTy).Contents (Elt F) → (⟨S1x1024, .f32⟩ : BufTy).Contents (Elt F)),
    unary main_v41 main_v42 (Host.negf : (⟨S1x1024, .f32⟩ : BufTy).Contents (Elt F) → (⟨S1x1024, .f32⟩ : BufTy).Contents (Elt F)),
    unary main_v42 main_v43 (Host.exp : (⟨S1x1024, .f32⟩ : BufTy).Contents (Elt F) → (⟨S1x1024, .f32⟩ : BufTy).Contents (Elt F)),
    nullary main_cst_3 (constant S_ .f32 0x3F800000#32),
    unary main_cst_3 main_v44 (broadcastInDim S1x1024 ![] bcast_S_S1x1024 : (⟨S_, .f32⟩ : BufTy).Contents (Elt F) → (⟨S1x1024, .f32⟩ : BufTy).Contents (Elt F)),
    binary main_v44 main_v43 main_v45 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v46 (broadcastInDim S1x1024 ![] bcast_S_S1x1024 : (⟨S_, .f32⟩ : BufTy).Contents (Elt F) → (⟨S1x1024, .f32⟩ : BufTy).Contents (Elt F)),
    binary main_v46 main_v45 main_v47 (Host.divf : (⟨S1x1024, .f32⟩ : BufTy).Contents (Elt F) → (⟨S1x1024, .f32⟩ : BufTy).Contents (Elt F) → (⟨S1x1024, .f32⟩ : BufTy).Contents (Elt F)),
    unary main_v34 main_v48 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v49 ((extractStridedSlice S1x1024 ![0, 1024] · slices_S1x3072_S1x1024_0_1024) : (⟨S1x3072, .f32⟩ : BufTy).Contents (Elt F) → (⟨S1x1024, .f32⟩ : BufTy).Contents (Elt F)),
    binary main_v48 main_v49 main_v50 (addf : (⟨S1x1024, .f32⟩ : BufTy).Contents (Elt F) → (⟨S1x1024, .f32⟩ : BufTy).Contents (Elt F) → (⟨S1x1024, .f32⟩ : BufTy).Contents (Elt F)),
    unary main_v50 main_v51 (Host.negf : (⟨S1x1024, .f32⟩ : BufTy).Contents (Elt F) → (⟨S1x1024, .f32⟩ : BufTy).Contents (Elt F)),
    unary main_v51 main_v52 (Host.exp : (⟨S1x1024, .f32⟩ : BufTy).Contents (Elt F) → (⟨S1x1024, .f32⟩ : BufTy).Contents (Elt F)),
    nullary main_cst_5 (constant S_ .f32 0x3F800000#32),
    unary main_cst_5 main_v53 (broadcastInDim S1x1024 ![] bcast_S_S1x1024 : (⟨S_, .f32⟩ : BufTy).Contents (Elt F) → (⟨S1x1024, .f32⟩ : BufTy).Contents (Elt F)),
    binary main_v53 main_v52 main_v54 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v55 (broadcastInDim S1x1024 ![] bcast_S_S1x1024 : (⟨S_, .f32⟩ : BufTy).Contents (Elt F) → (⟨S1x1024, .f32⟩ : BufTy).Contents (Elt F)),
    binary main_v55 main_v54 main_v56 (Host.divf : (⟨S1x1024, .f32⟩ : BufTy).Contents (Elt F) → (⟨S1x1024, .f32⟩ : BufTy).Contents (Elt F) → (⟨S1x1024, .f32⟩ : BufTy).Contents (Elt F)),
    unary main_v34 main_v57 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v58 ((extractStridedSlice S1x1024 ![0, 2048] · slices_S1x3072_S1x1024_0_2048) : (⟨S1x3072, .f32⟩ : BufTy).Contents (Elt F) → (⟨S1x1024, .f32⟩ : BufTy).Contents (Elt F)),
    binary main_v47 main_v58 main_v59 (mulf : (⟨S1x1024, .f32⟩ : BufTy).Contents (Elt F) → (⟨S1x1024, .f32⟩ : BufTy).Contents (Elt F) → (⟨S1x1024, .f32⟩ : BufTy).Contents (Elt F)),
    binary main_v57 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v56 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v56 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)),
    unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
set_option maxHeartbeats 4000000 in
/-- @main is that line run in order. -/
theorem main_eq (c : Dev nD) : main (F := F) c = seq ops := rfl
/-- The signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide
set_option maxRecDepth 8192 in
/-- Every operation touches the core's own references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

/-- The buffers after two lines in a row are those after the second, from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The line, cut at the stages -/

/-- The token's wrapped index, the embedded row gathered at it, and the hidden state as a row. -/
abbrev embOps : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]

/-- The scores of the joined rows against the attention matrix, and their softmax. -/
abbrev attnOps : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x10 [1, 0] · transposes_S10x2048_S2048x10_1_0) : (⟨S10x2048, .f32⟩ : BufTy).Contents (Elt F) → (⟨S2048x10, .f32⟩ : BufTy).Contents (Elt F)),
    binary main_v8 main_v9 main_v10 ((fun l r => Host.dotGeneral dot_S1x2048_S2048x10_S1x10_1_0_0_1_n_n none l r) : (⟨S1x2048, .f32⟩ : BufTy).Contents (Elt F) → (⟨S2048x10, .f32⟩ : BufTy).Contents (Elt F) → (⟨S1x10, .f32⟩ : BufTy).Contents (Elt F)),
    unary main_arg5 main_v11 (broadcastInDim S1x10 ![1] bcast_S10_S1x10_1 : (⟨S10, .f32⟩ : BufTy).Contents (Elt F) → (⟨S1x10, .f32⟩ : BufTy).Contents (Elt F)),
    binary main_v10 main_v11 main_v12 (addf : (⟨S1x10, .f32⟩ : BufTy).Contents (Elt F) → (⟨S1x10, .f32⟩ : BufTy).Contents (Elt F) → (⟨S1x10, .f32⟩ : BufTy).Contents (Elt F)),
    nullary main_cst (constant S_ .f32 0xFF800000#32),
    binary main_v12 main_cst main_v13 ((fun x v => Host.reduce FloatOps.maximumf x v reducesTo_S1x10_S1_d1 h_S_) : (⟨S1x10, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x10 ![0, 1] bcast_S1x1_S1x10_0_1 : (⟨S1x1, .f32⟩ : BufTy).Contents (Elt F) → (⟨S1x10, .f32⟩ : BufTy).Contents (Elt F)),
    binary main_v12 main_v17 main_v18 (subf : (⟨S1x10, .f32⟩ : BufTy).Contents (Elt F) → (⟨S1x10, .f32⟩ : BufTy).Contents (Elt F) → (⟨S1x10, .f32⟩ : BufTy).Contents (Elt F)),
    unary main_v18 main_v19 (Host.exp : (⟨S1x10, .f32⟩ : BufTy).Contents (Elt F) → (⟨S1x10, .f32⟩ : BufTy).Contents (Elt F)),
    nullary main_cst_2 (constant S_ .f32 0x00000000#32),
    binary main_v19 main_cst_2 main_v20 ((fun x v => Host.reduceAdd x v reducesTo_S1x10_S1_d1 h_S_) : (⟨S1x10, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x10 ![0, 1] bcast_S1x1_S1x10_0_1 : (⟨S1x1, .f32⟩ : BufTy).Contents (Elt F) → (⟨S1x10, .f32⟩ : BufTy).Contents (Elt F)),
    binary main_v19 main_v22 main_v23 (Host.divf : (⟨S1x10, .f32⟩ : BufTy).Contents (Elt F) → (⟨S1x10, .f32⟩ : BufTy).Contents (Elt F) → (⟨S1x10, .f32⟩ : BufTy).Contents (Elt F)) ]

/-- The attention-weighted encoder rows joined to the embedded row, their affine image, rectified. -/
abbrev combOps : List (HloOp τ sig (Elt F)) :=
  [ binary main_v23 main_arg2 main_v24 ((fun l r => Host.dotGeneral dot_S1x10_S10x1024_S1x1024_1_0_0_1_n_n none l r) : (⟨S1x10, .f32⟩ : BufTy).Contents (Elt F) → (⟨S10x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- The gated recurrent update: the two affine images, the reset and update gates, the candidate, and the new hidden
    row. -/
abbrev gruOps : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v38 main_v40 ((extractStridedSlice S1x1024 ![0, 0] · slices_S1x3072_S1x1024_0_0) : (⟨S1x3072, .f32⟩ : BufTy).Contents (Elt F) → (⟨S1x1024, .f32⟩ : BufTy).Contents (Elt F)),
    binary main_v39 main_v40 main_v41 (addf : (⟨S1x1024, .f32⟩ : BufTy).Contents (Elt F) → (⟨S1x1024, .f32⟩ : BufTy).Contents (Elt F) → (⟨S1x1024, .f32⟩ : BufTy).Contents (Elt F)),
    unary main_v41 main_v42 (Host.negf : (⟨S1x1024, .f32⟩ : BufTy).Contents (Elt F) → (⟨S1x1024, .f32⟩ : BufTy).Contents (Elt F)),
    unary main_v42 main_v43 (Host.exp : (⟨S1x1024, .f32⟩ : BufTy).Contents (Elt F) → (⟨S1x1024, .f32⟩ : BufTy).Contents (Elt F)),
    nullary main_cst_3 (constant S_ .f32 0x3F800000#32),
    unary main_cst_3 main_v44 (broadcastInDim S1x1024 ![] bcast_S_S1x1024 : (⟨S_, .f32⟩ : BufTy).Contents (Elt F) → (⟨S1x1024, .f32⟩ : BufTy).Contents (Elt F)),
    binary main_v44 main_v43 main_v45 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v46 (broadcastInDim S1x1024 ![] bcast_S_S1x1024 : (⟨S_, .f32⟩ : BufTy).Contents (Elt F) → (⟨S1x1024, .f32⟩ : BufTy).Contents (Elt F)),
    binary main_v46 main_v45 main_v47 (Host.divf : (⟨S1x1024, .f32⟩ : BufTy).Contents (Elt F) → (⟨S1x1024, .f32⟩ : BufTy).Contents (Elt F) → (⟨S1x1024, .f32⟩ : BufTy).Contents (Elt F)),
    unary main_v34 main_v48 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v49 ((extractStridedSlice S1x1024 ![0, 1024] · slices_S1x3072_S1x1024_0_1024) : (⟨S1x3072, .f32⟩ : BufTy).Contents (Elt F) → (⟨S1x1024, .f32⟩ : BufTy).Contents (Elt F)),
    binary main_v48 main_v49 main_v50 (addf : (⟨S1x1024, .f32⟩ : BufTy).Contents (Elt F) → (⟨S1x1024, .f32⟩ : BufTy).Contents (Elt F) → (⟨S1x1024, .f32⟩ : BufTy).Contents (Elt F)),
    unary main_v50 main_v51 (Host.negf : (⟨S1x1024, .f32⟩ : BufTy).Contents (Elt F) → (⟨S1x1024, .f32⟩ : BufTy).Contents (Elt F)),
    unary main_v51 main_v52 (Host.exp : (⟨S1x1024, .f32⟩ : BufTy).Contents (Elt F) → (⟨S1x1024, .f32⟩ : BufTy).Contents (Elt F)),
    nullary main_cst_5 (constant S_ .f32 0x3F800000#32),
    unary main_cst_5 main_v53 (broadcastInDim S1x1024 ![] bcast_S_S1x1024 : (⟨S_, .f32⟩ : BufTy).Contents (Elt F) → (⟨S1x1024, .f32⟩ : BufTy).Contents (Elt F)),
    binary main_v53 main_v52 main_v54 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v55 (broadcastInDim S1x1024 ![] bcast_S_S1x1024 : (⟨S_, .f32⟩ : BufTy).Contents (Elt F) → (⟨S1x1024, .f32⟩ : BufTy).Contents (Elt F)),
    binary main_v55 main_v54 main_v56 (Host.divf : (⟨S1x1024, .f32⟩ : BufTy).Contents (Elt F) → (⟨S1x1024, .f32⟩ : BufTy).Contents (Elt F) → (⟨S1x1024, .f32⟩ : BufTy).Contents (Elt F)),
    unary main_v34 main_v57 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v58 ((extractStridedSlice S1x1024 ![0, 2048] · slices_S1x3072_S1x1024_0_2048) : (⟨S1x3072, .f32⟩ : BufTy).Contents (Elt F) → (⟨S1x1024, .f32⟩ : BufTy).Contents (Elt F)),
    binary main_v47 main_v58 main_v59 (mulf : (⟨S1x1024, .f32⟩ : BufTy).Contents (Elt F) → (⟨S1x1024, .f32⟩ : BufTy).Contents (Elt F) → (⟨S1x1024, .f32⟩ : BufTy).Contents (Elt F)),
    binary main_v57 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v56 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v56 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- The vocabulary scores: the affine image of the new hidden row. -/
abbrev logitOps : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]

/-- The log-softmax of the scores. -/
abbrev lsmOps : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf ]

/-- The hidden state's returned form. -/
abbrev houtOps : List (HloOp τ sig (Elt F)) :=
  [ unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
/-- The whole line is the stretches in order. -/
theorem ops_cut : (ops : List (HloOp τ sig (Elt F)))
    = embOps ++ (attnOps ++ (combOps ++ (gruOps ++ (logitOps ++ (lsmOps ++ houtOps))))) := rfl

/-! ## What each stretch writes, and what it therefore keeps -/

/-- The references the first stretch (the embedded row and the hidden row) writes. -/
abbrev embW : List (Ref sig .tc) :=
  [main_c, main_v0, main_v1, main_c_0, main_v2, main_v3, main_v4, main_v5, main_v6, main_v7]
theorem emb_writes : (embOps : List (HloOp τ sig (Elt F))).Forall fun op =>
    op.writes ⊆ (embW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the first stretch (the embedded row and the hidden row) does not write keeps its contents over it. -/
theorem emb_keeps (V : Valuation τ sig (Elt F)) {r : Ref sig .tc} (h : r ∉ embW) :
    after embOps V (Proc.devRef .tc r) = V (Proc.devRef .tc r) :=
  after_of_writes_sub embOps V emb_writes h

/-- The references the attention stretch writes. -/
abbrev attnW : List (Ref sig .tc) :=
  [main_v8, main_v9, main_v10, main_v11, main_v12, main_cst, main_v13, main_cst_1, main_v14, main_v15, main_v16,
  main_v17, main_v18, main_v19, main_cst_2, main_v20, main_v21, main_v22, main_v23]
theorem attn_writes : (attnOps : List (HloOp τ sig (Elt F))).Forall fun op =>
    op.writes ⊆ (attnW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the attention stretch does not write keeps its contents over it. -/
theorem attn_keeps (V : Valuation τ sig (Elt F)) {r : Ref sig .tc} (h : r ∉ attnW) :
    after attnOps V (Proc.devRef .tc r) = V (Proc.devRef .tc r) :=
  after_of_writes_sub attnOps V attn_writes h

/-- The references the combining stretch writes. -/
abbrev combW : List (Ref sig .tc) :=
  [main_v24, main_v25, main_v26, main_v27, main_v28, main_v29, main_call0_cst, main_call0_v0, main_v30]
theorem comb_writes : (combOps : List (HloOp τ sig (Elt F))).Forall fun op =>
    op.writes ⊆ (combW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the combining stretch does not write keeps its contents over it. -/
theorem comb_keeps (V : Valuation τ sig (Elt F)) {r : Ref sig .tc} (h : r ∉ combW) :
    after combOps V (Proc.devRef .tc r) = V (Proc.devRef .tc r) :=
  after_of_writes_sub combOps V comb_writes h

/-- The references the gated recurrent update writes. -/
abbrev gruW : List (Ref sig .tc) :=
  [main_v31, main_v32, main_v33, main_v34, main_v35, main_v36, main_v37, main_v38, main_v39, main_v40, main_v41,
  main_v42, main_v43, main_cst_3, main_v44, main_v45, main_cst_4, main_v46, main_v47, main_v48, main_v49, main_v50,
  main_v51, main_v52, main_cst_5, main_v53, main_v54, main_cst_6, main_v55, main_v56, main_v57, main_v58, main_v59,
  main_v60, main_v61, main_cst_7, main_v62, main_v63, main_v64, main_v65, main_v66]
theorem gru_writes : (gruOps : List (HloOp τ sig (Elt F))).Forall fun op =>
    op.writes ⊆ (gruW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the gated recurrent update does not write keeps its contents over it. -/
theorem gru_keeps (V : Valuation τ sig (Elt F)) {r : Ref sig .tc} (h : r ∉ gruW) :
    after gruOps V (Proc.devRef .tc r) = V (Proc.devRef .tc r) :=
  after_of_writes_sub gruOps V gru_writes h

/-- The references the scoring stretch writes. -/
abbrev logitW : List (Ref sig .tc) :=
  [main_v67, main_v68, main_v69, main_v70]
theorem logit_writes : (logitOps : List (HloOp τ sig (Elt F))).Forall fun op =>
    op.writes ⊆ (logitW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the scoring stretch does not write keeps its contents over it. -/
theorem logit_keeps (V : Valuation τ sig (Elt F)) {r : Ref sig .tc} (h : r ∉ logitW) :
    after logitOps V (Proc.devRef .tc r) = V (Proc.devRef .tc r) :=
  after_of_writes_sub logitOps V logit_writes h

/-- The references the log-softmax stretch writes. -/
abbrev lsmW : List (Ref sig .tc) :=
  [main_call1_cst, main_call1_v0, main_call1_cst_0, main_call1_v1, main_call1_v2, main_call1_v3, main_call1_v4,
  main_call1_v5, main_call1_v6, main_call1_cst_1, main_call1_v7, main_call1_v8, main_call1_v9, main_call1_v10,
  main_v71]
theorem lsm_writes : (lsmOps : List (HloOp τ sig (Elt F))).Forall fun op =>
    op.writes ⊆ (lsmW.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
/-- A reference the log-softmax stretch does not write keeps its contents over it. -/
theorem lsm_keeps (V : Valuation τ sig (Elt F)) {r : Ref sig .tc} (h : r ∉ lsmW) :
    after lsmOps V (Proc.devRef .tc r) = V (Proc.devRef .tc r) :=
  after_of_writes_sub lsmOps V lsm_writes h

/-- The references the last operation writes. -/
abbrev houtW : List (Ref sig .tc) :=
  [main_v72]
theorem hout_writes : (houtOps : List (HloOp τ sig (Elt F))).Forall fun op =>
    op.writes ⊆ (houtW.map (Proc.devRef (τ := τ) .tc)).toFinset := by
  simp only [List.Forall, nullary_writes, unary_writes, binary_writes, ternary_writes, reshape_writes,
    Finset.singleton_subset_iff, List.mem_toFinset]
  exact List.mem_map_of_mem (by decide)
/-- A reference the last operation does not write keeps its contents over it. -/
theorem hout_keeps (V : Valuation τ sig (Elt F)) {r : Ref sig .tc} (h : r ∉ houtW) :
    after houtOps V (Proc.devRef .tc r) = V (Proc.devRef .tc r) :=
  after_of_writes_sub houtOps V hout_writes h

/-! ## Typed references

A called function's operations read and write their buffers through references that carry the tensor's type; the contents
are carried between that type and the buffer's own, which are the same type. -/

section Typed

variable {Val : EltTy → Type}

/-- Contents carried to a typed reference's own buffer type and back are the contents. -/
theorem ofBuf_toBuf {T : BufTy} (x : TRef sig T) (v : T.Contents Val) : x.ofBuf (x.toBuf v) = v := by
  obtain ⟨r, rfl, _, _⟩ := x
  rfl
/-- At a reference typed by its own buffer type the carrying is the identity, -/
theorem ofBuf_self (r : Ref sig .tc) (h2 h3) (v : r.ty.Contents Val) :
    (TRef.of r rfl h2 h3 : TRef sig r.ty).ofBuf v = v := rfl
/-- in both directions. -/
theorem toBuf_self (r : Ref sig .tc) (h2 h3) (v : r.ty.Contents Val) :
    (TRef.of r rfl h2 h3 : TRef sig r.ty).toBuf v = v := rfl

end Typed

/-! ## Each stretch computes its stage

From any contents `V`, a stretch's last buffer ends at the stage's function of what `V` holds at the buffers the stage
starts from: the stretch's operations are the stage's definitions, in the same order. -/

section Pieces

variable (V : Valuation τ sig (Elt F))

/-- After the first stretch the embedded row's buffer holds the table's row at the token index. -/
theorem emb_piece
    {ix : (⟨S1, .i32⟩ : BufTy).Contents (Elt F)} {tbl : (⟨S50257x1024, .f32⟩ : BufTy).Contents (Elt F)}
    (hix : V (Proc.devRef .tc main_arg0) = ix) (htbl : V (Proc.devRef .tc main_arg3) = tbl) :
    after embOps V (Proc.devRef .tc main_v6) = Cert.Spec.emb (F := F) ix tbl := by
  subst hix htbl
  after_results_simp <;> rfl

/-- After the first stretch the hidden row's buffer holds the hidden state as a row. -/
theorem hid_piece
    {hd : (⟨S1x1x1024, .f32⟩ : BufTy).Contents (Elt F)}
    (hhd : V (Proc.devRef .tc main_arg1) = hd) :
    after embOps V (Proc.devRef .tc main_v7) = Cert.Spec.hid (F := F) hd := by
  subst hhd
  after_results_simp <;> rfl

/-- The attention stretch leaves the attention weights: the softmax of the scores of the embedded and hidden rows. -/
theorem attn_piece
    {e : (⟨S1x1024, .f32⟩ : BufTy).Contents (Elt F)} {h : (⟨S1x1024, .f32⟩ : BufTy).Contents (Elt F)}
    {aW : (⟨S10x2048, .f32⟩ : BufTy).Contents (Elt F)} {ab : (⟨S10, .f32⟩ : BufTy).Contents (Elt F)}
    (he : V (Proc.devRef .tc main_v6) = e) (hh : V (Proc.devRef .tc main_v7) = h)
    (haW : V (Proc.devRef .tc main_arg4) = aW) (hab : V (Proc.devRef .tc main_arg5) = ab) :
    after attnOps V (Proc.devRef .tc main_v23) = Cert.Spec.attn (F := F) e h aW ab := by
  subst he hh haW hab
  after_results_simp <;> rfl

/-- The combining stretch leaves the rectified combination of the embedded row and the attention-weighted encoder rows. -/
theorem comb_piece
    {e : (⟨S1x1024, .f32⟩ : BufTy).Contents (Elt F)} {a : (⟨S1x10, .f32⟩ : BufTy).Contents (Elt F)}
    {enc : (⟨S10x1024, .f32⟩ : BufTy).Contents (Elt F)} {cW : (⟨S1024x2048, .f32⟩ : BufTy).Contents (Elt F)}
    {cb : (⟨S1024, .f32⟩ : BufTy).Contents (Elt F)}
    (he : V (Proc.devRef .tc main_v6) = e) (ha : V (Proc.devRef .tc main_v23) = a)
    (henc : V (Proc.devRef .tc main_arg2) = enc) (hcW : V (Proc.devRef .tc main_arg6) = cW)
    (hcb : V (Proc.devRef .tc main_arg7) = cb) :
    after combOps V (Proc.devRef .tc main_v30) = Cert.Spec.comb (F := F) e a enc cW cb := by
  subst he ha henc hcW hcb
  after_results_simp
  simp only [ofBuf_toBuf]
  rw [toBuf_self, ofBuf_self]
  rfl

/-- The gated recurrent update leaves the new hidden row. -/
theorem gru_piece
    {x : (⟨S1x1024, .f32⟩ : BufTy).Contents (Elt F)} {h : (⟨S1x1024, .f32⟩ : BufTy).Contents (Elt F)}
    {wih : (⟨S3072x1024, .f32⟩ : BufTy).Contents (Elt F)} {whh : (⟨S3072x1024, .f32⟩ : BufTy).Contents (Elt F)}
    {bih : (⟨S3072, .f32⟩ : BufTy).Contents (Elt F)} {bhh : (⟨S3072, .f32⟩ : BufTy).Contents (Elt F)}
    (hx : V (Proc.devRef .tc main_v30) = x) (hh : V (Proc.devRef .tc main_v7) = h)
    (hwih : V (Proc.devRef .tc main_arg8) = wih) (hwhh : V (Proc.devRef .tc main_arg9) = whh)
    (hbih : V (Proc.devRef .tc main_arg10) = bih) (hbhh : V (Proc.devRef .tc main_arg11) = bhh) :
    after gruOps V (Proc.devRef .tc main_v66) = Cert.Spec.gru (F := F) x h wih whh bih bhh := by
  subst hx hh hwih hwhh hbih hbhh
  after_results_simp <;> rfl

/-- The scoring stretch leaves the vocabulary scores of the new hidden row. -/
theorem logit_piece
    {hn : (⟨S1x1024, .f32⟩ : BufTy).Contents (Elt F)} {oW : (⟨S50257x1024, .f32⟩ : BufTy).Contents (Elt F)}
    {ob : (⟨S50257, .f32⟩ : BufTy).Contents (Elt F)}
    (hhn : V (Proc.devRef .tc main_v66) = hn) (hoW : V (Proc.devRef .tc main_arg12) = oW)
    (hob : V (Proc.devRef .tc main_arg13) = ob) :
    after logitOps V (Proc.devRef .tc main_v70) = Cert.Spec.logit (F := F) hn oW ob := by
  subst hhn hoW hob
  after_results_simp <;> rfl

/-- The log-softmax stretch leaves the log-softmax of the scores:
    the same maximum, shift, exponential, sum, logarithm and second shift, in the same order. -/
theorem lsm_piece
    {lg : (⟨S1x50257, .f32⟩ : BufTy).Contents (Elt F)}
    (hlg : V (Proc.devRef .tc main_v70) = lg) :
    after lsmOps V (Proc.devRef .tc main_v71) = Cert.Spec.lsm (F := F) lg := by
  subst hlg
  after_results_simp
  simp only [ofBuf_toBuf]
  rw [toBuf_self, ofBuf_self]
  generalize V (Proc.devRef .tc main_v70) = x
  rfl

/-- The last operation leaves the new hidden row with its leading unit axis put back. -/
theorem hout_piece
    {hn : (⟨S1x1024, .f32⟩ : BufTy).Contents (Elt F)}
    (hhn : V (Proc.devRef .tc main_v66) = hn) :
    after houtOps V (Proc.devRef .tc main_v72) = Cert.Spec.hout (F := F) hn := by
  subst hhn
  after_results_simp <;> rfl

end Pieces

/-! ## The contents after each stretch -/

section Chain

variable (m : (ℓ : Loc nD τ sig) → Buf (Elt Ideal) ℓ) (c : Dev nD)

abbrev embRow : (⟨S1x1024, .f32⟩ : BufTy).Contents (Elt Ideal) :=
  Cert.Spec.emb (F := Ideal) (m ((c.tc : Thread nD τ).loc main_arg0)) (m ((c.tc : Thread nD τ).loc main_arg3))
abbrev hidRow : (⟨S1x1024, .f32⟩ : BufTy).Contents (Elt Ideal) :=
  Cert.Spec.hid (F := Ideal) (m ((c.tc : Thread nD τ).loc main_arg1))
abbrev attnRow : (⟨S1x10, .f32⟩ : BufTy).Contents (Elt Ideal) :=
  Cert.Spec.attn (F := Ideal) (embRow m c) (hidRow m c) (m ((c.tc : Thread nD τ).loc main_arg4)) (m ((c.tc : Thread nD τ).loc main_arg5))
abbrev combRow : (⟨S1x1024, .f32⟩ : BufTy).Contents (Elt Ideal) :=
  Cert.Spec.comb (F := Ideal) (embRow m c) (attnRow m c) (m ((c.tc : Thread nD τ).loc main_arg2)) (m ((c.tc : Thread nD τ).loc main_arg6)) (m ((c.tc : Thread nD τ).loc main_arg7))
abbrev newRow : (⟨S1x1024, .f32⟩ : BufTy).Contents (Elt Ideal) :=
  Cert.Spec.gru (F := Ideal) (combRow m c) (hidRow m c) (m ((c.tc : Thread nD τ).loc main_arg8)) (m ((c.tc : Thread nD τ).loc main_arg9)) (m ((c.tc : Thread nD τ).loc main_arg10)) (m ((c.tc : Thread nD τ).loc main_arg11))
abbrev logitRow : (⟨S1x50257, .f32⟩ : BufTy).Contents (Elt Ideal) :=
  Cert.Spec.logit (F := Ideal) (newRow m c) (m ((c.tc : Thread nD τ).loc main_arg12)) (m ((c.tc : Thread nD τ).loc main_arg13))

/-- Core `c`'s buffers at launch, -/
abbrev V0 : Valuation τ sig (Elt Ideal) := launchContents m c
/-- after the first stretch (the embedded and hidden rows), -/
abbrev V1 : Valuation τ sig (Elt Ideal) := after embOps (V0 m c)
/-- after the attention stretch, -/
abbrev V2 : Valuation τ sig (Elt Ideal) := after attnOps (V1 m c)
/-- after the combining stretch, -/
abbrev V3 : Valuation τ sig (Elt Ideal) := after combOps (V2 m c)
/-- after the gated recurrent update, -/
abbrev V4 : Valuation τ sig (Elt Ideal) := after gruOps (V3 m c)
/-- after the scoring stretch, -/
abbrev V5 : Valuation τ sig (Elt Ideal) := after logitOps (V4 m c)
/-- after the log-softmax stretch, -/
abbrev V6 : Valuation τ sig (Elt Ideal) := after lsmOps (V5 m c)
/-- and after the last operation: the end of the line. -/
abbrev V7 : Valuation τ sig (Elt Ideal) := after houtOps (V6 m c)

/-- The whole line from the launch contents ends at the last of these. -/
theorem after_ops : after (ops (F := Ideal)) (launchContents m c) = V7 m c := by
  rw [ops_cut, after_app, after_app, after_app, after_app, after_app, after_app]

/-! ### The arguments are never written -/

/-- The fourteen arguments. -/
abbrev argRefs : List (Ref sig .tc) :=
  [main_arg0, main_arg1, main_arg2, main_arg3, main_arg4, main_arg5, main_arg6,
   main_arg7, main_arg8, main_arg9, main_arg10, main_arg11, main_arg12, main_arg13]

/-- No stretch writes an argument. -/
theorem args_unwritten : ∀ r ∈ argRefs,
    r ∉ embW ∧ r ∉ attnW ∧ r ∉ combW ∧ r ∉ gruW ∧ r ∉ logitW ∧ r ∉ lsmW ∧ r ∉ houtW := by decide

theorem V1_arg {r : Ref sig .tc} (hr : r ∈ argRefs) : V1 m c (Proc.devRef .tc r) = m ((c.tc : Thread nD τ).loc r) :=
  emb_keeps _ (args_unwritten r hr).1
theorem V2_arg {r : Ref sig .tc} (hr : r ∈ argRefs) : V2 m c (Proc.devRef .tc r) = m ((c.tc : Thread nD τ).loc r) :=
  (attn_keeps _ (args_unwritten r hr).2.1).trans (V1_arg m c hr)
theorem V3_arg {r : Ref sig .tc} (hr : r ∈ argRefs) : V3 m c (Proc.devRef .tc r) = m ((c.tc : Thread nD τ).loc r) :=
  (comb_keeps _ (args_unwritten r hr).2.2.1).trans (V2_arg m c hr)
theorem V4_arg {r : Ref sig .tc} (hr : r ∈ argRefs) : V4 m c (Proc.devRef .tc r) = m ((c.tc : Thread nD τ).loc r) :=
  (gru_keeps _ (args_unwritten r hr).2.2.2.1).trans (V3_arg m c hr)
theorem V5_arg {r : Ref sig .tc} (hr : r ∈ argRefs) : V5 m c (Proc.devRef .tc r) = m ((c.tc : Thread nD τ).loc r) :=
  (logit_keeps _ (args_unwritten r hr).2.2.2.2.1).trans (V4_arg m c hr)
theorem V6_arg {r : Ref sig .tc} (hr : r ∈ argRefs) : V6 m c (Proc.devRef .tc r) = m ((c.tc : Thread nD τ).loc r) :=
  (lsm_keeps _ (args_unwritten r hr).2.2.2.2.2.1).trans (V5_arg m c hr)
/-- An argument's buffer ends as it was at launch. -/
theorem V7_arg {r : Ref sig .tc} (hr : r ∈ argRefs) : V7 m c (Proc.devRef .tc r) = m ((c.tc : Thread nD τ).loc r) :=
  (hout_keeps _ (args_unwritten r hr).2.2.2.2.2.2).trans (V6_arg m c hr)

/-! ### The rows, stage by stage -/

/-- After the first stretch: the embedded row -/
theorem V1_emb : V1 m c (Proc.devRef .tc main_v6) = embRow m c := emb_piece _ rfl rfl
/-- and the hidden row. -/
theorem V1_hid : V1 m c (Proc.devRef .tc main_v7) = hidRow m c := hid_piece _ rfl

/-- After the attention stretch: the attention weights, the two rows kept. -/
theorem V2_attn : V2 m c (Proc.devRef .tc main_v23) = attnRow m c :=
  attn_piece _ (V1_emb m c) (V1_hid m c) (V1_arg m c (by decide)) (V1_arg m c (by decide))
theorem V2_emb : V2 m c (Proc.devRef .tc main_v6) = embRow m c := (attn_keeps _ (by decide)).trans (V1_emb m c)
theorem V2_hid : V2 m c (Proc.devRef .tc main_v7) = hidRow m c := (attn_keeps _ (by decide)).trans (V1_hid m c)

/-- After the combining stretch: the combined input, the hidden row and the attention weights kept. -/
theorem V3_comb : V3 m c (Proc.devRef .tc main_v30) = combRow m c :=
  comb_piece _ (V2_emb m c) (V2_attn m c) (V2_arg m c (by decide)) (V2_arg m c (by decide)) (V2_arg m c (by decide))
theorem V3_hid : V3 m c (Proc.devRef .tc main_v7) = hidRow m c := (comb_keeps _ (by decide)).trans (V2_hid m c)
theorem V3_attn : V3 m c (Proc.devRef .tc main_v23) = attnRow m c := (comb_keeps _ (by decide)).trans (V2_attn m c)

/-- After the gated recurrent update: the new hidden row. -/
theorem V4_new : V4 m c (Proc.devRef .tc main_v66) = newRow m c :=
  gru_piece _ (V3_comb m c) (V3_hid m c) (V3_arg m c (by decide)) (V3_arg m c (by decide)) (V3_arg m c (by decide))
    (V3_arg m c (by decide))
theorem V4_attn : V4 m c (Proc.devRef .tc main_v23) = attnRow m c := (gru_keeps _ (by decide)).trans (V3_attn m c)

/-- After the scoring stretch: the vocabulary scores. -/
theorem V5_logit : V5 m c (Proc.devRef .tc main_v70) = logitRow m c :=
  logit_piece _ (V4_new m c) (V4_arg m c (by decide)) (V4_arg m c (by decide))
theorem V5_new : V5 m c (Proc.devRef .tc main_v66) = newRow m c := (logit_keeps _ (by decide)).trans (V4_new m c)
theorem V5_attn : V5 m c (Proc.devRef .tc main_v23) = attnRow m c := (logit_keeps _ (by decide)).trans (V4_attn m c)

/-- After the log-softmax stretch: the first result. -/
theorem V6_lsm : V6 m c (Proc.devRef .tc main_v71) = Cert.Spec.lsm (F := Ideal) (logitRow m c) :=
  lsm_piece _ (V5_logit m c)
theorem V6_new : V6 m c (Proc.devRef .tc main_v66) = newRow m c := (lsm_keeps _ (by decide)).trans (V5_new m c)
theorem V6_attn : V6 m c (Proc.devRef .tc main_v23) = attnRow m c := (lsm_keeps _ (by decide)).trans (V5_attn m c)

/-- At the end of the line: the log-softmax of the scores, -/
theorem V7_lsm : V7 m c (Proc.devRef .tc main_v71) = Cert.Spec.lsm (F := Ideal) (logitRow m c) :=
  (hout_keeps _ (by decide)).trans (V6_lsm m c)
/-- the new hidden row in its returned form, -/
theorem V7_hout : V7 m c (Proc.devRef .tc main_v72) = Cert.Spec.hout (F := Ideal) (newRow m c) :=
  hout_piece _ (V6_new m c)
/-- and the attention weights. -/
theorem V7_attn : V7 m c (Proc.devRef .tc main_v23) = attnRow m c := (hout_keeps _ (by decide)).trans (V6_attn m c)

end Chain

/-! ## The run -/

/-- On every device, from any memory with zero counters: every weakly fair execution of the reference's @main terminates
    with its three results at the stages' values of the arguments — the log-softmax of the scores, the new hidden row in
    its returned form, the attention weights — and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = Cert.Spec.lsm (F := Ideal) (logitRow m c)
      ∧ r.2.mem ((c.tc : Thread nD τ).loc main_v72) = Cert.Spec.hout (F := Ideal) (newRow m c)
      ∧ r.2.mem ((c.tc : Thread nD τ).loc main_v23) = attnRow m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v71).trans ((congrFun (after_ops m c) _).trans (V7_lsm m c)),
       (h c main_v72).trans ((congrFun (after_ops m c) _).trans (V7_hout m c)),
       (h c main_v23).trans ((congrFun (after_ops m c) _).trans (V7_attn m c)),
       (h c main_arg0).trans ((congrFun (after_ops m c) _).trans (V7_arg m c (by decide))),
       (h c main_arg1).trans ((congrFun (after_ops m c) _).trans (V7_arg m c (by decide))),
       (h c main_arg2).trans ((congrFun (after_ops m c) _).trans (V7_arg m c (by decide))),
       (h c main_arg3).trans ((congrFun (after_ops m c) _).trans (V7_arg m c (by decide))),
       (h c main_arg4).trans ((congrFun (after_ops m c) _).trans (V7_arg m c (by decide))),
       (h c main_arg5).trans ((congrFun (after_ops m c) _).trans (V7_arg m c (by decide))),
       (h c main_arg6).trans ((congrFun (after_ops m c) _).trans (V7_arg m c (by decide))),
       (h c main_arg7).trans ((congrFun (after_ops m c) _).trans (V7_arg m c (by decide))),
       (h c main_arg8).trans ((congrFun (after_ops m c) _).trans (V7_arg m c (by decide))),
       (h c main_arg9).trans ((congrFun (after_ops m c) _).trans (V7_arg m c (by decide))),
       (h c main_arg10).trans ((congrFun (after_ops m c) _).trans (V7_arg m c (by decide))),
       (h c main_arg11).trans ((congrFun (after_ops m c) _).trans (V7_arg m c (by decide))),
       (h c main_arg12).trans ((congrFun (after_ops m c) _).trans (V7_arg m c (by decide))),
       (h c main_arg13).trans ((congrFun (after_ops m c) _).trans (V7_arg m c (by decide)))⟩)
    (run_seq scopedRefs_eq scopedSems_eq defs main (fun _ => ops) main_eq (fun _ => ops_sub) m ρ)

end Cert.ReferenceIdeal.RefValue

end
-- ==== Proof.lean ====
/- The certificate of the attention-decoder step: one embedding lookup, Bahdanau-style attention over ten encoder rows, a
   combine-and-rectify layer, one gated recurrent step and a vocabulary projection with a log-softmax — computed by three
   kernels (attention and combine in one grid point; the recurrent step in two blocks of 512 hidden units; the projection
   in sixteen blocks of 3200 vocabulary entries, the last cut at entry 50257) against the plain array program.

   Over the extended reals both programs compute the same functions. A change of float format is the identity there, so the
   kernels' products of rows rounded to a narrower format are the exact sums the reference's products are; a product
   against a matrix's rows is the product against its transpose; the recurrent step's gates are read off the gate-major
   reshape of the stacked weight matrix at the rows the reference slices; the kernel's logistic is, by definition, the
   reference's quotient 1 / (1 + exp(−x)); the blocks of the recurrent update and of the projection tile their rows, the
   last projection block only up to the array's end. Nothing distributes a product over a sum or cancels, so finiteness of
   the inputs is never used.

   The three frames: the idealized kernel's is its run read at the arguments; the word-level kernel's is proved apart,
   with the scores array carried at contents not named (the last projection block's rows past the array's end are not
   named, and only over the extended reals is a product's entry known to ignore them); the reference has no kernel and
   its frame is its run with the results dropped. The idealization rewrote nothing, so nothing is to preserve. -/
import proofs.«411821_j20263655702618_3_alg».proof.Defs
import proofs.«411821_j20263655702618_3_alg».proof.Proof.Gen.Kernel
import proofs.«411821_j20263655702618_3_alg».proof.Proof.Gen.KernelIdeal
import proofs.«411821_j20263655702618_3_alg».proof.Proof.Gen.ReferenceIdeal
import proofs.«411821_j20263655702618_3_alg».proof.Proof.Gen.Pre_finite_inputs
import proofs.«411821_j20263655702618_3_alg».proof.Proof.Kernel.RunB
import proofs.«411821_j20263655702618_3_alg».proof.Proof.KernelIdeal.RunI
import proofs.«411821_j20263655702618_3_alg».proof.Proof.KernelIdeal.Plumb
import proofs.«411821_j20263655702618_3_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem

section KernelSide
open Cert.KernelIdeal Cert.KernelIdeal.Gen Cert.KernelIdeal.Hand Cert.KernelIdeal.Val

/-- An unscoped TensorCore buffer is among those the run's last state names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The idealized kernel's frame: its run, read at the argument arrays. -/
theorem frame_ki : Cert.frame_KernelIdeal := fun m ρ _ =>
  (θ_run defs _ _).mono (fun r h c =>
    ⟨(h c _ (mem_uc main_arg0 (by decide))).trans (W8_arg0 m c),
      (h c _ (mem_uc main_arg1 (by decide))).trans (W8_arg1 m c),
      (h c _ (mem_uc main_arg2 (by decide))).trans (W8_arg2 m c),
      (h c _ (mem_uc main_arg3 (by decide))).trans (W8_arg3 m c),
      (h c _ (mem_uc main_arg4 (by decide))).trans (W8_arg4 m c),
      (h c _ (mem_uc main_arg5 (by decide))).trans (W8_arg5 m c),
      (h c _ (mem_uc main_arg6 (by decide))).trans (W8_arg6 m c),
      (h c _ (mem_uc main_arg7 (by decide))).trans (W8_arg7 m c),
      (h c _ (mem_uc main_arg8 (by decide))).trans (W8_arg8 m c),
      (h c _ (mem_uc main_arg9 (by decide))).trans (W8_arg9 m c),
      (h c _ (mem_uc main_arg10 (by decide))).trans (W8_arg10 m c),
      (h c _ (mem_uc main_arg11 (by decide))).trans (W8_arg11 m c),
      (h c _ (mem_uc main_arg12 (by decide))).trans (W8_arg12 m c),
      (h c _ (mem_uc main_arg13 (by decide))).trans (W8_arg13 m c)⟩)
    (run_main m ρ)

end KernelSide

/-- The word-level kernel's frame. -/
theorem frame_k : Cert.frame_Kernel := fun m ρ _ => Cert.Kernel.Hand.frame (F := Bits) m ρ

/-- The reference's frame: its run with the results dropped. -/
theorem frame_ri : Cert.frame_ReferenceIdeal := fun m ρ _ =>
  (θ_run Cert.ReferenceIdeal.defs _ _).mono (fun _ h c => (h c).2.2.2) (Cert.ReferenceIdeal.RefValue.run m ρ)

/-- Over the extended reals the two programs, run from memories that agree on the arguments, end with the same three
    results: the log-softmax of the scores, the new hidden row in its returned form, and the attention weights — each
    the same staged function of the arguments on both sides. -/
theorem algebraic : Cert.algebraic_KernelIdeal_ReferenceIdeal := by
  intro m ρ m' ρ' _ hagree
  refine ⟨fun c => Cert.Spec.lsm (F := Ideal) (Cert.KernelIdeal.Val.logitRow m c),
    fun c => Cert.Spec.hout (F := Ideal) (Cert.KernelIdeal.Val.newRow m c),
    fun c => Cert.KernelIdeal.Val.attnRow m c, ?_, ?_⟩
  · exact (θ_run Cert.KernelIdeal.defs _ _).mono (fun r h c =>
      ⟨(h c _ (mem_uc Cert.KernelIdeal.main_v16 (by decide))).trans (Cert.KernelIdeal.Val.W8_v16 m c),
       (h c _ (mem_uc Cert.KernelIdeal.main_v17 (by decide))).trans (Cert.KernelIdeal.Val.W8_v17 m c),
       (h c _ (mem_uc Cert.KernelIdeal.main_v8_0 (by decide))).trans (Cert.KernelIdeal.Val.W8_v8_0 m c),
       (h c _ (mem_uc Cert.KernelIdeal.main_arg0 (by decide))).trans (Cert.KernelIdeal.Val.W8_arg0 m c),
       (h c _ (mem_uc Cert.KernelIdeal.main_arg1 (by decide))).trans (Cert.KernelIdeal.Val.W8_arg1 m c),
       (h c _ (mem_uc Cert.KernelIdeal.main_arg2 (by decide))).trans (Cert.KernelIdeal.Val.W8_arg2 m c),
       (h c _ (mem_uc Cert.KernelIdeal.main_arg3 (by decide))).trans (Cert.KernelIdeal.Val.W8_arg3 m c),
       (h c _ (mem_uc Cert.KernelIdeal.main_arg4 (by decide))).trans (Cert.KernelIdeal.Val.W8_arg4 m c),
       (h c _ (mem_uc Cert.KernelIdeal.main_arg5 (by decide))).trans (Cert.KernelIdeal.Val.W8_arg5 m c),
       (h c _ (mem_uc Cert.KernelIdeal.main_arg6 (by decide))).trans (Cert.KernelIdeal.Val.W8_arg6 m c),
       (h c _ (mem_uc Cert.KernelIdeal.main_arg7 (by decide))).trans (Cert.KernelIdeal.Val.W8_arg7 m c),
       (h c _ (mem_uc Cert.KernelIdeal.main_arg8 (by decide))).trans (Cert.KernelIdeal.Val.W8_arg8 m c),
       (h c _ (mem_uc Cert.KernelIdeal.main_arg9 (by decide))).trans (Cert.KernelIdeal.Val.W8_arg9 m c),
       (h c _ (mem_uc Cert.KernelIdeal.main_arg10 (by decide))).trans (Cert.KernelIdeal.Val.W8_arg10 m c),
       (h c _ (mem_uc Cert.KernelIdeal.main_arg11 (by decide))).trans (Cert.KernelIdeal.Val.W8_arg11 m c),
       (h c _ (mem_uc Cert.KernelIdeal.main_arg12 (by decide))).trans (Cert.KernelIdeal.Val.W8_arg12 m c),
       (h c _ (mem_uc Cert.KernelIdeal.main_arg13 (by decide))).trans (Cert.KernelIdeal.Val.W8_arg13 m c)⟩)
      (Cert.KernelIdeal.Hand.run_main m ρ)
  · refine (θ_run Cert.ReferenceIdeal.defs _ _).mono (fun r h c => ⟨(h c).1.trans ?_, (h c).2.1.trans ?_, (h c).2.2.1.trans ?_, (h c).2.2.2⟩)
      (Cert.ReferenceIdeal.RefValue.run m' ρ')
    all_goals
      obtain ⟨a0, a1, a2, a3, a4, a5, a6, a7, a8, a9, a10, a11, a12, a13⟩ := hagree c
      simp only [Cert.ReferenceIdeal.RefValue.logitRow, Cert.ReferenceIdeal.RefValue.newRow, Cert.ReferenceIdeal.RefValue.combRow,
        Cert.ReferenceIdeal.RefValue.attnRow, Cert.ReferenceIdeal.RefValue.hidRow, Cert.ReferenceIdeal.RefValue.embRow,
        a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
